-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S512x64 : Shape := ⟨2, ![512, 64]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x64 .f32) (main_arg5 : FVec F S512x64 .f32) (main_arg6 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S8192x512 .f32) (main_arg1 : FVec F S8192x512 .f32) (main_arg2 : FVec F S512 .f32) (main_arg3 : FVec F S512 .f32) (main_arg4 : FVec F S512x64 .f32) (main_arg5 : FVec F S512x64 .f32) (main_arg6 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S8192x512 : Shape := ⟨2, ![8192, 512]⟩
abbrev S512 : Shape := ⟨1, ![512]⟩
abbrev S512x64 : Shape := ⟨2, ![512, 64]⟩
abbrev S512x512 : Shape := ⟨2, ![512, 512]⟩
abbrev S1x512 : Shape := ⟨2, ![1, 512]⟩
abbrev S8192x64 : Shape := ⟨2, ![8192, 64]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩

abbrev nBuf : Space → Nat
  | .hbm => 13
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512x64, .f32⟩
  | .hbm, ⟨5, _⟩ => ⟨S512x64, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S8192x64, .bf16⟩
  | .hbm, ⟨10, _⟩ => ⟨S8192x64, .bf16⟩
  | .hbm, ⟨11, _⟩ => ⟨S8192x512, .bf16⟩
  | .hbm, ⟨12, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x64, .f32⟩
  | .local _ .vmem, ⟨7, _⟩ => ⟨S512x64, .f32⟩
  | .local _ .vmem, ⟨8, _⟩ => ⟨S512x512, .f32⟩
  | .local _ .vmem, ⟨9, _⟩ => ⟨S1024x64, .bf16⟩
  | .local _ .vmem, ⟨10, _⟩ => ⟨S1024x64, .bf16⟩
  | .local _ .vmem, ⟨11, _⟩ => ⟨S1024x64, .bf16⟩
  | .local _ .vmem, ⟨12, _⟩ => ⟨S1024x64, .bf16⟩
  | .local _ .vmem, ⟨13, _⟩ => ⟨S1024x512, .bf16⟩
  | .local _ .vmem, ⟨14, _⟩ => ⟨S1024x512, .bf16⟩
  | .local _ .vmem, ⟨15, _⟩ => ⟨S512x512, .f32⟩
  | .local _ .vmem, ⟨16, _⟩ => ⟨S512x512, .f32⟩
  | .local _ .vmem, ⟨17, _⟩ => ⟨S512x64, .bf16⟩
  | .local _ .vmem, ⟨18, _⟩ => ⟨S512x64, .bf16⟩
  | .local _ .vmem, ⟨19, _⟩ => ⟨S512x64, .bf16⟩
  | .local _ .vmem, ⟨20, _⟩ => ⟨S512x64, .bf16⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 16], ![false, false]⟩

def k1_cond3 (i : grid1.Coords) : BitVec 1 :=
  let arg1 : BitVec 32 := BitVec.ofNat 32 (i 1).val
  let c15_i32 : BitVec 32 := 15#32
  let v6 : BitVec 1 := Scalar.cmpi .eq arg1 c15_i32
  let v7 : BitVec 32 := Scalar.extui v6
  let c0_i32_2 : BitVec 32 := 0#32
  let v8 : BitVec 1 := Scalar.cmpi .ne v7 c0_i32_2
  v8

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let v0 : BitVec 32 := Scalar.minsi arg0 arg1
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let v0 : BitVec 32 := Scalar.minsi arg0 arg1
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S512x512_S512x512_0_0 : ∀ a, (![0, 0] : Fin 2 → Nat) a + S512x512.size a ≤ S512x512.size a
  h_S512x512 : 0 < S512x512.numel
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  packedbf16_S1024x512_S1024x512_0_0 : (Rect.unit (s := S1024x512) ![0, 0] S1024x512.size inb_S1024x512_S1024x512_0_0).PackedRows (EltTy.packing .bf16)
  shapeCasts_S512x512_S512x512 : S512x512.ShapeCasts S512x512
  shapeCasts_S512x64_S512x64 : S512x64.ShapeCasts S512x64
  iota_S512x512_d0_w32 : S512x512.Iotas .tc 32 [0]
  iota_S512x512_d1_w32 : S512x512.Iotas .tc 32 [1]
  dot_S1024x512_S512x64_S1024x64_1_0_0_1_n_n_wf : DotDims.WF S1024x512 S512x64 S1024x64 [1] [0] [0] [1] [] []
  dot_S1024x512_S512x512_S1024x512_1_0_0_1_n_n_wf : DotDims.WF S1024x512 S512x512 S1024x512 [1] [0] [0] [1] [] []
  dot_S512x64_S512x64_S512x512_1_1_0_0_n_n_wf : DotDims.WF S512x64 S512x64 S512x512 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .f32 = 32 ∨ (Rect.block (s := S512x64) S512x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S8192x64.size a
  hwx0_7 : ∀ i : grid0.Coords, EltTy.bits .bf16 = 32 ∨ (Rect.block (s := S8192x64) S1024x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S8192x64.size a
  hwx0_8 : ∀ i : grid0.Coords, EltTy.bits .bf16 = 32 ∨ (Rect.block (s := S8192x64) S1024x64.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x512.size a
  hwx0_9 : ∀ i : grid0.Coords, EltTy.bits .bf16 = 32 ∨ (Rect.block (s := S8192x512) S1024x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S8192x64.size a
  hwx1_1 : ∀ i : grid1.Coords, EltTy.bits .bf16 = 32 ∨ (Rect.block (s := S8192x64) S512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S8192x64.size a
  hwx1_2 : ∀ i : grid1.Coords, EltTy.bits .bf16 = 32 ∨ (Rect.block (s := S8192x64) S512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .bf16 = 32 ∨ (Rect.block (s := S8192x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .f32 = 32 ∨ (Rect.block (s := S8192x512) S512x512.size (cc1_transform_4 i) (hinb1_4 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S1024x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1024x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_2) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S512 : Shape := ⟨1, ![512]⟩
abbrev S512x64 : Shape := ⟨2, ![512, 64]⟩
abbrev S512x512 : Shape := ⟨2, ![512, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x64 : Shape := ⟨2, ![8192, 64]⟩
abbrev S8192x8192 : Shape := ⟨2, ![8192, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512x64, .f32⟩
  | .hbm, ⟨5, _⟩ => ⟨S512x64, .f32⟩
  | .hbm, ⟨6, _⟩ => ⟨S512x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S8192x64, .f32⟩
  | .hbm, ⟨37, _⟩ => ⟨S8192x64, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .i1⟩
  | .hbm, ⟨43, _⟩ => ⟨S8192x8192, .i1⟩
  | .hbm, ⟨44, _⟩ => ⟨S8192x8192, .i32⟩
  | .hbm, ⟨45, _⟩ => ⟨S_, .i32⟩
  | .hbm, ⟨46, _⟩ => ⟨S8192x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .i1⟩
  | .hbm, ⟨51, _⟩ => ⟨S8192x8192, .i1⟩
  | .hbm, ⟨52, _⟩ => ⟨S8192x8192, .i1⟩
  | .hbm, ⟨53, _⟩ => ⟨S_, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x512, .f32⟩
  | .hbm, ⟨58, _⟩ => ⟨S8192x512, .f32⟩
  | .hbm, ⟨59, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v30 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x8192 : S_.BroadcastsInDim S8192x8192 (![] : Fin 0 → Fin S8192x8192.rank)
  dot_S8192x512_S512x64_S8192x64_1_0_0_1_n_n_wf : DotDims.WF S8192x512 S512x64 S8192x64 [1] [0] [0] [1] [] []
  dot_S8192x64_S8192x64_S8192x8192_1_1_0_0_n_n_wf : DotDims.WF S8192x64 S8192x64 S8192x8192 [1] [1] [0] [0] [] []
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.HandKernel.Defs0.lean ====
/- Region 0 (the projection kernel: layer normalisation of a row block, then q = n·Wq, k = n·Wk, v = e·Wv): the blocks
   its windows stage, what each of its three output buffers holds after the body as a function of the seven input
   blocks, and the proof data of its pipeline. Definitions only; the body's triple is proved in Region0.lean. -/
import proofs.«180881_j62843961475101_1_alg».proof.Proof.Gen.Kernel.Launch
import proofs.«180881_j62843961475101_1_alg».proof.Proof.Gen.Kernel.Skeleton
import proofs.«180881_j62843961475101_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1024x512 := Rect.unit (s := S1024x512) ![0, 0] S1024x512.size inb_S1024x512_S1024x512_0_0
abbrev rG : Rect S1x512 := Rect.unit (s := S1x512) ![0, 0] S1x512.size inb_S1x512_S1x512_0_0
abbrev rW : Rect S512x64 := Rect.unit (s := S512x64) ![0, 0] S512x64.size inb_S512x64_S512x64_0_0
abbrev rWv : Rect S512x512 := Rect.unit (s := S512x512) ![0, 0] S512x512.size inb_S512x512_S512x512_0_0
abbrev rQ : Rect S1024x64 := Rect.unit (s := S1024x64) ![0, 0] S1024x64.size inb_S1024x64_S1024x64_0_0

/-- The query block: the normalised rows times Wq, as the one piece the body stores. -/
def out0_7 (x : Vec F S1024x512 .f32) (g b : Vec F S1x512 .f32) (wq : Vec F S512x64 .f32) : Vec F S1024x64 .bf16 :=
  View.canon [⟨rQ, k0_pay1 (k0_pay5 (View.ld x rX) (View.ld g rG) (View.ld b rG) (View.ld wq rW))⟩]
/-- The key block: the same normalised rows times Wk. -/
def out0_8 (x : Vec F S1024x512 .f32) (g b : Vec F S1x512 .f32) (wk : Vec F S512x64 .f32) : Vec F S1024x64 .bf16 :=
  View.canon [⟨rQ, k0_pay2 (k0_pay6 (View.ld x rX) (View.ld g rG) (View.ld b rG) (View.ld wk rW))⟩]
/-- The value block: the embedding rows times Wv. -/
def out0_9 (xe : Vec F S1024x512 .f32) (wv : Vec F S512x512 .f32) : Vec F S1024x512 .bf16 :=
  View.canon [⟨rX, k0_pay3 (k0_pay7 (View.ld xe rX) (View.ld wv rWv))⟩]

/-- The proof data of pipeline 0 on core `c`: the arrays as the region finds them; after the body each input's buffer at
    its block and each output's at the block above; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 2 t) (iblk0 V c 3 t) (iblk0 V c 4 t)
    | ⟨8, _⟩ => out0_8 (iblk0 V c 0 t) (iblk0 V c 2 t) (iblk0 V c 3 t) (iblk0 V c 5 t)
    | ⟨9, _⟩ => out0_9 (iblk0 V c 1 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 2 t) (iblk0 V c 3 t) (iblk0 V c 4 t) := by dsimp only [dat0]
theorem after0_8 (c : Dev nD) (t : Fin cfg0.N) : (dat0 V c).after 8 t = out0_8 (iblk0 V c 0 t) (iblk0 V c 2 t) (iblk0 V c 3 t) (iblk0 V c 5 t) := by dsimp only [dat0]
theorem after0_9 (c : Dev nD) (t : Fin cfg0.N) : (dat0 V c).after 9 t = out0_9 (iblk0 V c 1 t) (iblk0 V c 6 t) := by dsimp only [dat0]

end Cert.Kernel.Hand

end
-- ==== Proof.HandKernel.Region0.lean ====
/- Region 0 (the projection kernel), the body's triple. At every grid point each of the seven input windows' current
   staging buffer holds that window's block, whether the point fetched it or not; the body loads the seven blocks
   whole, and overwrites each of the three output buffers with a single store of the whole block; so it hands the
   inputs back as it found them and leaves the outputs at `out0_7`, `out0_8`, `out0_9` of the input blocks. -/
import proofs.«180881_j62843961475101_1_alg».proof.Proof.HandKernel.Defs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the inputs' buffers

An input window's body leaves its block in place, the window is never cut and never idle; so at a point that does
not fetch it the block index has not moved and the buffer still holds the block of the point before, which is this
point's. Windows 0 and 1 (the two row blocks) are fetched at every point; windows 2 to 6 (scale, shift and the three
weight matrices) have a constant block index and are fetched at the first point only. -/

/-- Input window 0 (the rows to normalise): its current buffer holds its block at every point. -/
theorem found0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1 (the embedding rows): its current buffer holds its block at every point. -/
theorem found0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2 (the scale): its current buffer holds its block at every point. -/
theorem found0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3 (the shift): its current buffer holds its block at every point. -/
theorem found0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4 (Wq): its current buffer holds its block at every point. -/
theorem found0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5 (Wk): its current buffer holds its block at every point. -/
theorem found0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Input window 6 (Wv): its current buffer holds its block at every point. -/
theorem found0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## One store of the whole block covers the buffer -/

/-- A single piece over the whole 1024×64 rectangle covers every index. -/
theorem whole_rQ (p : Vec F S1024x64 .bf16) (y : S1024x64.Idx) :
    ∃ pc ∈ ([⟨rQ, p⟩] : List (View.Piece (Elt F) S1024x64 .bf16)), y ∈ pc.1.set :=
  View.cover_of_tiled [⟨rQ, p⟩] S1024x64.size (by rfl) y

/-- A single piece over the whole 1024×512 rectangle covers every index. -/
theorem whole_rX (p : Vec F S1024x512 .bf16) (y : S1024x512.Idx) :
    ∃ pc ∈ ([⟨rX, p⟩] : List (View.Piece (Elt F) S1024x512 .bf16)), y ∈ pc.1.set :=
  View.cover_of_tiled [⟨rX, p⟩] S1024x512.size (by rfl) y

/-! ## The body's triple -/

set_option maxHeartbeats 1000000 in
/-- The kernel function on whole staging memrefs — the inputs' reading `x xe g b wq wk wv`, the outputs' at anything —
    runs to a continuation that holds the inputs' as they were and the outputs' at `out0_7`, `out0_8`, `out0_9`: the
    function and the part it calls are sequences of whole-buffer loads and stores over the named payloads; each
    output buffer is loaded once (the value unused) and then stored whole, and a store of the whole block reads back
    as its one piece. -/
theorem run_kernel0 (c : Dev nD) (E : Set ℕ) (i : grid0.Coords)
    (a0 : Memref sig .tc .vmem S1024x512 .f32) (h0 : a0.IsWhole) (a1 : Memref sig .tc .vmem S1024x512 .f32) (h1 : a1.IsWhole) (a2 : Memref sig .tc .vmem S1x512 .f32) (h2 : a2.IsWhole) (a3 : Memref sig .tc .vmem S1x512 .f32) (h3 : a3.IsWhole)
    (a4 : Memref sig .tc .vmem S512x64 .f32) (h4 : a4.IsWhole) (a5 : Memref sig .tc .vmem S512x64 .f32) (h5 : a5.IsWhole) (a6 : Memref sig .tc .vmem S512x512 .f32) (h6 : a6.IsWhole)
    (a7 : Memref sig .tc .vmem S1024x64 .bf16) (h7 : a7.IsWhole) (a8 : Memref sig .tc .vmem S1024x64 .bf16) (h8 : a8.IsWhole) (a9 : Memref sig .tc .vmem S1024x512 .bf16) (h9 : a9.IsWhole)
    (x xe : Vec F S1024x512 .f32) (g b : Vec F S1x512 .f32) (wq wk : Vec F S512x64 .f32) (wv : Vec F S512x512 .f32)
    (K : PUnit → sProp 𝕄) :
    iprop(owns (c : Thread nD τ) a0 fullShare x ∗ owns (c : Thread nD τ) a1 fullShare xe ∗ owns (c : Thread nD τ) a2 fullShare g ∗ owns (c : Thread nD τ) a3 fullShare b
        ∗ owns (c : Thread nD τ) a4 fullShare wq ∗ owns (c : Thread nD τ) a5 fullShare wk ∗ owns (c : Thread nD τ) a6 fullShare wv
        ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x ∗ owns (c : Thread nD τ) a1 fullShare xe ∗ owns (c : Thread nD τ) a2 fullShare g ∗ owns (c : Thread nD τ) a3 fullShare b
            ∗ owns (c : Thread nD τ) a4 fullShare wq ∗ owns (c : Thread nD τ) a5 fullShare wk ∗ owns (c : Thread nD τ) a6 fullShare wv
            ∗ owns (c : Thread nD τ) a7 fullShare (out0_7 x g b wq) ∗ owns (c : Thread nD τ) a8 fullShare (out0_8 x g b wk) ∗ owns (c : Thread nD τ) a9 fullShare (out0_9 xe wv)) -∗ K ⟨⟩))
      ⊢ wp frame (wpE (defs₀ (F := F)) Variants.none c none) E
          (cc0__prep_kernel i a0 h0 a1 h1 a2 h2 a3 h3 a4 h4 a5 h5 a6 h6 a7 h7 a8 h8 a9 h9) K := by
  simp only [cc0__prep_kernel_eq_skeleton]; unfold cc0__prep_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (whole_rQ _)
  isplitl [H8]
  · iexists _; isplitr
    swap; · iexact H8
    ipureintro
    try dsimp only
    exact View.read_writes_eq_canon _ _ _ (whole_rQ _)
  iexists _; isplitr
  swap; · iexact H9
  ipureintro
  try dsimp only
  exact View.read_writes_eq_canon _ _ _ (whole_rX _)

/-! ## The body obligation at a point -/

/-- What the body is handed at point `t`: the invariant, what the core owes, and each window's current buffer. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it hands back: the same, each buffer at what the body leaves there. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks (`found0_w`), so `run_kernel0` applies at the blocks; the
    invariant and what the core owes are not touched and do not change from a point to the next. -/
theorem run_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2, found0_3, found0_4, found0_5, found0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for pipeline 0, at every point. -/
theorem body_obligation0 (c : Dev nD) : BodyObligation (dat0 (F := F) V c) (defs₀ (F := F)) Variants.none () Set.univ := fun t => by
  rw [bigSep_W0, bigSep_W0]
  exact run_body0 V c t

end Cert.Kernel.Hand

end
-- ==== Proof.HandKernel.Defs1.lean ====
/- Region 1 (the causal product: for the row block i and the column block j ≤ i, acc += mask(q_i·k_jᵀ·⅛)·v_j into a scratch
   that is zeroed at j = 0 and added to the residual rows at the last j): the three branch conditions in closed form over
   the grid, the blocks its windows stage, what the scratch holds after each point (a recursion on the point), what the
   output buffer holds where it is stored, the invariant that carries the scratch, and the proof data of its pipeline.
   Definitions and decided facts only; the body's triple is proved in Region1.lean. -/
import proofs.«180881_j62843961475101_1_alg».proof.Proof.HandKernel.Defs0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions, decided over the grid (a point t is the pair i = t / 16, j = t % 16) -/

/-- j = 0: the scratch is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- j ≤ i: the block is on or below the diagonal and is accumulated. -/
abbrev cond1_1 (i : grid1.Coords) : Prop := (Scalar.cmpi .ne (Scalar.extui (Scalar.cmpi .sle (BitVec.ofNat 32 (i 1).val) (BitVec.ofNat 32 (i 0).val))) 0#32) = 1#1
theorem hcond1_1 : ∀ t : Fin cfg1.N, cond1_1 (grid1.coords t) ↔ t.val % 16 ≤ t.val / 16 :=
  (by decide +kernel : ∀ t : Fin grid1.N, cond1_1 (grid1.coords t) ↔ t.val % 16 ≤ t.val / 16)
/-- j = 15: the row block is finished and stored. -/
abbrev cond1_2 (i : grid1.Coords) : Prop := k1_cond3 i = 1#1
theorem hcond1_2 : ∀ t : Fin cfg1.N, cond1_2 (grid1.coords t) ↔ t.val % 16 = 15 :=
  (by decide +kernel : ∀ t : Fin grid1.N, cond1_2 (grid1.coords t) ↔ t.val % 16 = 15)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column block the output buffer is idle and not written back. -/
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
/-- At the last column block it is stored. -/
theorem liveAt1_4 : ∀ t : Fin cfg1.N, cond1_2 (grid1.coords t) → cfg1.idle 4 (grid1.coords t) = false := by decide +kernel

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch, point by point -/

/-- The scratch operand: a whole scoped buffer of the kernel's own. -/
abbrev scM1 : Memref sig .tc .vmem S512x512 .f32 := Memref.whole cc1_scratch0

/-- What one point does to the scratch: zero it when j = 0, then add the masked product when j ≤ i. -/
def scNext (i : grid1.Coords) (q k : Vec F S512x64 .bf16) (v : Vec F S512x512 .bf16) (s : Vec F S512x512 .f32) : Vec F S512x512 .f32 :=
  have s1 : Vec F S512x512 .f32 := if cond1_0 i then k1_pay1 else s
  if cond1_1 i then k1_pay2 i q k s1 v else s1

/-- The scratch after the body at position `n`, by recursion on the position (at position 0 it is zeroed first, so the
    seed there is immaterial). -/
def scAt1 (c : Dev nD) : (n : ℕ) → n < cfg1.N → Vec F S512x512 .f32
  | 0, hn => scNext (grid1.coords ⟨0, hn⟩) (iblk1 V c 1 ⟨0, hn⟩) (iblk1 V c 2 ⟨0, hn⟩) (iblk1 V c 3 ⟨0, hn⟩) k1_pay1
  | n + 1, hn => scNext (grid1.coords ⟨n + 1, hn⟩) (iblk1 V c 1 ⟨n + 1, hn⟩) (iblk1 V c 2 ⟨n + 1, hn⟩) (iblk1 V c 3 ⟨n + 1, hn⟩)
      (scAt1 c n (Nat.lt_of_succ_lt hn))

theorem scAt1_zero (c : Dev nD) (hn : 0 < cfg1.N) :
    scAt1 V c 0 hn = scNext (grid1.coords ⟨0, hn⟩) (iblk1 V c 1 ⟨0, hn⟩) (iblk1 V c 2 ⟨0, hn⟩) (iblk1 V c 3 ⟨0, hn⟩) k1_pay1 := rfl
theorem scAt1_succ (c : Dev nD) (n : ℕ) (hn : n + 1 < cfg1.N) :
    scAt1 V c (n + 1) hn = scNext (grid1.coords ⟨n + 1, hn⟩) (iblk1 V c 1 ⟨n + 1, hn⟩) (iblk1 V c 2 ⟨n + 1, hn⟩) (iblk1 V c 3 ⟨n + 1, hn⟩)
      (scAt1 V c n (Nat.lt_of_succ_lt hn)) := rfl

/-- What the output buffer holds where it is stored: the residual rows plus the finished scratch. -/
def out1_4 (c : Dev nD) (t : Fin cfg1.N) : Vec F S512x512 .f32 := k1_pay3 (iblk1 V c 0 t) (scAt1 V c t.val t.isLt)

/-! ## The invariant that carries the scratch -/

/-- The core's scoped buffers that belong to the other region, each at some contents, followed by `S` (the scratch). -/
def chain1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ S)

/-- The class invariant with the scratch as a memref owned at some contents. -/
theorem PhiA1_eq (c : Dev nD) :
    (Pipeline.ΦA spec1 c : sProp 𝕄) = iprop(chain1 c iprop(∃ d, owns (c : Thread nD τ) scM1 fullShare d) ∗ (∃ r, prngReg c r)) := by
  unfold Pipeline.ΦA chain1; rw [scopedRest1_eq]; simp only [scM1, owns_whole]; try rfl

/-- The region invariant before position `n`: the class's before the first point (the scratch at anything); afterwards the
    scratch at what the point before left in it. -/
def PhiS1 (c : Dev nD) : (n : ℕ) → n ≤ cfg1.N → sProp 𝕄
  | 0, _ => Pipeline.ΦA spec1 c
  | n + 1, hn => iprop(chain1 c (owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(chain1 c (owns (c : Thread nD τ) scM1 fullShare (scAt1 V c n hn)) ∗ (∃ r, prngReg c r)) := rfl
theorem PhiS1_pos (c : Dev nD) (n : ℕ) (h : n ≤ cfg1.N) (hz : n ≠ 0) :
    PhiS1 V c n h = iprop(chain1 c (owns (c : Thread nD τ) scM1 fullShare (scAt1 V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem Phi1_zero (c : Dev nD) : (dat1 V c).Φ 0 = Pipeline.ΦA spec1 c := rfl

end Cert.Kernel.Hand

end
-- ==== Proof.HandKernel.Region1.lean ====
/- Region 1 (the causal product), the body's triple. At the grid point (i, j) the body zeroes the scratch when j = 0, adds the
   masked product of the row block's q with the column block's k and v into it when j ≤ i, and when j = 15 stores the
   residual rows plus the scratch into the output buffer. The three conditions are independent tests of the coordinates, so
   the body is run once for each of their eight assignments at an arbitrary coordinate, every buffer a whole memref at
   named contents: the scratch goes from `s` to `scNext i q k v s`, the output buffer is left as found where j ≠ 15 and
   stored where j = 15. The obligation at a point then reads the inputs' buffers as their blocks, takes the scratch out of
   the invariant at what the point before left (at anything at the first point, where j = 0 and the body zeroes it before
   reading it), and puts it back at this point's contents. -/
import proofs.«180881_j62843961475101_1_alg».proof.Proof.HandKernel.Defs1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through the whole-buffer rectangle -/

/-- The zero offsets of a rank-2 rectangle, however spelt. -/
theorem zeros2_1 : (![0, 0] : Fin 2 → ℕ) = fun _ => 0 := by funext a; fin_cases a <;> rfl

/-- After a last store through the whole-shape rectangle a buffer reads that store's payload, whatever it held and whatever
    was stored before. -/
theorem read_writes_cons_unit_zero1 {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hc : ∀ y, ∃ p ∈ ((⟨Rect.unit off S.size inb, w⟩ : View.Piece Val S e) :: L), y ∈ p.1.set :=
    fun y => ⟨⟨Rect.unit off S.size inb, w⟩, List.mem_cons_self, View.mem_set_unit_zero h inb y⟩
  rw [View.read_writes_eq_canon v f _ hc, View.canon_cons_unit_zero h]

/-- A load through the whole-shape rectangle of a whole buffer held at the contents that read `X` reads `X`. -/
theorem readAt_unit_zero_unread1 {Val : EltTy → Type} {sg : RefSig} {κ : Kind} {sp : Space} {S : Shape} {e : EltTy}
    {m : Memref sg κ sp S e} (hm : m.IsWhole) (X : S.Idx → Val e) {off : Fin S.rank → ℕ} (h : off = fun _ => 0)
    (inb : ∀ a, off a + S.size a ≤ S.size a) :
    View.readAt Val m.view (Rect.unit off S.size inb).toLoadRect (hm.unread X) = X := by
  rw [View.readAt_eq_ld, hm.read_unread, View.ld_unit_zero h]

/-- The same at the 512×512 buffers' rectangle, -/
theorem rd512_1 {sg : RefSig} {κ : Kind} {sp : Space} {e : EltTy} {m : Memref sg κ sp S512x512 e} (h : m.IsWhole) (X : S512x512.Idx → Elt F e) :
    View.readAt (Elt F) m.view (Rect.unit (s := S512x512) ![0, 0] S512x512.size inb_S512x512_S512x512_0_0).toLoadRect (h.unread X) = X :=
  readAt_unit_zero_unread1 h X zeros2_1 inb_S512x512_S512x512_0_0

/-- at the 512×64 buffers' rectangle, -/
theorem rd64_1 {sg : RefSig} {κ : Kind} {sp : Space} {e : EltTy} {m : Memref sg κ sp S512x64 e} (h : m.IsWhole) (X : S512x64.Idx → Elt F e) :
    View.readAt (Elt F) m.view (Rect.unit (s := S512x64) ![0, 0] S512x64.size inb_S512x64_S512x64_0_0).toLoadRect (h.unread X) = X :=
  readAt_unit_zero_unread1 h X zeros2_1 inb_S512x64_S512x64_0_0

/-- and a last store through the 512×512 buffers' rectangle. -/
theorem wr512_1 {sg : RefSig} {κ : Kind} {sp : Space} {e : EltTy} (v : View sg κ sp S512x512 e) (f : v.ty.Contents (Elt F))
    (w : S512x512.Idx → Elt F e) (L : List (View.Piece (Elt F) S512x512 e)) :
    v.read (Elt F) (v.writes (Elt F) f ((⟨Rect.unit (s := S512x512) ![0, 0] S512x512.size inb_S512x512_S512x512_0_0, w⟩ : View.Piece (Elt F) S512x512 e) :: L)) = w :=
  read_writes_cons_unit_zero1 v f zeros2_1 inb_S512x512_S512x512_0_0 w L

/-- The loads and stores of a run, read back: every load through the whole-buffer rectangle reads the contents (or the last
    payload stored), and the buffer reads the last payload stored. -/
local macro "rd_all" : tactic =>
  `(tactic| (repeat (first | rw [wr512_1] | rw [rd64_1] | rw [rd512_1] | rw [View.readCov_cons_toLoadRect] | rw [Memref.IsWhole.read_unread])))

/-! ## What one point does to the scratch, case by case -/

/-- j = 0 and j ≤ i: zeroed, then the product added. -/
theorem scNext_tt (i : grid1.Coords) (q k : Vec F S512x64 .bf16) (v : Vec F S512x512 .bf16) (s : Vec F S512x512 .f32)
    (h0 : cond1_0 i) (h1 : cond1_1 i) : scNext i q k v s = k1_pay2 i q k k1_pay1 v := by
  unfold scNext; simp only [if_pos h0, if_pos h1]
/-- j = 0 and j > i: zeroed. -/
theorem scNext_tf (i : grid1.Coords) (q k : Vec F S512x64 .bf16) (v : Vec F S512x512 .bf16) (s : Vec F S512x512 .f32)
    (h0 : cond1_0 i) (h1 : ¬cond1_1 i) : scNext i q k v s = k1_pay1 := by
  unfold scNext; simp only [if_pos h0, if_neg h1]
/-- j ≠ 0 and j ≤ i: the product added to what it held. -/
theorem scNext_ft (i : grid1.Coords) (q k : Vec F S512x64 .bf16) (v : Vec F S512x512 .bf16) (s : Vec F S512x512 .f32)
    (h0 : ¬cond1_0 i) (h1 : cond1_1 i) : scNext i q k v s = k1_pay2 i q k s v := by
  unfold scNext; simp only [if_neg h0, if_pos h1]
/-- j ≠ 0 and j > i: unchanged. -/
theorem scNext_ff (i : grid1.Coords) (q k : Vec F S512x64 .bf16) (v : Vec F S512x512 .bf16) (s : Vec F S512x512 .f32)
    (h0 : ¬cond1_0 i) (h1 : ¬cond1_1 i) : scNext i q k v s = s := by
  unfold scNext; simp only [if_neg h0, if_neg h1]

/-! ## The body, run once per assignment of its three conditions -/

set_option maxHeartbeats 1000000 in
/-- The body at a coordinate with j = 0, j ≤ i, j = 15: the scratch is zeroed, then the masked product is added to the
    zeros; the output buffer is stored with the residual rows plus that scratch. No point of the 16×16 grid has these
    three at once; the run holds at any coordinate all the same. Every buffer is a whole memref held at named
    contents; the inputs are returned as they were and the scratch at `scNext`. -/
theorem run1_ttt (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tt i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j = 0, j ≤ i, j ≠ 15: the scratch is zeroed, then the masked product is added to the
    zeros; the output buffer is left as found. Every buffer is a whole memref held at named contents; the inputs are
    returned as they were and the scratch at `scNext`. -/
theorem run1_ttf (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tt i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

set_option maxHeartbeats 1000000 in
/-- The body at a coordinate with j = 0, j > i, j = 15: the scratch is zeroed and nothing is added; the output buffer
    is stored with the residual rows plus that scratch. No point of the 16×16 grid has these three at once; the run
    holds at any coordinate all the same. Every buffer is a whole memref held at named contents; the inputs are
    returned as they were and the scratch at `scNext`. -/
theorem run1_tft (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : ¬cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tf i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j = 0, j > i, j ≠ 15: the scratch is zeroed and nothing is added; the output buffer
    is left as found. No point of the 16×16 grid has these three at once; the run holds at any coordinate all the
    same. Every buffer is a whole memref held at named contents; the inputs are returned as they were and the scratch
    at `scNext`. -/
theorem run1_tff (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : ¬cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tf i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

set_option maxHeartbeats 1000000 in
/-- The body at a coordinate with j ≠ 0, j ≤ i, j = 15: the masked product is added to what the scratch held; the
    output buffer is stored with the residual rows plus that scratch. Every buffer is a whole memref held at named
    contents; the inputs are returned as they were and the scratch at `scNext`. -/
theorem run1_ftt (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ft i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j ≠ 0, j ≤ i, j ≠ 15: the masked product is added to what the scratch held; the
    output buffer is left as found. Every buffer is a whole memref held at named contents; the inputs are returned as
    they were and the scratch at `scNext`. -/
theorem run1_ftf (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ft i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

set_option maxHeartbeats 1000000 in
/-- The body at a coordinate with j ≠ 0, j > i, j = 15: the scratch is left as it was; the output buffer is stored
    with the residual rows plus that scratch. Every buffer is a whole memref held at named contents; the inputs are
    returned as they were and the scratch at `scNext`. -/
theorem run1_fft (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : ¬cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ff i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j ≠ 0, j > i, j ≠ 15: the scratch is left as it was; the output buffer is left as
    found. Every buffer is a whole memref held at named contents; the inputs are returned as they were and the scratch
    at `scNext`. -/
theorem run1_fff (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : ¬cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ff i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

/-- The body at any coordinate with j = 15, whichever way the first two conditions fall: the scratch ends at `scNext`, the
    output buffer at the residual rows plus it. -/
theorem kernelRun1_live (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  by_cases hc0 : cond1_0 i
  · by_cases hc1 : cond1_1 i
    · exact run1_ttt c i arg2 harg2 arg3 harg3 arg4 harg4 arg5 harg5 arg6 harg6 arg7 harg7 hc0 hc1 hc2 x q k v o s E K
    · exact run1_tft c i arg2 harg2 arg3 harg3 arg4 harg4 arg5 harg5 arg6 harg6 arg7 harg7 hc0 hc1 hc2 x q k v o s E K
  · by_cases hc1 : cond1_1 i
    · exact run1_ftt c i arg2 harg2 arg3 harg3 arg4 harg4 arg5 harg5 arg6 harg6 arg7 harg7 hc0 hc1 hc2 x q k v o s E K
    · exact run1_fft c i arg2 harg2 arg3 harg3 arg4 harg4 arg5 harg5 arg6 harg6 arg7 harg7 hc0 hc1 hc2 x q k v o s E K

/-- The body at any coordinate with j ≠ 15, whichever way the first two conditions fall: the scratch ends at `scNext`, the
    output buffer is left as found. -/
theorem kernelRun1_idle (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  by_cases hc0 : cond1_0 i
  · by_cases hc1 : cond1_1 i
    · exact run1_ttf c i arg2 harg2 arg3 harg3 arg4 harg4 arg5 harg5 arg6 harg6 arg7 harg7 hc0 hc1 hc2 x q k v o s E K
    · exact run1_tff c i arg2 harg2 arg3 harg3 arg4 harg4 arg5 harg5 arg6 harg6 arg7 harg7 hc0 hc1 hc2 x q k v o s E K
  · by_cases hc1 : cond1_1 i
    · exact run1_ftf c i arg2 harg2 arg3 harg3 arg4 harg4 arg5 harg5 arg6 harg6 arg7 harg7 hc0 hc1 hc2 x q k v o s E K
    · exact run1_fff c i arg2 harg2 arg3 harg3 arg4 harg4 arg5 harg5 arg6 harg6 arg7 harg7 hc0 hc1 hc2 x q k v o s E K

/-! ## The other region's buffers, set aside -/

/-- The chain is the other region's buffers (the chain ending in `emp`) beside what it ends with. -/
theorem chain1_split (c : Dev nD) (S : sProp 𝕄) : chain1 (F := F) c S = iprop(chain1 (F := F) c iprop(emp) ∗ S) := by
  have h₁ : chain1 (F := F) c S ⊢ iprop(chain1 (F := F) c iprop(emp) ∗ S) := by
    unfold chain1
    iintro ⟨R0, R1, R2, R3, R4, R5, R6, R7, R8, R9, R10, R11, R12, R13, R14, HS⟩
    isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      iempintro
    · iexact HS
  have h₂ : iprop(chain1 (F := F) c iprop(emp) ∗ S) ⊢ chain1 (F := F) c S := by
    unfold chain1
    iintro ⟨⟨R0, R1, R2, R3, R4, R5, R6, R7, R8, R9, R10, R11, R12, R13, R14, -⟩, HS⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact HS
  exact BI.equiv_iff.mp ⟨h₁, h₂⟩

/-- The class invariant, the scratch beside the other region's buffers. -/
theorem PhiA1_eq' (c : Dev nD) :
    (Pipeline.ΦA spec1 c : sProp 𝕄)
      = iprop((chain1 (F := F) c iprop(emp) ∗ (∃ d, owns (c : Thread nD τ) scM1 fullShare d)) ∗ (∃ r, prngReg c r)) := by
  rw [PhiA1_eq, chain1_split]

/-- The region invariant before the first point, in that form; -/
theorem PhiS1_zero' (c : Dev nD) (n : ℕ) (h : n ≤ cfg1.N) (hz : n = 0) :
    PhiS1 V c n h = iprop((chain1 (F := F) c iprop(emp) ∗ (∃ d, owns (c : Thread nD τ) scM1 fullShare d)) ∗ (∃ r, prngReg c r)) := by
  rw [PhiS1_zero V c n h hz, PhiA1_eq']

/-- after point `n`; -/
theorem PhiS1_succ' (c : Dev nD) (n : ℕ) (hn : n < cfg1.N) :
    PhiS1 V c (n + 1) hn
      = iprop((chain1 (F := F) c iprop(emp) ∗ owns (c : Thread nD τ) scM1 fullShare (scAt1 V c n hn)) ∗ (∃ r, prngReg c r)) := by
  rw [PhiS1_succ, chain1_split]

/-- before a point that is not the first. -/
theorem PhiS1_pos' (c : Dev nD) (n : ℕ) (h : n ≤ cfg1.N) (hz : n ≠ 0) :
    PhiS1 V c n h
      = iprop((chain1 (F := F) c iprop(emp) ∗ owns (c : Thread nD τ) scM1 fullShare (scAt1 V c (n - 1) (by omega))) ∗ (∃ r, prngReg c r)) := by
  rw [PhiS1_pos V c n h hz, chain1_split]

/-! ## The scratch after a point, from the scratch before it -/

/-- After a point that is not the first, the scratch is one step from what the point before left. -/
theorem scAt1_pos (c : Dev nD) (t : Fin cfg1.N) (hz : t.val ≠ 0) :
    scAt1 V c t.val t.isLt
      = scNext (grid1.coords t) (iblk1 V c 1 t) (iblk1 V c 2 t) (iblk1 V c 3 t) (scAt1 V c (t.val - 1) (by have := t.isLt; omega)) := by
  obtain ⟨n, hn⟩ := t
  cases n with
  | zero => exact absurd rfl hz
  | succ n => exact scAt1_succ V c n hn

/-- At the first point the scratch is zeroed before it is read: what it held does not matter. -/
theorem scAt1_first (c : Dev nD) (t : Fin cfg1.N) (hz : t.val = 0) (d : Vec F S512x512 .f32) :
    scAt1 V c t.val t.isLt = scNext (grid1.coords t) (iblk1 V c 1 t) (iblk1 V c 2 t) (iblk1 V c 3 t) d := by
  obtain ⟨n, hn⟩ := t
  obtain rfl : n = 0 := hz
  have h0 : cond1_0 (grid1.coords ⟨0, hn⟩) := (hcond1_0 ⟨0, hn⟩).mpr (Nat.zero_mod _)
  rw [scAt1_zero]
  unfold scNext
  simp only [if_pos h0]

/-! ## What the body finds in the input windows' buffers -/

/-- Each input's current buffer holds its block at every point, fetched there or not (the windows are uncut and never idle). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the invariant hands the body the scratch at what the
    point before left (at anything at the first point, where the body zeroes it before reading it) and takes it back at
    this point's contents; where j ≠ 15 the output buffer is handed back as found, where j = 15 it is stored with the
    residual rows plus the finished scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ']
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  rw [show (dat1 V c).leavesExact 3 t = owns (c : Thread nD τ) (win1_3.stage (cfg1.slots t 3)) fullShare ((dat1 V c).after 3 t) from by
    unfold Dat.leavesExact; rw [liveAt1_3 t], after1_3]
  rw [PhiS1_castSucc V c t]
  by_cases h2 : cond1_2 (grid1.coords t)
  · have hz : t.val ≠ 0 := by have := (hcond1_2 t).mp h2; omega
    rw [show (dat1 V c).leavesExact 4 t = owns (c : Thread nD τ) (win1_4.stage (cfg1.slots t 4)) fullShare ((dat1 V c).after 4 t) from by
      unfold Dat.leavesExact; rw [liveAt1_4 t h2], after1_4]
    unfold out1_4
    rw [PhiS1_pos' V c _ _ hz, scAt1_pos V c t hz]
    iintro ⟨⟨⟨Hrest, HS⟩, Hg⟩, Ho, ⟨%d0, H0⟩, ⟨%d1, H1⟩, ⟨%d2, H2⟩, ⟨%d3, H3⟩, ⟨%d4, H4⟩⟩
    iapply (kernelRun1_live c (grid1.coords t) _ _ _ _ _ _ _ _ _ _ _ _ h2 (iblk1 V c 0 t) (iblk1 V c 1 t) (iblk1 V c 2 t) (iblk1 V c 3 t)
      ((dat1 V c).before 4 t d4) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hrest HS Hg]
    · isplitl [Hrest HS]
      · isplitl [Hrest]; · iexact Hrest
        iexact HS
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t h2) (noFlush1_4 t h2)]
    by_cases hz : t.val = 0
    · rw [PhiS1_zero' V c _ _ hz]
      iintro ⟨⟨⟨Hrest, ⟨%s0, HS⟩⟩, Hg⟩, Ho, ⟨%d0, H0⟩, ⟨%d1, H1⟩, ⟨%d2, H2⟩, ⟨%d3, H3⟩, ⟨%d4, H4⟩⟩
      rw [scAt1_first V c t hz s0]
      iapply (kernelRun1_idle c (grid1.coords t) _ _ _ _ _ _ _ _ _ _ _ _ h2 (iblk1 V c 0 t) (iblk1 V c 1 t) (iblk1 V c 2 t) (iblk1 V c 3 t)
        ((dat1 V c).before 4 t d4) s0 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hrest HS Hg]
      · isplitl [Hrest HS]
        · isplitl [Hrest]; · iexact Hrest
          iexact HS
        iexact Hg
      isplitl [Ho]; · iexact Ho
      isplitl [H0]; · iexact H0
      isplitl [H1]; · iexact H1
      isplitl [H2]; · iexact H2
      isplitl [H3]; · iexact H3
      iexists _; iexact H4
    · rw [PhiS1_pos' V c _ _ hz, scAt1_pos V c t hz]
      iintro ⟨⟨⟨Hrest, HS⟩, Hg⟩, Ho, ⟨%d0, H0⟩, ⟨%d1, H1⟩, ⟨%d2, H2⟩, ⟨%d3, H3⟩, ⟨%d4, H4⟩⟩
      iapply (kernelRun1_idle c (grid1.coords t) _ _ _ _ _ _ _ _ _ _ _ _ h2 (iblk1 V c 0 t) (iblk1 V c 1 t) (iblk1 V c 2 t) (iblk1 V c 3 t)
        ((dat1 V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hrest HS Hg]
      · isplitl [Hrest HS]
        · isplitl [Hrest]; · iexact Hrest
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class invariant back: the scratch's named contents are forgotten. -/
theorem Phi1_out (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos' V c _ _ (by rw [Fin.val_last]; have : cfg1.N = 256 := N_1; omega), PhiA1_eq']
  iintro ⟨⟨Hrest, HS⟩, Hg⟩
  isplitl [Hrest HS]
  · isplitl [Hrest]; · iexact Hrest
    iexists _; iexact HS
  iexact Hg

/-- info: 'Cert.Kernel.Hand.body_obligation1' depends on axioms: [propext, Classical.choice, Quot.sound] -/
#guard_msgs in #print axioms body_obligation1

end Cert.Kernel.Hand

end
-- ==== Proof.HandKernel.Run.lean ====
/- The whole run of the program: two host reshapes, then the projection kernel, then the causal kernel.
   The buffers' contents at each boundary are a fold from the launch memory (a host stretch applies its operations; a kernel
   region leaves its arrays at what its write-backs leave and every other buffer as entered); each kernel region is a
   segment entered from every unscoped buffer at the boundary's contents; and the launch composes the segments. Every
   weakly fair execution ends with every unscoped buffer at the last boundary's contents: the seven arguments as launched,
   and the result at what the causal kernel's write-backs leave. The two kernels' body obligations are hypotheses here. -/
import proofs.«180881_j62843961475101_1_alg».proof.Proof.HandKernel.Defs1
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection kernel's body obligation, at any region-entry contents. -/
abbrev HB0 (F : FTy → Type) [FloatOps F] : Prop :=
  ∀ (V : (c : Dev nD) → (b : Ref sig .tc) → Buf (Elt F) ((c : Thread nD τ).loc b)) (c : Dev nD),
    BodyObligation (dat0 (F := F) V c) (defs₀ (F := F)) Variants.none () Set.univ
/-- The causal kernel's body obligation, at any region-entry contents. -/
abbrev HB1 (F : FTy → Type) [FloatOps F] : Prop :=
  ∀ (V : (c : Dev nD) → (b : Ref sig .tc) → Buf (Elt F) ((c : Thread nD τ).loc b)) (c : Dev nD),
    BodyObligation (dat1 (F := F) V c) (defs₀ (F := F)) Variants.none () Set.univ
/-- After its last point the causal kernel's invariant gives the class invariant back. -/
abbrev HΦ1 (F : FTy → Type) [FloatOps F] : Prop :=
  ∀ (V : (c : Dev nD) → (b : Ref sig .tc) → Buf (Elt F) ((c : Thread nD τ).loc b)) (c : Dev nD),
    (dat1 V c).Φ (Fin.last cfg1.N) ⊢ (Pipeline.ΦA spec1 c : sProp (MT nD τ sig Unit (Elt F) ℕ (UR sig nD τ) ℕ))

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two reshapes (the projection kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection kernel (the causal kernel's entry): q, k, v at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the causal kernel (the end): the result at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result is the causal kernel's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 5).trans (((dat0 (V1 m) c).arrAt_in 5 rfl _).trans (A_eq0 (V1 m) c 5))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 6).trans (((dat0 (V1 m) c).arrAt_in 6 rfl _).trans (A_eq0 (V1 m) c 6))
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_v3 (c : Dev nD) : W3 m c (Proc.devRef .tc main_v3) = (dat1 (V2 m) c).arrAt 4 cfg1.N := W3_arr m c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernel regions as segments -/
set_option backward.isDefEq.respectTransparency.types false in
def reg0 (hb0 : HB0 F) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hb1 : HB1 F) (hΦ1 : HΦ1 F) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from hΦ1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs (hb0 : HB0 F) (hb1 : HB1 F) (hΦ1 : HΦ1 F) : List (Pipeline.Seg (pcfgs (F := F)) adm (pdats m) () defs₀ 𝒱₀ L lv) :=
  [ .host (hseg hostOps0 hostOps0_sub hostOps0_fresh (W0 m)),
    .region (reg0 m hb0),
    .region (reg1 m hb1 hΦ1) ]
theorem main_run (hb0 : HB0 F) (hb1 : HB1 F) (hΦ1 : HΦ1 F) (c : Dev nD) : main (F := F) c = Pipeline.Seg.run (segs m hb0 hb1 hΦ1) := (main_chain c).trans (by chain_rfl)

set_option backward.isDefEq.respectTransparency.types false in
/-- Every weakly fair execution of the program from memory `m` with zero counters terminates, nothing faulting, and every
    final memory holds every unscoped buffer at the last boundary's contents. -/
theorem run_all (hb0 : HB0 F) (hb1 : HB1 F) (hΦ1 : HΦ1 F) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m hb0 hb1 hΦ1)
    (fun c Q => by rw [main_run m hb0 hb1 hΦ1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.HandKernelIdeal.Defs0.lean ====
/- Region 0 (the projection kernel: layer normalisation of a row block, then q = n·Wq, k = n·Wk, v = e·Wv): the blocks
   its windows stage, what each of its three output buffers holds after the body as a function of the seven input
   blocks, and the proof data of its pipeline. Definitions only; the body's triple is proved in Region0.lean. -/
import proofs.«180881_j62843961475101_1_alg».proof.Proof.Gen.KernelIdeal.Launch
import proofs.«180881_j62843961475101_1_alg».proof.Proof.Gen.KernelIdeal.Skeleton
import proofs.«180881_j62843961475101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S1024x512 := Rect.unit (s := S1024x512) ![0, 0] S1024x512.size inb_S1024x512_S1024x512_0_0
abbrev rG : Rect S1x512 := Rect.unit (s := S1x512) ![0, 0] S1x512.size inb_S1x512_S1x512_0_0
abbrev rW : Rect S512x64 := Rect.unit (s := S512x64) ![0, 0] S512x64.size inb_S512x64_S512x64_0_0
abbrev rWv : Rect S512x512 := Rect.unit (s := S512x512) ![0, 0] S512x512.size inb_S512x512_S512x512_0_0
abbrev rQ : Rect S1024x64 := Rect.unit (s := S1024x64) ![0, 0] S1024x64.size inb_S1024x64_S1024x64_0_0

/-- The query block: the normalised rows times Wq, as the one piece the body stores. -/
def out0_7 (x : Vec F S1024x512 .f32) (g b : Vec F S1x512 .f32) (wq : Vec F S512x64 .f32) : Vec F S1024x64 .bf16 :=
  View.canon [⟨rQ, k0_pay1 (k0_pay5 (View.ld x rX) (View.ld g rG) (View.ld b rG) (View.ld wq rW))⟩]
/-- The key block: the same normalised rows times Wk. -/
def out0_8 (x : Vec F S1024x512 .f32) (g b : Vec F S1x512 .f32) (wk : Vec F S512x64 .f32) : Vec F S1024x64 .bf16 :=
  View.canon [⟨rQ, k0_pay2 (k0_pay6 (View.ld x rX) (View.ld g rG) (View.ld b rG) (View.ld wk rW))⟩]
/-- The value block: the embedding rows times Wv. -/
def out0_9 (xe : Vec F S1024x512 .f32) (wv : Vec F S512x512 .f32) : Vec F S1024x512 .bf16 :=
  View.canon [⟨rX, k0_pay3 (k0_pay7 (View.ld xe rX) (View.ld wv rWv))⟩]

/-- The proof data of pipeline 0 on core `c`: the arrays as the region finds them; after the body each input's buffer at
    its block and each output's at the block above; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 2 t) (iblk0 V c 3 t) (iblk0 V c 4 t)
    | ⟨8, _⟩ => out0_8 (iblk0 V c 0 t) (iblk0 V c 2 t) (iblk0 V c 3 t) (iblk0 V c 5 t)
    | ⟨9, _⟩ => out0_9 (iblk0 V c 1 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 2 t) (iblk0 V c 3 t) (iblk0 V c 4 t) := by dsimp only [dat0]
theorem after0_8 (c : Dev nD) (t : Fin cfg0.N) : (dat0 V c).after 8 t = out0_8 (iblk0 V c 0 t) (iblk0 V c 2 t) (iblk0 V c 3 t) (iblk0 V c 5 t) := by dsimp only [dat0]
theorem after0_9 (c : Dev nD) (t : Fin cfg0.N) : (dat0 V c).after 9 t = out0_9 (iblk0 V c 1 t) (iblk0 V c 6 t) := by dsimp only [dat0]

end Cert.KernelIdeal.Hand

end
-- ==== Proof.HandKernelIdeal.Region0.lean ====
/- Region 0 (the projection kernel), the body's triple. At every grid point each of the seven input windows' current
   staging buffer holds that window's block, whether the point fetched it or not; the body loads the seven blocks
   whole, and overwrites each of the three output buffers with a single store of the whole block; so it hands the
   inputs back as it found them and leaves the outputs at `out0_7`, `out0_8`, `out0_9` of the input blocks. -/
import proofs.«180881_j62843961475101_1_alg».proof.Proof.HandKernelIdeal.Defs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the inputs' buffers

An input window's body leaves its block in place, the window is never cut and never idle; so at a point that does
not fetch it the block index has not moved and the buffer still holds the block of the point before, which is this
point's. Windows 0 and 1 (the two row blocks) are fetched at every point; windows 2 to 6 (scale, shift and the three
weight matrices) have a constant block index and are fetched at the first point only. -/

/-- Input window 0 (the rows to normalise): its current buffer holds its block at every point. -/
theorem found0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1 (the embedding rows): its current buffer holds its block at every point. -/
theorem found0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2 (the scale): its current buffer holds its block at every point. -/
theorem found0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3 (the shift): its current buffer holds its block at every point. -/
theorem found0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4 (Wq): its current buffer holds its block at every point. -/
theorem found0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5 (Wk): its current buffer holds its block at every point. -/
theorem found0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Input window 6 (Wv): its current buffer holds its block at every point. -/
theorem found0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## One store of the whole block covers the buffer -/

/-- A single piece over the whole 1024×64 rectangle covers every index. -/
theorem whole_rQ (p : Vec F S1024x64 .bf16) (y : S1024x64.Idx) :
    ∃ pc ∈ ([⟨rQ, p⟩] : List (View.Piece (Elt F) S1024x64 .bf16)), y ∈ pc.1.set :=
  View.cover_of_tiled [⟨rQ, p⟩] S1024x64.size (by rfl) y

/-- A single piece over the whole 1024×512 rectangle covers every index. -/
theorem whole_rX (p : Vec F S1024x512 .bf16) (y : S1024x512.Idx) :
    ∃ pc ∈ ([⟨rX, p⟩] : List (View.Piece (Elt F) S1024x512 .bf16)), y ∈ pc.1.set :=
  View.cover_of_tiled [⟨rX, p⟩] S1024x512.size (by rfl) y

/-! ## The body's triple -/

set_option maxHeartbeats 1000000 in
/-- The kernel function on whole staging memrefs — the inputs' reading `x xe g b wq wk wv`, the outputs' at anything —
    runs to a continuation that holds the inputs' as they were and the outputs' at `out0_7`, `out0_8`, `out0_9`: the
    function and the part it calls are sequences of whole-buffer loads and stores over the named payloads; each
    output buffer is loaded once (the value unused) and then stored whole, and a store of the whole block reads back
    as its one piece. -/
theorem run_kernel0 (c : Dev nD) (E : Set ℕ) (i : grid0.Coords)
    (a0 : Memref sig .tc .vmem S1024x512 .f32) (h0 : a0.IsWhole) (a1 : Memref sig .tc .vmem S1024x512 .f32) (h1 : a1.IsWhole) (a2 : Memref sig .tc .vmem S1x512 .f32) (h2 : a2.IsWhole) (a3 : Memref sig .tc .vmem S1x512 .f32) (h3 : a3.IsWhole)
    (a4 : Memref sig .tc .vmem S512x64 .f32) (h4 : a4.IsWhole) (a5 : Memref sig .tc .vmem S512x64 .f32) (h5 : a5.IsWhole) (a6 : Memref sig .tc .vmem S512x512 .f32) (h6 : a6.IsWhole)
    (a7 : Memref sig .tc .vmem S1024x64 .bf16) (h7 : a7.IsWhole) (a8 : Memref sig .tc .vmem S1024x64 .bf16) (h8 : a8.IsWhole) (a9 : Memref sig .tc .vmem S1024x512 .bf16) (h9 : a9.IsWhole)
    (x xe : Vec F S1024x512 .f32) (g b : Vec F S1x512 .f32) (wq wk : Vec F S512x64 .f32) (wv : Vec F S512x512 .f32)
    (K : PUnit → sProp 𝕄) :
    iprop(owns (c : Thread nD τ) a0 fullShare x ∗ owns (c : Thread nD τ) a1 fullShare xe ∗ owns (c : Thread nD τ) a2 fullShare g ∗ owns (c : Thread nD τ) a3 fullShare b
        ∗ owns (c : Thread nD τ) a4 fullShare wq ∗ owns (c : Thread nD τ) a5 fullShare wk ∗ owns (c : Thread nD τ) a6 fullShare wv
        ∗ (∃ d, owns (c : Thread nD τ) a7 fullShare d) ∗ (∃ d, owns (c : Thread nD τ) a8 fullShare d) ∗ (∃ d, owns (c : Thread nD τ) a9 fullShare d)
        ∗ (iprop(owns (c : Thread nD τ) a0 fullShare x ∗ owns (c : Thread nD τ) a1 fullShare xe ∗ owns (c : Thread nD τ) a2 fullShare g ∗ owns (c : Thread nD τ) a3 fullShare b
            ∗ owns (c : Thread nD τ) a4 fullShare wq ∗ owns (c : Thread nD τ) a5 fullShare wk ∗ owns (c : Thread nD τ) a6 fullShare wv
            ∗ owns (c : Thread nD τ) a7 fullShare (out0_7 x g b wq) ∗ owns (c : Thread nD τ) a8 fullShare (out0_8 x g b wk) ∗ owns (c : Thread nD τ) a9 fullShare (out0_9 xe wv)) -∗ K ⟨⟩))
      ⊢ wp frame (wpE (defs₀ (F := F)) Variants.none c none) E
          (cc0__prep_kernel i a0 h0 a1 h1 a2 h2 a3 h3 a4 h4 a5 h5 a6 h6 a7 h7 a8 h8 a9 h9) K := by
  simp only [cc0__prep_kernel_eq_skeleton]; unfold cc0__prep_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (whole_rQ _)
  isplitl [H8]
  · iexists _; isplitr
    swap; · iexact H8
    ipureintro
    try dsimp only
    exact View.read_writes_eq_canon _ _ _ (whole_rQ _)
  iexists _; isplitr
  swap; · iexact H9
  ipureintro
  try dsimp only
  exact View.read_writes_eq_canon _ _ _ (whole_rX _)

/-! ## The body obligation at a point -/

/-- What the body is handed at point `t`: the invariant, what the core owes, and each window's current buffer. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it hands back: the same, each buffer at what the body leaves there. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks (`found0_w`), so `run_kernel0` applies at the blocks; the
    invariant and what the core owes are not touched and do not change from a point to the next. -/
theorem run_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2, found0_3, found0_4, found0_5, found0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for pipeline 0, at every point. -/
theorem body_obligation0 (c : Dev nD) : BodyObligation (dat0 (F := F) V c) (defs₀ (F := F)) Variants.none () Set.univ := fun t => by
  rw [bigSep_W0, bigSep_W0]
  exact run_body0 V c t

end Cert.KernelIdeal.Hand

end
-- ==== Proof.HandKernelIdeal.Defs1.lean ====
/- Region 1 (the causal product: for the row block i and the column block j ≤ i, acc += mask(q_i·k_jᵀ·⅛)·v_j into a scratch
   that is zeroed at j = 0 and added to the residual rows at the last j): the three branch conditions in closed form over
   the grid, the blocks its windows stage, what the scratch holds after each point (a recursion on the point), what the
   output buffer holds where it is stored, the invariant that carries the scratch, and the proof data of its pipeline.
   Definitions and decided facts only; the body's triple is proved in Region1.lean. -/
import proofs.«180881_j62843961475101_1_alg».proof.Proof.HandKernelIdeal.Defs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions, decided over the grid (a point t is the pair i = t / 16, j = t % 16) -/

/-- j = 0: the scratch is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- j ≤ i: the block is on or below the diagonal and is accumulated. -/
abbrev cond1_1 (i : grid1.Coords) : Prop := (Scalar.cmpi .ne (Scalar.extui (Scalar.cmpi .sle (BitVec.ofNat 32 (i 1).val) (BitVec.ofNat 32 (i 0).val))) 0#32) = 1#1
theorem hcond1_1 : ∀ t : Fin cfg1.N, cond1_1 (grid1.coords t) ↔ t.val % 16 ≤ t.val / 16 :=
  (by decide +kernel : ∀ t : Fin grid1.N, cond1_1 (grid1.coords t) ↔ t.val % 16 ≤ t.val / 16)
/-- j = 15: the row block is finished and stored. -/
abbrev cond1_2 (i : grid1.Coords) : Prop := k1_cond3 i = 1#1
theorem hcond1_2 : ∀ t : Fin cfg1.N, cond1_2 (grid1.coords t) ↔ t.val % 16 = 15 :=
  (by decide +kernel : ∀ t : Fin grid1.N, cond1_2 (grid1.coords t) ↔ t.val % 16 = 15)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column block the output buffer is idle and not written back. -/
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
/-- At the last column block it is stored. -/
theorem liveAt1_4 : ∀ t : Fin cfg1.N, cond1_2 (grid1.coords t) → cfg1.idle 4 (grid1.coords t) = false := by decide +kernel

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The scratch, point by point -/

/-- The scratch operand: a whole scoped buffer of the kernel's own. -/
abbrev scM1 : Memref sig .tc .vmem S512x512 .f32 := Memref.whole cc1_scratch0

/-- What one point does to the scratch: zero it when j = 0, then add the masked product when j ≤ i. -/
def scNext (i : grid1.Coords) (q k : Vec F S512x64 .bf16) (v : Vec F S512x512 .bf16) (s : Vec F S512x512 .f32) : Vec F S512x512 .f32 :=
  have s1 : Vec F S512x512 .f32 := if cond1_0 i then k1_pay1 else s
  if cond1_1 i then k1_pay2 i q k s1 v else s1

/-- The scratch after the body at position `n`, by recursion on the position (at position 0 it is zeroed first, so the
    seed there is immaterial). -/
def scAt1 (c : Dev nD) : (n : ℕ) → n < cfg1.N → Vec F S512x512 .f32
  | 0, hn => scNext (grid1.coords ⟨0, hn⟩) (iblk1 V c 1 ⟨0, hn⟩) (iblk1 V c 2 ⟨0, hn⟩) (iblk1 V c 3 ⟨0, hn⟩) k1_pay1
  | n + 1, hn => scNext (grid1.coords ⟨n + 1, hn⟩) (iblk1 V c 1 ⟨n + 1, hn⟩) (iblk1 V c 2 ⟨n + 1, hn⟩) (iblk1 V c 3 ⟨n + 1, hn⟩)
      (scAt1 c n (Nat.lt_of_succ_lt hn))

theorem scAt1_zero (c : Dev nD) (hn : 0 < cfg1.N) :
    scAt1 V c 0 hn = scNext (grid1.coords ⟨0, hn⟩) (iblk1 V c 1 ⟨0, hn⟩) (iblk1 V c 2 ⟨0, hn⟩) (iblk1 V c 3 ⟨0, hn⟩) k1_pay1 := rfl
theorem scAt1_succ (c : Dev nD) (n : ℕ) (hn : n + 1 < cfg1.N) :
    scAt1 V c (n + 1) hn = scNext (grid1.coords ⟨n + 1, hn⟩) (iblk1 V c 1 ⟨n + 1, hn⟩) (iblk1 V c 2 ⟨n + 1, hn⟩) (iblk1 V c 3 ⟨n + 1, hn⟩)
      (scAt1 V c n (Nat.lt_of_succ_lt hn)) := rfl

/-- What the output buffer holds where it is stored: the residual rows plus the finished scratch. -/
def out1_4 (c : Dev nD) (t : Fin cfg1.N) : Vec F S512x512 .f32 := k1_pay3 (iblk1 V c 0 t) (scAt1 V c t.val t.isLt)

/-! ## The invariant that carries the scratch -/

/-- The core's scoped buffers that belong to the other region, each at some contents, followed by `S` (the scratch). -/
def chain1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ S)

/-- The class invariant with the scratch as a memref owned at some contents. -/
theorem PhiA1_eq (c : Dev nD) :
    (Pipeline.ΦA spec1 c : sProp 𝕄) = iprop(chain1 c iprop(∃ d, owns (c : Thread nD τ) scM1 fullShare d) ∗ (∃ r, prngReg c r)) := by
  unfold Pipeline.ΦA chain1; rw [scopedRest1_eq]; simp only [scM1, owns_whole]; try rfl

/-- The region invariant before position `n`: the class's before the first point (the scratch at anything); afterwards the
    scratch at what the point before left in it. -/
def PhiS1 (c : Dev nD) : (n : ℕ) → n ≤ cfg1.N → sProp 𝕄
  | 0, _ => Pipeline.ΦA spec1 c
  | n + 1, hn => iprop(chain1 c (owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(chain1 c (owns (c : Thread nD τ) scM1 fullShare (scAt1 V c n hn)) ∗ (∃ r, prngReg c r)) := rfl
theorem PhiS1_pos (c : Dev nD) (n : ℕ) (h : n ≤ cfg1.N) (hz : n ≠ 0) :
    PhiS1 V c n h = iprop(chain1 c (owns (c : Thread nD τ) scM1 fullShare (scAt1 V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem Phi1_zero (c : Dev nD) : (dat1 V c).Φ 0 = Pipeline.ΦA spec1 c := rfl

end Cert.KernelIdeal.Hand

end
-- ==== Proof.HandKernelIdeal.Region1.lean ====
/- Region 1 (the causal product), the body's triple. At the grid point (i, j) the body zeroes the scratch when j = 0, adds the
   masked product of the row block's q with the column block's k and v into it when j ≤ i, and when j = 15 stores the
   residual rows plus the scratch into the output buffer. The three conditions are independent tests of the coordinates, so
   the body is run once for each of their eight assignments at an arbitrary coordinate, every buffer a whole memref at
   named contents: the scratch goes from `s` to `scNext i q k v s`, the output buffer is left as found where j ≠ 15 and
   stored where j = 15. The obligation at a point then reads the inputs' buffers as their blocks, takes the scratch out of
   the invariant at what the point before left (at anything at the first point, where j = 0 and the body zeroes it before
   reading it), and puts it back at this point's contents. -/
import proofs.«180881_j62843961475101_1_alg».proof.Proof.HandKernelIdeal.Defs1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through the whole-buffer rectangle -/

/-- The zero offsets of a rank-2 rectangle, however spelt. -/
theorem zeros2_1 : (![0, 0] : Fin 2 → ℕ) = fun _ => 0 := by funext a; fin_cases a <;> rfl

/-- After a last store through the whole-shape rectangle a buffer reads that store's payload, whatever it held and whatever
    was stored before. -/
theorem read_writes_cons_unit_zero1 {Val : EltTy → Type} [∀ e, Nonempty (Val e)] {sg : RefSig} {κ : Kind} {sp : Space} {S : Shape} {e : EltTy}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  have hc : ∀ y, ∃ p ∈ ((⟨Rect.unit off S.size inb, w⟩ : View.Piece Val S e) :: L), y ∈ p.1.set :=
    fun y => ⟨⟨Rect.unit off S.size inb, w⟩, List.mem_cons_self, View.mem_set_unit_zero h inb y⟩
  rw [View.read_writes_eq_canon v f _ hc, View.canon_cons_unit_zero h]

/-- A load through the whole-shape rectangle of a whole buffer held at the contents that read `X` reads `X`. -/
theorem readAt_unit_zero_unread1 {Val : EltTy → Type} {sg : RefSig} {κ : Kind} {sp : Space} {S : Shape} {e : EltTy}
    {m : Memref sg κ sp S e} (hm : m.IsWhole) (X : S.Idx → Val e) {off : Fin S.rank → ℕ} (h : off = fun _ => 0)
    (inb : ∀ a, off a + S.size a ≤ S.size a) :
    View.readAt Val m.view (Rect.unit off S.size inb).toLoadRect (hm.unread X) = X := by
  rw [View.readAt_eq_ld, hm.read_unread, View.ld_unit_zero h]

/-- The same at the 512×512 buffers' rectangle, -/
theorem rd512_1 {sg : RefSig} {κ : Kind} {sp : Space} {e : EltTy} {m : Memref sg κ sp S512x512 e} (h : m.IsWhole) (X : S512x512.Idx → Elt F e) :
    View.readAt (Elt F) m.view (Rect.unit (s := S512x512) ![0, 0] S512x512.size inb_S512x512_S512x512_0_0).toLoadRect (h.unread X) = X :=
  readAt_unit_zero_unread1 h X zeros2_1 inb_S512x512_S512x512_0_0

/-- at the 512×64 buffers' rectangle, -/
theorem rd64_1 {sg : RefSig} {κ : Kind} {sp : Space} {e : EltTy} {m : Memref sg κ sp S512x64 e} (h : m.IsWhole) (X : S512x64.Idx → Elt F e) :
    View.readAt (Elt F) m.view (Rect.unit (s := S512x64) ![0, 0] S512x64.size inb_S512x64_S512x64_0_0).toLoadRect (h.unread X) = X :=
  readAt_unit_zero_unread1 h X zeros2_1 inb_S512x64_S512x64_0_0

/-- and a last store through the 512×512 buffers' rectangle. -/
theorem wr512_1 {sg : RefSig} {κ : Kind} {sp : Space} {e : EltTy} (v : View sg κ sp S512x512 e) (f : v.ty.Contents (Elt F))
    (w : S512x512.Idx → Elt F e) (L : List (View.Piece (Elt F) S512x512 e)) :
    v.read (Elt F) (v.writes (Elt F) f ((⟨Rect.unit (s := S512x512) ![0, 0] S512x512.size inb_S512x512_S512x512_0_0, w⟩ : View.Piece (Elt F) S512x512 e) :: L)) = w :=
  read_writes_cons_unit_zero1 v f zeros2_1 inb_S512x512_S512x512_0_0 w L

/-- The loads and stores of a run, read back: every load through the whole-buffer rectangle reads the contents (or the last
    payload stored), and the buffer reads the last payload stored. -/
local macro "rd_all" : tactic =>
  `(tactic| (repeat (first | rw [wr512_1] | rw [rd64_1] | rw [rd512_1] | rw [View.readCov_cons_toLoadRect] | rw [Memref.IsWhole.read_unread])))

/-! ## What one point does to the scratch, case by case -/

/-- j = 0 and j ≤ i: zeroed, then the product added. -/
theorem scNext_tt (i : grid1.Coords) (q k : Vec F S512x64 .bf16) (v : Vec F S512x512 .bf16) (s : Vec F S512x512 .f32)
    (h0 : cond1_0 i) (h1 : cond1_1 i) : scNext i q k v s = k1_pay2 i q k k1_pay1 v := by
  unfold scNext; simp only [if_pos h0, if_pos h1]
/-- j = 0 and j > i: zeroed. -/
theorem scNext_tf (i : grid1.Coords) (q k : Vec F S512x64 .bf16) (v : Vec F S512x512 .bf16) (s : Vec F S512x512 .f32)
    (h0 : cond1_0 i) (h1 : ¬cond1_1 i) : scNext i q k v s = k1_pay1 := by
  unfold scNext; simp only [if_pos h0, if_neg h1]
/-- j ≠ 0 and j ≤ i: the product added to what it held. -/
theorem scNext_ft (i : grid1.Coords) (q k : Vec F S512x64 .bf16) (v : Vec F S512x512 .bf16) (s : Vec F S512x512 .f32)
    (h0 : ¬cond1_0 i) (h1 : cond1_1 i) : scNext i q k v s = k1_pay2 i q k s v := by
  unfold scNext; simp only [if_neg h0, if_pos h1]
/-- j ≠ 0 and j > i: unchanged. -/
theorem scNext_ff (i : grid1.Coords) (q k : Vec F S512x64 .bf16) (v : Vec F S512x512 .bf16) (s : Vec F S512x512 .f32)
    (h0 : ¬cond1_0 i) (h1 : ¬cond1_1 i) : scNext i q k v s = s := by
  unfold scNext; simp only [if_neg h0, if_neg h1]

/-! ## The body, run once per assignment of its three conditions -/

set_option maxHeartbeats 1000000 in
/-- The body at a coordinate with j = 0, j ≤ i, j = 15: the scratch is zeroed, then the masked product is added to the
    zeros; the output buffer is stored with the residual rows plus that scratch. No point of the 16×16 grid has these
    three at once; the run holds at any coordinate all the same. Every buffer is a whole memref held at named
    contents; the inputs are returned as they were and the scratch at `scNext`. -/
theorem run1_ttt (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tt i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j = 0, j ≤ i, j ≠ 15: the scratch is zeroed, then the masked product is added to the
    zeros; the output buffer is left as found. Every buffer is a whole memref held at named contents; the inputs are
    returned as they were and the scratch at `scNext`. -/
theorem run1_ttf (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tt i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

set_option maxHeartbeats 1000000 in
/-- The body at a coordinate with j = 0, j > i, j = 15: the scratch is zeroed and nothing is added; the output buffer
    is stored with the residual rows plus that scratch. No point of the 16×16 grid has these three at once; the run
    holds at any coordinate all the same. Every buffer is a whole memref held at named contents; the inputs are
    returned as they were and the scratch at `scNext`. -/
theorem run1_tft (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : ¬cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tf i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j = 0, j > i, j ≠ 15: the scratch is zeroed and nothing is added; the output buffer
    is left as found. No point of the 16×16 grid has these three at once; the run holds at any coordinate all the
    same. Every buffer is a whole memref held at named contents; the inputs are returned as they were and the scratch
    at `scNext`. -/
theorem run1_tff (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : cond1_0 i) (hc1 : ¬cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_tf i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

set_option maxHeartbeats 1000000 in
/-- The body at a coordinate with j ≠ 0, j ≤ i, j = 15: the masked product is added to what the scratch held; the
    output buffer is stored with the residual rows plus that scratch. Every buffer is a whole memref held at named
    contents; the inputs are returned as they were and the scratch at `scNext`. -/
theorem run1_ftt (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ft i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j ≠ 0, j ≤ i, j ≠ 15: the masked product is added to what the scratch held; the
    output buffer is left as found. Every buffer is a whole memref held at named contents; the inputs are returned as
    they were and the scratch at `scNext`. -/
theorem run1_ftf (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ft i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

set_option maxHeartbeats 1000000 in
/-- The body at a coordinate with j ≠ 0, j > i, j = 15: the scratch is left as it was; the output buffer is stored
    with the residual rows plus that scratch. Every buffer is a whole memref held at named contents; the inputs are
    returned as they were and the scratch at `scNext`. -/
theorem run1_fft (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : ¬cond1_1 i) (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ff i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; sl_unfold_run_names; rd_all
  iexists _; isplitr
  swap; · iexact H7
  ipureintro; sl_unfold_run_names; rd_all

set_option maxHeartbeats 1000000 in
/-- The body at a coordinate with j ≠ 0, j > i, j ≠ 15: the scratch is left as it was; the output buffer is left as
    found. Every buffer is a whole memref held at named contents; the inputs are returned as they were and the scratch
    at `scNext`. -/
theorem run1_fff (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc0 : ¬cond1_0 i) (hc1 : ¬cond1_1 i) (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  rw [scNext_ff i q k v s hc0 hc1]
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro; sl_unfold_run_names; rd_all

/-- The body at any coordinate with j = 15, whichever way the first two conditions fall: the scratch ends at `scNext`, the
    output buffer at the residual rows plus it. -/
theorem kernelRun1_live (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc2 : cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare (k1_pay3 x (scNext i q k v s))
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  by_cases hc0 : cond1_0 i
  · by_cases hc1 : cond1_1 i
    · exact run1_ttt c i arg2 harg2 arg3 harg3 arg4 harg4 arg5 harg5 arg6 harg6 arg7 harg7 hc0 hc1 hc2 x q k v o s E K
    · exact run1_tft c i arg2 harg2 arg3 harg3 arg4 harg4 arg5 harg5 arg6 harg6 arg7 harg7 hc0 hc1 hc2 x q k v o s E K
  · by_cases hc1 : cond1_1 i
    · exact run1_ftt c i arg2 harg2 arg3 harg3 arg4 harg4 arg5 harg5 arg6 harg6 arg7 harg7 hc0 hc1 hc2 x q k v o s E K
    · exact run1_fft c i arg2 harg2 arg3 harg3 arg4 harg4 arg5 harg5 arg6 harg6 arg7 harg7 hc0 hc1 hc2 x q k v o s E K

/-- The body at any coordinate with j ≠ 15, whichever way the first two conditions fall: the scratch ends at `scNext`, the
    output buffer is left as found. -/
theorem kernelRun1_idle (c : Dev nD) (i : grid1.Coords)
    (arg2 : Memref sig .tc .vmem S512x512 .f32) (harg2 : arg2.IsWhole) (arg3 : Memref sig .tc .vmem S512x64 .bf16) (harg3 : arg3.IsWhole)
    (arg4 : Memref sig .tc .vmem S512x64 .bf16) (harg4 : arg4.IsWhole) (arg5 : Memref sig .tc .vmem S512x512 .bf16) (harg5 : arg5.IsWhole)
    (arg6 : Memref sig .tc .vmem S512x512 .f32) (harg6 : arg6.IsWhole) (arg7 : Memref sig .tc .vmem S512x512 .f32) (harg7 : arg7.IsWhole)
    (hc2 : ¬cond1_2 i)
    (x : Vec F S512x512 .f32) (q k : Vec F S512x64 .bf16) (v : Vec F S512x512 .bf16) (o s : Vec F S512x512 .f32)
    (E : Set ℕ) (K : PUnit → sProp 𝕄) :
    iprop(owns (c : Thread nD τ) arg2 fullShare x ∗ owns (c : Thread nD τ) arg3 fullShare q ∗ owns (c : Thread nD τ) arg4 fullShare k
        ∗ owns (c : Thread nD τ) arg5 fullShare v ∗ owns (c : Thread nD τ) arg6 fullShare o ∗ owns (c : Thread nD τ) arg7 fullShare s
        ∗ (iprop(owns (c : Thread nD τ) arg2 fullShare x ∗ owns (c : Thread nD τ) arg3 fullShare q ∗ owns (c : Thread nD τ) arg4 fullShare k
            ∗ owns (c : Thread nD τ) arg5 fullShare v ∗ owns (c : Thread nD τ) arg6 fullShare o
            ∗ owns (c : Thread nD τ) arg7 fullShare (scNext i q k v s)) -∗ K ⟨⟩))
      ⊢ wp frame (wpE (defs₀ (F := F)) Variants.none c none) E (cc1__attn_kernel i arg2 harg2 arg3 harg3 arg4 harg4 arg5 harg5 arg6 harg6 arg7 harg7) K := by
  by_cases hc0 : cond1_0 i
  · by_cases hc1 : cond1_1 i
    · exact run1_ttf c i arg2 harg2 arg3 harg3 arg4 harg4 arg5 harg5 arg6 harg6 arg7 harg7 hc0 hc1 hc2 x q k v o s E K
    · exact run1_tff c i arg2 harg2 arg3 harg3 arg4 harg4 arg5 harg5 arg6 harg6 arg7 harg7 hc0 hc1 hc2 x q k v o s E K
  · by_cases hc1 : cond1_1 i
    · exact run1_ftf c i arg2 harg2 arg3 harg3 arg4 harg4 arg5 harg5 arg6 harg6 arg7 harg7 hc0 hc1 hc2 x q k v o s E K
    · exact run1_fff c i arg2 harg2 arg3 harg3 arg4 harg4 arg5 harg5 arg6 harg6 arg7 harg7 hc0 hc1 hc2 x q k v o s E K

/-! ## The other region's buffers, set aside -/

/-- The chain is the other region's buffers (the chain ending in `emp`) beside what it ends with. -/
theorem chain1_split (c : Dev nD) (S : sProp 𝕄) : chain1 (F := F) c S = iprop(chain1 (F := F) c iprop(emp) ∗ S) := by
  have h₁ : chain1 (F := F) c S ⊢ iprop(chain1 (F := F) c iprop(emp) ∗ S) := by
    unfold chain1
    iintro ⟨R0, R1, R2, R3, R4, R5, R6, R7, R8, R9, R10, R11, R12, R13, R14, HS⟩
    isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      iempintro
    · iexact HS
  have h₂ : iprop(chain1 (F := F) c iprop(emp) ∗ S) ⊢ chain1 (F := F) c S := by
    unfold chain1
    iintro ⟨⟨R0, R1, R2, R3, R4, R5, R6, R7, R8, R9, R10, R11, R12, R13, R14, -⟩, HS⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact HS
  exact BI.equiv_iff.mp ⟨h₁, h₂⟩

/-- The class invariant, the scratch beside the other region's buffers. -/
theorem PhiA1_eq' (c : Dev nD) :
    (Pipeline.ΦA spec1 c : sProp 𝕄)
      = iprop((chain1 (F := F) c iprop(emp) ∗ (∃ d, owns (c : Thread nD τ) scM1 fullShare d)) ∗ (∃ r, prngReg c r)) := by
  rw [PhiA1_eq, chain1_split]

/-- The region invariant before the first point, in that form; -/
theorem PhiS1_zero' (c : Dev nD) (n : ℕ) (h : n ≤ cfg1.N) (hz : n = 0) :
    PhiS1 V c n h = iprop((chain1 (F := F) c iprop(emp) ∗ (∃ d, owns (c : Thread nD τ) scM1 fullShare d)) ∗ (∃ r, prngReg c r)) := by
  rw [PhiS1_zero V c n h hz, PhiA1_eq']

/-- after point `n`; -/
theorem PhiS1_succ' (c : Dev nD) (n : ℕ) (hn : n < cfg1.N) :
    PhiS1 V c (n + 1) hn
      = iprop((chain1 (F := F) c iprop(emp) ∗ owns (c : Thread nD τ) scM1 fullShare (scAt1 V c n hn)) ∗ (∃ r, prngReg c r)) := by
  rw [PhiS1_succ, chain1_split]

/-- before a point that is not the first. -/
theorem PhiS1_pos' (c : Dev nD) (n : ℕ) (h : n ≤ cfg1.N) (hz : n ≠ 0) :
    PhiS1 V c n h
      = iprop((chain1 (F := F) c iprop(emp) ∗ owns (c : Thread nD τ) scM1 fullShare (scAt1 V c (n - 1) (by omega))) ∗ (∃ r, prngReg c r)) := by
  rw [PhiS1_pos V c n h hz, chain1_split]

/-! ## The scratch after a point, from the scratch before it -/

/-- After a point that is not the first, the scratch is one step from what the point before left. -/
theorem scAt1_pos (c : Dev nD) (t : Fin cfg1.N) (hz : t.val ≠ 0) :
    scAt1 V c t.val t.isLt
      = scNext (grid1.coords t) (iblk1 V c 1 t) (iblk1 V c 2 t) (iblk1 V c 3 t) (scAt1 V c (t.val - 1) (by have := t.isLt; omega)) := by
  obtain ⟨n, hn⟩ := t
  cases n with
  | zero => exact absurd rfl hz
  | succ n => exact scAt1_succ V c n hn

/-- At the first point the scratch is zeroed before it is read: what it held does not matter. -/
theorem scAt1_first (c : Dev nD) (t : Fin cfg1.N) (hz : t.val = 0) (d : Vec F S512x512 .f32) :
    scAt1 V c t.val t.isLt = scNext (grid1.coords t) (iblk1 V c 1 t) (iblk1 V c 2 t) (iblk1 V c 3 t) d := by
  obtain ⟨n, hn⟩ := t
  obtain rfl : n = 0 := hz
  have h0 : cond1_0 (grid1.coords ⟨0, hn⟩) := (hcond1_0 ⟨0, hn⟩).mpr (Nat.zero_mod _)
  rw [scAt1_zero]
  unfold scNext
  simp only [if_pos h0]

/-! ## What the body finds in the input windows' buffers -/

/-- Each input's current buffer holds its block at every point, fetched there or not (the windows are uncut and never idle). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the invariant hands the body the scratch at what the
    point before left (at anything at the first point, where the body zeroes it before reading it) and takes it back at
    this point's contents; where j ≠ 15 the output buffer is handed back as found, where j = 15 it is stored with the
    residual rows plus the finished scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ']
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  rw [show (dat1 V c).leavesExact 3 t = owns (c : Thread nD τ) (win1_3.stage (cfg1.slots t 3)) fullShare ((dat1 V c).after 3 t) from by
    unfold Dat.leavesExact; rw [liveAt1_3 t], after1_3]
  rw [PhiS1_castSucc V c t]
  by_cases h2 : cond1_2 (grid1.coords t)
  · have hz : t.val ≠ 0 := by have := (hcond1_2 t).mp h2; omega
    rw [show (dat1 V c).leavesExact 4 t = owns (c : Thread nD τ) (win1_4.stage (cfg1.slots t 4)) fullShare ((dat1 V c).after 4 t) from by
      unfold Dat.leavesExact; rw [liveAt1_4 t h2], after1_4]
    unfold out1_4
    rw [PhiS1_pos' V c _ _ hz, scAt1_pos V c t hz]
    iintro ⟨⟨⟨Hrest, HS⟩, Hg⟩, Ho, ⟨%d0, H0⟩, ⟨%d1, H1⟩, ⟨%d2, H2⟩, ⟨%d3, H3⟩, ⟨%d4, H4⟩⟩
    iapply (kernelRun1_live c (grid1.coords t) _ _ _ _ _ _ _ _ _ _ _ _ h2 (iblk1 V c 0 t) (iblk1 V c 1 t) (iblk1 V c 2 t) (iblk1 V c 3 t)
      ((dat1 V c).before 4 t d4) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Hrest HS Hg]
    · isplitl [Hrest HS]
      · isplitl [Hrest]; · iexact Hrest
        iexact HS
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t h2) (noFlush1_4 t h2)]
    by_cases hz : t.val = 0
    · rw [PhiS1_zero' V c _ _ hz]
      iintro ⟨⟨⟨Hrest, ⟨%s0, HS⟩⟩, Hg⟩, Ho, ⟨%d0, H0⟩, ⟨%d1, H1⟩, ⟨%d2, H2⟩, ⟨%d3, H3⟩, ⟨%d4, H4⟩⟩
      rw [scAt1_first V c t hz s0]
      iapply (kernelRun1_idle c (grid1.coords t) _ _ _ _ _ _ _ _ _ _ _ _ h2 (iblk1 V c 0 t) (iblk1 V c 1 t) (iblk1 V c 2 t) (iblk1 V c 3 t)
        ((dat1 V c).before 4 t d4) s0 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hrest HS Hg]
      · isplitl [Hrest HS]
        · isplitl [Hrest]; · iexact Hrest
          iexact HS
        iexact Hg
      isplitl [Ho]; · iexact Ho
      isplitl [H0]; · iexact H0
      isplitl [H1]; · iexact H1
      isplitl [H2]; · iexact H2
      isplitl [H3]; · iexact H3
      iexists _; iexact H4
    · rw [PhiS1_pos' V c _ _ hz, scAt1_pos V c t hz]
      iintro ⟨⟨⟨Hrest, HS⟩, Hg⟩, Ho, ⟨%d0, H0⟩, ⟨%d1, H1⟩, ⟨%d2, H2⟩, ⟨%d3, H3⟩, ⟨%d4, H4⟩⟩
      iapply (kernelRun1_idle c (grid1.coords t) _ _ _ _ _ _ _ _ _ _ _ _ h2 (iblk1 V c 0 t) (iblk1 V c 1 t) (iblk1 V c 2 t) (iblk1 V c 3 t)
        ((dat1 V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hrest HS Hg]
      · isplitl [Hrest HS]
        · isplitl [Hrest]; · iexact Hrest
          iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class invariant back: the scratch's named contents are forgotten. -/
theorem Phi1_out (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos' V c _ _ (by rw [Fin.val_last]; have : cfg1.N = 256 := N_1; omega), PhiA1_eq']
  iintro ⟨⟨Hrest, HS⟩, Hg⟩
  isplitl [Hrest HS]
  · isplitl [Hrest]; · iexact Hrest
    iexists _; iexact HS
  iexact Hg

/-- info: 'Cert.KernelIdeal.Hand.body_obligation1' depends on axioms: [propext, Classical.choice, Quot.sound] -/
#guard_msgs in #print axioms body_obligation1

end Cert.KernelIdeal.Hand

end
-- ==== Proof.HandKernelIdeal.Run.lean ====
/- The whole run of the program: two host reshapes, then the projection kernel, then the causal kernel.
   The buffers' contents at each boundary are a fold from the launch memory (a host stretch applies its operations; a kernel
   region leaves its arrays at what its write-backs leave and every other buffer as entered); each kernel region is a
   segment entered from every unscoped buffer at the boundary's contents; and the launch composes the segments. Every
   weakly fair execution ends with every unscoped buffer at the last boundary's contents: the seven arguments as launched,
   and the result at what the causal kernel's write-backs leave. The two kernels' body obligations are hypotheses here. -/
import proofs.«180881_j62843961475101_1_alg».proof.Proof.HandKernelIdeal.Defs1
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection kernel's body obligation, at any region-entry contents. -/
abbrev HB0 (F : FTy → Type) [FloatOps F] : Prop :=
  ∀ (V : (c : Dev nD) → (b : Ref sig .tc) → Buf (Elt F) ((c : Thread nD τ).loc b)) (c : Dev nD),
    BodyObligation (dat0 (F := F) V c) (defs₀ (F := F)) Variants.none () Set.univ
/-- The causal kernel's body obligation, at any region-entry contents. -/
abbrev HB1 (F : FTy → Type) [FloatOps F] : Prop :=
  ∀ (V : (c : Dev nD) → (b : Ref sig .tc) → Buf (Elt F) ((c : Thread nD τ).loc b)) (c : Dev nD),
    BodyObligation (dat1 (F := F) V c) (defs₀ (F := F)) Variants.none () Set.univ
/-- After its last point the causal kernel's invariant gives the class invariant back. -/
abbrev HΦ1 (F : FTy → Type) [FloatOps F] : Prop :=
  ∀ (V : (c : Dev nD) → (b : Ref sig .tc) → Buf (Elt F) ((c : Thread nD τ).loc b)) (c : Dev nD),
    (dat1 V c).Φ (Fin.last cfg1.N) ⊢ (Pipeline.ΦA spec1 c : sProp (MT nD τ sig Unit (Elt F) ℕ (UR sig nD τ) ℕ))

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two reshapes (the projection kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection kernel (the causal kernel's entry): q, k, v at what its write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the causal kernel (the end): the result at what its write-backs leave. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result is the causal kernel's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 5).trans (((dat0 (V1 m) c).arrAt_in 5 rfl _).trans (A_eq0 (V1 m) c 5))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 6).trans (((dat0 (V1 m) c).arrAt_in 6 rfl _).trans (A_eq0 (V1 m) c 6))
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_v3 (c : Dev nD) : W3 m c (Proc.devRef .tc main_v3) = (dat1 (V2 m) c).arrAt 4 cfg1.N := W3_arr m c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernel regions as segments -/
set_option backward.isDefEq.respectTransparency.types false in
def reg0 (hb0 : HB0 F) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hb1 : HB1 F) (hΦ1 : HΦ1 F) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from hΦ1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs (hb0 : HB0 F) (hb1 : HB1 F) (hΦ1 : HΦ1 F) : List (Pipeline.Seg (pcfgs (F := F)) adm (pdats m) () defs₀ 𝒱₀ L lv) :=
  [ .host (hseg hostOps0 hostOps0_sub hostOps0_fresh (W0 m)),
    .region (reg0 m hb0),
    .region (reg1 m hb1 hΦ1) ]
theorem main_run (hb0 : HB0 F) (hb1 : HB1 F) (hΦ1 : HΦ1 F) (c : Dev nD) : main (F := F) c = Pipeline.Seg.run (segs m hb0 hb1 hΦ1) := (main_chain c).trans (by chain_rfl)

set_option backward.isDefEq.respectTransparency.types false in
/-- Every weakly fair execution of the program from memory `m` with zero counters terminates, nothing faulting, and every
    final memory holds every unscoped buffer at the last boundary's contents. -/
theorem run_all (hb0 : HB0 F) (hb1 : HB1 F) (hΦ1 : HΦ1 F) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m hb0 hb1 hΦ1)
    (fun c Q => by rw [main_run m hb0 hb1 hΦ1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Value.Spec.lean ====
/- The function both programs compute, over the extended reals, as plain index-by-index mathematics.
   For a row r of 512 entries: its mean μ = (Σ r)/512, its variance σ² = (Σ (r − μ)²)/512, and the normalised row
   n_d = ((r_d − μ) · (σ² + ε)^(−1/2)) · γ_d + β_d.  With x, e : 8192 × 512, Wq, Wk : 512 × 64, Wv : 512 × 512:
   q_{t,a} = Σ_d n(x_t)_d · Wq_{d,a},  k likewise with Wk,  v_{s,c} = Σ_d e_{s,d} · Wv_{d,c},
   the causal coefficient c_{t,s} = (Σ_a q_{t,a} k_{s,a}) · ⅛ for s ≤ t and 0 for s > t,
   and the result o_{t,c} = x_{t,c} + Σ_s c_{t,s} · v_{s,c}.
   The float literals are kept as their words (the same word on both sides is never evaluated). -/
import Idealize.ShloMosaic.PureOps.Ideal
import Idealize.ShloMosaic.PureOps.Ideal.Laws

noncomputable section

namespace Cert.Spec

open Idealize.ShloMosaic

/-- 512.0, the row length the sums are divided by. -/
abbrev w512 : EReal := Ideal.ofBits .f32 0x44000000#32
/-- The variance's ε. -/
abbrev wEps : EReal := Ideal.ofBits .f32 0x3727C5AC#32
/-- ⅛ = 64^(−1/2). -/
abbrev wEighth : EReal := Ideal.ofBits .f32 0x3E000000#32

/-- The mean of a row. -/
def mean (r : Fin 512 → EReal) : EReal := Ideal.div (∑ d, r d) w512

/-- The normalised row. -/
def lnRow (r g b : Fin 512 → EReal) (d : Fin 512) : EReal :=
  ((r d - mean r) * Ideal.rsqrt (mean (fun e => (r e - mean r) * (r e - mean r)) + wEps)) * g d + b d

/-- A projection of the normalised rows: q (with Wq) and k (with Wk). -/
def projAt (x : Fin 8192 → Fin 512 → EReal) (g b : Fin 512 → EReal) (w : Fin 512 → Fin 64 → EReal)
    (t : Fin 8192) (a : Fin 64) : EReal :=
  ∑ d : Fin 512, lnRow (x t) g b d * w d a

/-- The value rows. -/
def vAt (e : Fin 8192 → Fin 512 → EReal) (wv : Fin 512 → Fin 512 → EReal) (s : Fin 8192) (c : Fin 512) : EReal :=
  ∑ d : Fin 512, e s d * wv d c

/-- The causal coefficient. -/
def cAt (q k : Fin 8192 → Fin 64 → EReal) (t s : Fin 8192) : EReal :=
  if s.val ≤ t.val then (∑ a : Fin 64, q t a * k s a) * wEighth else 0

/-- The result from the residual rows and q, k, v. -/
def outAt (x : Fin 8192 → Fin 512 → EReal) (q k : Fin 8192 → Fin 64 → EReal) (v : Fin 8192 → Fin 512 → EReal)
    (t : Fin 8192) (c : Fin 512) : EReal :=
  x t c + ∑ s : Fin 8192, cAt q k t s * v s c

/-- The result from the seven arguments. -/
def result (x e : Fin 8192 → Fin 512 → EReal) (g b : Fin 512 → EReal) (wq wk : Fin 512 → Fin 64 → EReal)
    (wv : Fin 512 → Fin 512 → EReal) (t : Fin 8192) (c : Fin 512) : EReal :=
  outAt x (projAt x g b wq) (projAt x g b wk) (vAt e wv) t c

end Cert.Spec

end
-- ==== Proof.Value.Kernel0.lean ====
/- What the three arrays the projection kernel writes hold after its run, at the ideal instance, index by index:
   the query and key rows are the normalised rows of x times Wq and Wk, the value rows are the embedding rows times Wv. -/
import proofs.«180881_j62843961475101_1_alg».proof.Proof.HandKernelIdeal.Defs0
import proofs.«180881_j62843961475101_1_alg».proof.Proof.Value.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2)

variable (V : (c : Dev nD) → (b : Ref sig .tc) → Buf (Elt Ideal) ((c : Thread nD τ).loc b)) (c : Dev nD)

/-- The region-entry arrays read as plain functions of their coordinates. -/
abbrev rd2 {n0 n1 : Nat} {e : EltTy} (f : (⟨2, ![n0, n1]⟩ : Shape).Idx → Elt Ideal e) (a : Fin n0) (b : Fin n1) : Elt Ideal e := f (ix2 a b)

/-! ## The body's operations read at an index -/

/-- The zero offsets of a whole-buffer rectangle. -/
theorem hz : (![0, 0] : Fin 2 → Nat) = fun _ => 0 :=
  funext fun a => match a with | ⟨0, _⟩ => rfl | ⟨1, _⟩ => rfl

/-- The sum of a 1024 × 512 block along its rows, at row `r`, is the sum of that row's 512 entries. -/
theorem rowSum_apply (y : FVec Ideal S1024x512 .f32) (r : Fin 1024) :
    Ideal.reduceAdd reduces_S1024x512_S1024 y (ix1 r) = ∑ d : Fin 512, y (ix2 r d) := by
  refine (Ideal.reduceAdd_single reduces_S1024x512_S1024 y (ix1 r)).trans ?_
  refine Finset.sum_congr rfl fun k _ => congrArg y (funext fun a => Fin.ext ?_)
  match a with
  | ⟨0, _⟩ => rfl
  | ⟨1, _⟩ => rfl

/-- A vector of 1024 entries viewed as a column reads, at `(r, 0)`, its entry `r`. -/
theorem col_apply {α : Type} (v : S1024.Idx → α) (r : Fin 1024) (z : Fin 1) :
    shapeCast S1024x1 v shapeCasts_S1024_S1024x1 (ix2 r z) = v (ix1 r) :=
  shapeCast_apply v _ _ _ (by
    rw [Shape.rowMajor_val_one, Shape.rowMajor_val_two]
    show r.val = r.val * 1 + z.val
    have := z.isLt
    omega)

/-- A column repeated along 512 lanes reads, at `(r, d)`, the column at `r`. -/
theorem bcol_apply {α : Type} (v : S1024x1.Idx → α) (r : Fin 1024) (d : Fin 512) :
    broadcastTo S1024x512 v broadcasts_S1024x1_S1024x512 (ix2 r d) = v (ix2 r (0 : Fin 1)) :=
  broadcastTo_apply v _ (ix2 r d) (ix2 r (0 : Fin 1)) fun a => by
    match a with
    | ⟨0, _⟩ => show r.val = if (1024 : Nat) = 1 then 0 else r.val; rw [if_neg (by decide)]
    | ⟨1, _⟩ => show (0 : Nat) = if (1 : Nat) = 1 then 0 else d.val; rw [if_pos rfl]

/-- The reciprocal square root of a vector, at an index, is that of the entry. -/
theorem rsqrt_apply {s : Shape} {φ : FTy} (v : FVec Ideal s φ) (i : s.Idx) : rsqrt v i = Ideal.rsqrt (v i) := rfl

/-- THE NORMALISED BLOCK at `(r, d)`: the normalised row `r` of the block, at `d`. The row sum is opened as the
    instance's sum over one axis; every other operation reads through at the index. -/
theorem pay4_apply (x : Vec Ideal S1024x512 .f32) (g b : Vec Ideal S1x512 .f32) (r : Fin 1024) (d : Fin 512) :
    k0_pay4 x g b (ix2 r d)
      = Cert.Spec.lnRow (fun e => x (ix2 r e)) (fun e => g (ix2 (0 : Fin 1) e)) (fun e => b (ix2 (0 : Fin 1) e)) d := by
  unfold k0_pay4
  delta multiReduction
  simp only [ValueIdx.truncf_apply, ValueIdx.addf_apply, ValueIdx.mulf_apply, ValueIdx.subf_apply, ValueIdx.divf_apply,
    ValueIdx.broadcast_apply, ValueIdx.broadcastTo_1b_ab_apply, shapeCast_self, bcol_apply, col_apply, rsqrt_apply,
    Ideal.reduceAdd_def, rowSum_apply]
  rfl

/-! ## The two products: a block of 1024 rows times a 512 × 64 or a 512 × 512 matrix -/

/-- The dimension numbers of the two products: rows × contraction times contraction × columns. -/
abbrev D64 : DotDims S1024x512 S512x64 S1024x64 := dot_S1024x512_S512x64_S1024x64_1_0_0_1_n_n
abbrev D512 : DotDims S1024x512 S512x512 S1024x512 := dot_S1024x512_S512x512_S1024x512_1_0_0_1_n_n

theorem lhs64_0 (i : S1024x64.Idx) (q : D64.contr.Idx) : (D64.lhsIdx i q 0).val = (i 0).val := by
  unfold DotDims.lhsIdx
  rw [dif_neg (show ¬(0 : Fin S1024x512.rank) ∈ D64.lhsBatch by decide),
    dif_pos (show (0 : Fin S1024x512.rank) ∈ D64.lhsNonContracting by decide)]
  rfl
theorem lhs64_1 (i : S1024x64.Idx) (q : D64.contr.Idx) : (D64.lhsIdx i q 1).val = (q ⟨0, by decide⟩).val :=
  D64.lhsIdx_val_of_single rfl i q
theorem rhs64_0 (i : S1024x64.Idx) (q : D64.contr.Idx) : (D64.rhsIdx i q 0).val = (q ⟨0, by decide⟩).val :=
  D64.rhsIdx_val_of_single rfl i q
theorem rhs64_1 (i : S1024x64.Idx) (q : D64.contr.Idx) : (D64.rhsIdx i q 1).val = (i 1).val := by
  unfold DotDims.rhsIdx
  rw [dif_neg (show ¬(1 : Fin S512x64.rank) ∈ D64.rhsBatch by decide),
    dif_pos (show (1 : Fin S512x64.rank) ∈ D64.rhsNonContracting by decide)]
  rfl

/-- The product into a zero accumulator at `(r, a)`: the sum over the 512 contracted positions. -/
theorem mm64_apply (l : FVec Ideal S1024x512 .bf16) (w : FVec Ideal S512x64 .bf16) (r : Fin 1024) (a : Fin 64) :
    matmul D64 none l w (constant S1024x64 .f32 0x00000000#32) (ix2 r a) = ∑ d : Fin 512, l (ix2 r d) * w (ix2 d a) := by
  refine (Ideal.matmul_constant_zero_apply D64 none l w (ix2 r a)).trans ?_
  rw [← Equiv.sum_comp (ValueIdx.contrEquiv1 D64 512 rfl rfl).symm]
  refine Finset.sum_congr rfl fun k _ => ?_
  have hk := ValueIdx.contrEquiv1_symm_val D64 512 rfl rfl k
  have el : D64.lhsIdx (ix2 r a) ((ValueIdx.contrEquiv1 D64 512 rfl rfl).symm k) = ix2 r k := funext fun ax => Fin.ext (by
    match ax with
    | ⟨0, _⟩ => exact lhs64_0 _ _
    | ⟨1, _⟩ => exact (lhs64_1 _ _).trans hk)
  have er : D64.rhsIdx (ix2 r a) ((ValueIdx.contrEquiv1 D64 512 rfl rfl).symm k) = ix2 k a := funext fun ax => Fin.ext (by
    match ax with
    | ⟨0, _⟩ => exact (rhs64_0 _ _).trans hk
    | ⟨1, _⟩ => exact rhs64_1 _ _)
  rw [el, er]

theorem lhs512_0 (i : S1024x512.Idx) (q : D512.contr.Idx) : (D512.lhsIdx i q 0).val = (i 0).val := by
  unfold DotDims.lhsIdx
  rw [dif_neg (show ¬(0 : Fin S1024x512.rank) ∈ D512.lhsBatch by decide),
    dif_pos (show (0 : Fin S1024x512.rank) ∈ D512.lhsNonContracting by decide)]
  rfl
theorem lhs512_1 (i : S1024x512.Idx) (q : D512.contr.Idx) : (D512.lhsIdx i q 1).val = (q ⟨0, by decide⟩).val :=
  D512.lhsIdx_val_of_single rfl i q
theorem rhs512_0 (i : S1024x512.Idx) (q : D512.contr.Idx) : (D512.rhsIdx i q 0).val = (q ⟨0, by decide⟩).val :=
  D512.rhsIdx_val_of_single rfl i q
theorem rhs512_1 (i : S1024x512.Idx) (q : D512.contr.Idx) : (D512.rhsIdx i q 1).val = (i 1).val := by
  unfold DotDims.rhsIdx
  rw [dif_neg (show ¬(1 : Fin S512x512.rank) ∈ D512.rhsBatch by decide),
    dif_pos (show (1 : Fin S512x512.rank) ∈ D512.rhsNonContracting by decide)]
  rfl

/-- The same for the 512 × 512 matrix. -/
theorem mm512_apply (l : FVec Ideal S1024x512 .bf16) (w : FVec Ideal S512x512 .bf16) (r : Fin 1024) (a : Fin 512) :
    matmul D512 none l w (constant S1024x512 .f32 0x00000000#32) (ix2 r a) = ∑ d : Fin 512, l (ix2 r d) * w (ix2 d a) := by
  refine (Ideal.matmul_constant_zero_apply D512 none l w (ix2 r a)).trans ?_
  rw [← Equiv.sum_comp (ValueIdx.contrEquiv1 D512 512 rfl rfl).symm]
  refine Finset.sum_congr rfl fun k _ => ?_
  have hk := ValueIdx.contrEquiv1_symm_val D512 512 rfl rfl k
  have el : D512.lhsIdx (ix2 r a) ((ValueIdx.contrEquiv1 D512 512 rfl rfl).symm k) = ix2 r k := funext fun ax => Fin.ext (by
    match ax with
    | ⟨0, _⟩ => exact lhs512_0 _ _
    | ⟨1, _⟩ => exact (lhs512_1 _ _).trans hk)
  have er : D512.rhsIdx (ix2 r a) ((ValueIdx.contrEquiv1 D512 512 rfl rfl).symm k) = ix2 k a := funext fun ax => Fin.ext (by
    match ax with
    | ⟨0, _⟩ => exact (rhs512_0 _ _).trans hk
    | ⟨1, _⟩ => exact rhs512_1 _ _)
  rw [el, er]

/-! ## The three stored blocks at an index, over any input blocks -/

/-- The query block at `(r, a)`: the normalised row `r` against column `a` of the weights. -/
theorem out7_apply (x : Vec Ideal S1024x512 .f32) (g b : Vec Ideal S1x512 .f32) (w : Vec Ideal S512x64 .f32)
    (r : Fin 1024) (a : Fin 64) :
    out0_7 x g b w (ix2 r a)
      = ∑ d : Fin 512, Cert.Spec.lnRow (fun e => x (ix2 r e)) (fun e => g (ix2 (0 : Fin 1) e)) (fun e => b (ix2 (0 : Fin 1) e)) d
          * w (ix2 d a) := by
  unfold out0_7
  rw [View.canon_unit_zero hz]
  simp only [View.ld_unit_zero (S := S1024x512) hz, View.ld_unit_zero (S := S1x512) hz, View.ld_unit_zero (S := S512x64) hz]
  show k0_pay5 x g b w (ix2 r a) = _
  unfold k0_pay5
  refine (mm64_apply _ _ r a).trans ?_
  refine Finset.sum_congr rfl fun d _ => ?_
  rw [pay4_apply]
  rfl

/-- The key block at `(r, a)`: the same with the key weights. -/
theorem out8_apply (x : Vec Ideal S1024x512 .f32) (g b : Vec Ideal S1x512 .f32) (w : Vec Ideal S512x64 .f32)
    (r : Fin 1024) (a : Fin 64) :
    out0_8 x g b w (ix2 r a)
      = ∑ d : Fin 512, Cert.Spec.lnRow (fun e => x (ix2 r e)) (fun e => g (ix2 (0 : Fin 1) e)) (fun e => b (ix2 (0 : Fin 1) e)) d
          * w (ix2 d a) := by
  unfold out0_8
  rw [View.canon_unit_zero hz]
  simp only [View.ld_unit_zero (S := S1024x512) hz, View.ld_unit_zero (S := S1x512) hz, View.ld_unit_zero (S := S512x64) hz]
  show k0_pay6 x g b w (ix2 r a) = _
  unfold k0_pay6
  refine (mm64_apply _ _ r a).trans ?_
  refine Finset.sum_congr rfl fun d _ => ?_
  rw [pay4_apply]
  rfl

/-- The value block at `(r, cc)`: the embedding row `r` against column `cc` of the weights. -/
theorem out9_apply (xe : Vec Ideal S1024x512 .f32) (w : Vec Ideal S512x512 .f32) (r : Fin 1024) (cc : Fin 512) :
    out0_9 xe w (ix2 r cc) = ∑ d : Fin 512, xe (ix2 r d) * w (ix2 d cc) := by
  unfold out0_9
  rw [View.canon_unit_zero hz]
  simp only [View.ld_unit_zero (S := S1024x512) hz, View.ld_unit_zero (S := S512x512) hz]
  show k0_pay7 xe w (ix2 r cc) = _
  unfold k0_pay7
  exact mm512_apply _ _ r cc

/-! ## The input blocks as parts of the arrays -/

/-- The index maps, decided once over the grid: x, the embedding and the three results move one block of 1024 rows per
    point; the scale, the shift and the three weight matrices are staged whole. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The grid has eight points. -/
theorem N8 : cfg0.N = 8 := N_0

/-- Row `r` of the block of x at point `t` is row `1024 t + r` of x. -/
theorem iblk_x (t : Fin cfg0.N) (r : Fin 1024) (d : Fin 512) (k : Fin 8192) (hk : k.val = 1024 * t.val + r.val) :
    (iblk0 V c 0 t : Vec Ideal S1024x512 .f32) (ix2 r d) = (V c main_arg0 : S8192x512.Idx → EReal) (ix2 k d) := by
  obtain ⟨⟨h0, h1⟩, -⟩ := idx_facts t
  unfold iblk0
  rw [View.read_apply]
  show V c main_arg0 _ = V c main_arg0 _
  congr 1
  funext a
  apply Fin.ext
  match a with
  | ⟨0, _⟩ => show win0_0.index t (0 : Fin 2) * 1024 + 1 * r.val = k.val; rw [h0, hk]; omega
  | ⟨1, _⟩ => show win0_0.index t (1 : Fin 2) * 512 + 1 * d.val = d.val; rw [h1]; omega

/-- Row `r` of the block of the embedding at point `t` is row `1024 t + r` of the embedding. -/
theorem iblk_e (t : Fin cfg0.N) (r : Fin 1024) (d : Fin 512) (k : Fin 8192) (hk : k.val = 1024 * t.val + r.val) :
    (iblk0 V c 1 t : Vec Ideal S1024x512 .f32) (ix2 r d) = (V c main_arg1 : S8192x512.Idx → EReal) (ix2 k d) := by
  obtain ⟨-, ⟨h0, h1⟩, -⟩ := idx_facts t
  unfold iblk0
  rw [View.read_apply]
  show V c main_arg1 _ = V c main_arg1 _
  congr 1
  funext a
  apply Fin.ext
  match a with
  | ⟨0, _⟩ => show win0_1.index t (0 : Fin 2) * 1024 + 1 * r.val = k.val; rw [h0, hk]; omega
  | ⟨1, _⟩ => show win0_1.index t (1 : Fin 2) * 512 + 1 * d.val = d.val; rw [h1]; omega

/-- The staged scale is the whole scale row. -/
theorem iblk_g (t : Fin cfg0.N) (z : Fin 1) (d : Fin 512) :
    (iblk0 V c 2 t : Vec Ideal S1x512 .f32) (ix2 z d) = (V c main_v0 : S1x512.Idx → EReal) (ix2 z d) := by
  obtain ⟨-, -, ⟨h0, h1⟩, -⟩ := idx_facts t
  unfold iblk0
  rw [View.read_apply]
  show V c main_v0 _ = V c main_v0 _
  congr 1
  funext a
  apply Fin.ext
  match a with
  | ⟨0, _⟩ => show win0_2.index t (0 : Fin 2) * 1 + 1 * z.val = z.val; rw [h0]; omega
  | ⟨1, _⟩ => show win0_2.index t (1 : Fin 2) * 512 + 1 * d.val = d.val; rw [h1]; omega

/-- The staged shift is the whole shift row. -/
theorem iblk_b (t : Fin cfg0.N) (z : Fin 1) (d : Fin 512) :
    (iblk0 V c 3 t : Vec Ideal S1x512 .f32) (ix2 z d) = (V c main_v1 : S1x512.Idx → EReal) (ix2 z d) := by
  obtain ⟨-, -, -, ⟨h0, h1⟩, -⟩ := idx_facts t
  unfold iblk0
  rw [View.read_apply]
  show V c main_v1 _ = V c main_v1 _
  congr 1
  funext a
  apply Fin.ext
  match a with
  | ⟨0, _⟩ => show win0_3.index t (0 : Fin 2) * 1 + 1 * z.val = z.val; rw [h0]; omega
  | ⟨1, _⟩ => show win0_3.index t (1 : Fin 2) * 512 + 1 * d.val = d.val; rw [h1]; omega

/-- The staged query weights are the whole matrix. -/
theorem iblk_wq (t : Fin cfg0.N) (d : Fin 512) (a : Fin 64) :
    (iblk0 V c 4 t : Vec Ideal S512x64 .f32) (ix2 d a) = (V c main_arg4 : S512x64.Idx → EReal) (ix2 d a) := by
  obtain ⟨-, -, -, -, ⟨h0, h1⟩, -⟩ := idx_facts t
  unfold iblk0
  rw [View.read_apply]
  show V c main_arg4 _ = V c main_arg4 _
  congr 1
  funext ax
  apply Fin.ext
  match ax with
  | ⟨0, _⟩ => show win0_4.index t (0 : Fin 2) * 512 + 1 * d.val = d.val; rw [h0]; omega
  | ⟨1, _⟩ => show win0_4.index t (1 : Fin 2) * 64 + 1 * a.val = a.val; rw [h1]; omega

/-- The staged key weights are the whole matrix. -/
theorem iblk_wk (t : Fin cfg0.N) (d : Fin 512) (a : Fin 64) :
    (iblk0 V c 5 t : Vec Ideal S512x64 .f32) (ix2 d a) = (V c main_arg5 : S512x64.Idx → EReal) (ix2 d a) := by
  obtain ⟨-, -, -, -, -, ⟨h0, h1⟩, -⟩ := idx_facts t
  unfold iblk0
  rw [View.read_apply]
  show V c main_arg5 _ = V c main_arg5 _
  congr 1
  funext ax
  apply Fin.ext
  match ax with
  | ⟨0, _⟩ => show win0_5.index t (0 : Fin 2) * 512 + 1 * d.val = d.val; rw [h0]; omega
  | ⟨1, _⟩ => show win0_5.index t (1 : Fin 2) * 64 + 1 * a.val = a.val; rw [h1]; omega

/-- The staged value weights are the whole matrix. -/
theorem iblk_wv (t : Fin cfg0.N) (d : Fin 512) (cc : Fin 512) :
    (iblk0 V c 6 t : Vec Ideal S512x512 .f32) (ix2 d cc) = (V c main_arg6 : S512x512.Idx → EReal) (ix2 d cc) := by
  obtain ⟨-, -, -, -, -, -, ⟨h0, h1⟩, -⟩ := idx_facts t
  unfold iblk0
  rw [View.read_apply]
  show V c main_arg6 _ = V c main_arg6 _
  congr 1
  funext ax
  apply Fin.ext
  match ax with
  | ⟨0, _⟩ => show win0_6.index t (0 : Fin 2) * 512 + 1 * d.val = d.val; rw [h0]; omega
  | ⟨1, _⟩ => show win0_6.index t (1 : Fin 2) * 512 + 1 * cc.val = cc.val; rw [h1]; omega

/-! ## What the three arrays end holding -/

/-- The query array as one function of the entry arrays. -/
def G7 : S8192x64.Idx → EReal := fun i =>
  Cert.Spec.projAt (fun t d => (V c main_arg0 : S8192x512.Idx → EReal) (ix2 t d))
    (fun d => (V c main_v0 : S1x512.Idx → EReal) (ix2 (0 : Fin 1) d))
    (fun d => (V c main_v1 : S1x512.Idx → EReal) (ix2 (0 : Fin 1) d))
    (fun d a => (V c main_arg4 : S512x64.Idx → EReal) (ix2 d a)) (i 0) (i 1)

/-- Point `t` writes back block `t` of the query array's function. -/
theorem flushed7_eq (t : Fin cfg0.N) :
    (dat0 V c).flushed 7 t = ((cfg0.win 7).blk t).view.read (Elt Ideal) (G7 V c) := by
  show (cfg0.win 7).cut (grid0.coords t) ((dat0 V c).after 7 t) = _
  rw [after0_7]
  funext (j : S1024x64.Idx)
  obtain ⟨r, a, rfl⟩ : ∃ (r : Fin 1024) (a : Fin 64), j = ix2 r a := ⟨j 0, j 1, ValueIdx.eq_ix2 j⟩
  have ht : t.val < 8 := N8 ▸ t.isLt
  obtain ⟨-, -, -, -, -, -, -, ⟨h0, h1⟩, -⟩ := idx_facts t
  have hi : ((cfg0.win 7).blk t).view.emb (ix2 r a) = ix2 (⟨1024 * t.val + r.val, by omega⟩ : Fin 8192) a := by
    funext ax
    apply Fin.ext
    match ax with
    | ⟨0, _⟩ => show win0_7.index t (0 : Fin 2) * 1024 + 1 * r.val = 1024 * t.val + r.val; rw [h0]; omega
    | ⟨1, _⟩ => show win0_7.index t (1 : Fin 2) * 64 + 1 * a.val = a.val; rw [h1]; omega
  have hx : (cfg0.win 7).xinj (grid0.coords t) (ix2 r a) = ix2 r a := funext fun ax => Fin.ext rfl
  show out0_7 (iblk0 V c 0 t) (iblk0 V c 2 t) (iblk0 V c 3 t) (iblk0 V c 4 t) ((cfg0.win 7).xinj (grid0.coords t) (ix2 r a)) = _
  rw [hx, out7_apply, View.read_apply, hi]
  show _ = G7 V c (ix2 (⟨1024 * t.val + r.val, by omega⟩ : Fin 8192) a)
  unfold G7 Cert.Spec.projAt
  refine Finset.sum_congr rfl fun d _ => ?_
  rw [iblk_wq V c t d a,
    show (fun e => (iblk0 V c 0 t : Vec Ideal S1024x512 .f32) (ix2 r e))
      = (fun e => (V c main_arg0 : S8192x512.Idx → EReal) (ix2 (⟨1024 * t.val + r.val, by omega⟩ : Fin 8192) e))
      from funext fun e => iblk_x V c t r e _ rfl,
    show (fun e => (iblk0 V c 2 t : Vec Ideal S1x512 .f32) (ix2 (0 : Fin 1) e))
      = (fun e => (V c main_v0 : S1x512.Idx → EReal) (ix2 (0 : Fin 1) e)) from funext fun e => iblk_g V c t 0 e,
    show (fun e => (iblk0 V c 3 t : Vec Ideal S1x512 .f32) (ix2 (0 : Fin 1) e))
      = (fun e => (V c main_v1 : S1x512.Idx → EReal) (ix2 (0 : Fin 1) e)) from funext fun e => iblk_b V c t 0 e]

/-- An index of the query array is in point `t`'s block iff each coordinate is in the block's range. -/
theorem mem_blk7 (t : Fin cfg0.N) (i : S8192x64.Idx) :
    i ∈ ((cfg0.win 7).blk t).view.set ↔ ∀ a : Fin 2, win0_7.index t a * S1024x64.size a ≤ (i a).val
      ∧ (i a).val < win0_7.index t a * S1024x64.size a + S1024x64.size a := by
  show i ∈ ((View.whole main_v2_0).slice (win0_7.rect t)).set ↔ _
  rw [View.set_slice_whole, Rect.mem_set_unit]
  exact Iff.rfl

/-- Row `p` of the query array is written back by point `p / 1024`. -/
theorem cover7 (i : S8192x64.Idx) :
    ∃ t : Fin cfg0.N, (cfg0.win 7).flush t = true ∧ i ∈ ((cfg0.win 7).blk t).view.set := by
  have hi0 : (i 0).val < 8192 := (i 0).isLt
  have hi1 : (i 1).val < 64 := (i 1).isLt
  obtain ⟨t, ht⟩ : ∃ t : Fin cfg0.N, t.val = (i 0).val / 1024 := ⟨⟨(i 0).val / 1024, by rw [N8]; omega⟩, rfl⟩
  obtain ⟨-, -, -, -, -, -, -, ⟨h0, h1⟩, -⟩ := idx_facts t
  refine ⟨t, flush0_7 t, (mem_blk7 t i).mpr fun a => ?_⟩
  match a with
  | ⟨0, _⟩ =>
    show win0_7.index t (0 : Fin 2) * 1024 ≤ (i 0).val ∧ (i 0).val < win0_7.index t (0 : Fin 2) * 1024 + 1024
    rw [h0, ht]; omega
  | ⟨1, _⟩ =>
    show win0_7.index t (1 : Fin 2) * 64 ≤ (i 1).val ∧ (i 1).val < win0_7.index t (1 : Fin 2) * 64 + 64
    rw [h1]; omega

/-- THE QUERY ARRAY after the run. -/
theorem final7 : (dat0 V c).arrAt 7 cfg0.N = G7 V c :=
  (dat0 V c).arrAt_eq_of_cover 7 (G7 V c) (fun t _ => flushed7_eq V c t) cover7

/-- The key array as one function of the entry arrays. -/
def G8 : S8192x64.Idx → EReal := fun i =>
  Cert.Spec.projAt (fun t d => (V c main_arg0 : S8192x512.Idx → EReal) (ix2 t d))
    (fun d => (V c main_v0 : S1x512.Idx → EReal) (ix2 (0 : Fin 1) d))
    (fun d => (V c main_v1 : S1x512.Idx → EReal) (ix2 (0 : Fin 1) d))
    (fun d a => (V c main_arg5 : S512x64.Idx → EReal) (ix2 d a)) (i 0) (i 1)

/-- Point `t` writes back block `t` of the key array's function. -/
theorem flushed8_eq (t : Fin cfg0.N) :
    (dat0 V c).flushed 8 t = ((cfg0.win 8).blk t).view.read (Elt Ideal) (G8 V c) := by
  show (cfg0.win 8).cut (grid0.coords t) ((dat0 V c).after 8 t) = _
  rw [after0_8]
  funext (j : S1024x64.Idx)
  obtain ⟨r, a, rfl⟩ : ∃ (r : Fin 1024) (a : Fin 64), j = ix2 r a := ⟨j 0, j 1, ValueIdx.eq_ix2 j⟩
  have ht : t.val < 8 := N8 ▸ t.isLt
  obtain ⟨-, -, -, -, -, -, -, -, ⟨h0, h1⟩, -⟩ := idx_facts t
  have hi : ((cfg0.win 8).blk t).view.emb (ix2 r a) = ix2 (⟨1024 * t.val + r.val, by omega⟩ : Fin 8192) a := by
    funext ax
    apply Fin.ext
    match ax with
    | ⟨0, _⟩ => show win0_8.index t (0 : Fin 2) * 1024 + 1 * r.val = 1024 * t.val + r.val; rw [h0]; omega
    | ⟨1, _⟩ => show win0_8.index t (1 : Fin 2) * 64 + 1 * a.val = a.val; rw [h1]; omega
  have hx : (cfg0.win 8).xinj (grid0.coords t) (ix2 r a) = ix2 r a := funext fun ax => Fin.ext rfl
  show out0_8 (iblk0 V c 0 t) (iblk0 V c 2 t) (iblk0 V c 3 t) (iblk0 V c 5 t) ((cfg0.win 8).xinj (grid0.coords t) (ix2 r a)) = _
  rw [hx, out8_apply, View.read_apply, hi]
  show _ = G8 V c (ix2 (⟨1024 * t.val + r.val, by omega⟩ : Fin 8192) a)
  unfold G8 Cert.Spec.projAt
  refine Finset.sum_congr rfl fun d _ => ?_
  rw [iblk_wk V c t d a,
    show (fun e => (iblk0 V c 0 t : Vec Ideal S1024x512 .f32) (ix2 r e))
      = (fun e => (V c main_arg0 : S8192x512.Idx → EReal) (ix2 (⟨1024 * t.val + r.val, by omega⟩ : Fin 8192) e))
      from funext fun e => iblk_x V c t r e _ rfl,
    show (fun e => (iblk0 V c 2 t : Vec Ideal S1x512 .f32) (ix2 (0 : Fin 1) e))
      = (fun e => (V c main_v0 : S1x512.Idx → EReal) (ix2 (0 : Fin 1) e)) from funext fun e => iblk_g V c t 0 e,
    show (fun e => (iblk0 V c 3 t : Vec Ideal S1x512 .f32) (ix2 (0 : Fin 1) e))
      = (fun e => (V c main_v1 : S1x512.Idx → EReal) (ix2 (0 : Fin 1) e)) from funext fun e => iblk_b V c t 0 e]

/-- An index of the key array is in point `t`'s block iff each coordinate is in the block's range. -/
theorem mem_blk8 (t : Fin cfg0.N) (i : S8192x64.Idx) :
    i ∈ ((cfg0.win 8).blk t).view.set ↔ ∀ a : Fin 2, win0_8.index t a * S1024x64.size a ≤ (i a).val
      ∧ (i a).val < win0_8.index t a * S1024x64.size a + S1024x64.size a := by
  show i ∈ ((View.whole main_v2_1).slice (win0_8.rect t)).set ↔ _
  rw [View.set_slice_whole, Rect.mem_set_unit]
  exact Iff.rfl

/-- Row `p` of the key array is written back by point `p / 1024`. -/
theorem cover8 (i : S8192x64.Idx) :
    ∃ t : Fin cfg0.N, (cfg0.win 8).flush t = true ∧ i ∈ ((cfg0.win 8).blk t).view.set := by
  have hi0 : (i 0).val < 8192 := (i 0).isLt
  have hi1 : (i 1).val < 64 := (i 1).isLt
  obtain ⟨t, ht⟩ : ∃ t : Fin cfg0.N, t.val = (i 0).val / 1024 := ⟨⟨(i 0).val / 1024, by rw [N8]; omega⟩, rfl⟩
  obtain ⟨-, -, -, -, -, -, -, -, ⟨h0, h1⟩, -⟩ := idx_facts t
  refine ⟨t, flush0_8 t, (mem_blk8 t i).mpr fun a => ?_⟩
  match a with
  | ⟨0, _⟩ =>
    show win0_8.index t (0 : Fin 2) * 1024 ≤ (i 0).val ∧ (i 0).val < win0_8.index t (0 : Fin 2) * 1024 + 1024
    rw [h0, ht]; omega
  | ⟨1, _⟩ =>
    show win0_8.index t (1 : Fin 2) * 64 ≤ (i 1).val ∧ (i 1).val < win0_8.index t (1 : Fin 2) * 64 + 64
    rw [h1]; omega

/-- THE KEY ARRAY after the run. -/
theorem final8 : (dat0 V c).arrAt 8 cfg0.N = G8 V c :=
  (dat0 V c).arrAt_eq_of_cover 8 (G8 V c) (fun t _ => flushed8_eq V c t) cover8

/-- The value array as one function of the entry arrays. -/
def G9 : S8192x512.Idx → EReal := fun i =>
  Cert.Spec.vAt (fun s d => (V c main_arg1 : S8192x512.Idx → EReal) (ix2 s d))
    (fun d cc => (V c main_arg6 : S512x512.Idx → EReal) (ix2 d cc)) (i 0) (i 1)

/-- Point `t` writes back block `t` of the value array's function. -/
theorem flushed9_eq (t : Fin cfg0.N) :
    (dat0 V c).flushed 9 t = ((cfg0.win 9).blk t).view.read (Elt Ideal) (G9 V c) := by
  show (cfg0.win 9).cut (grid0.coords t) ((dat0 V c).after 9 t) = _
  rw [after0_9]
  funext (j : S1024x512.Idx)
  obtain ⟨r, cc, rfl⟩ : ∃ (r : Fin 1024) (cc : Fin 512), j = ix2 r cc := ⟨j 0, j 1, ValueIdx.eq_ix2 j⟩
  have ht : t.val < 8 := N8 ▸ t.isLt
  obtain ⟨-, -, -, -, -, -, -, -, -, ⟨h0, h1⟩⟩ := idx_facts t
  have hi : ((cfg0.win 9).blk t).view.emb (ix2 r cc) = ix2 (⟨1024 * t.val + r.val, by omega⟩ : Fin 8192) cc := by
    funext ax
    apply Fin.ext
    match ax with
    | ⟨0, _⟩ => show win0_9.index t (0 : Fin 2) * 1024 + 1 * r.val = 1024 * t.val + r.val; rw [h0]; omega
    | ⟨1, _⟩ => show win0_9.index t (1 : Fin 2) * 512 + 1 * cc.val = cc.val; rw [h1]; omega
  have hx : (cfg0.win 9).xinj (grid0.coords t) (ix2 r cc) = ix2 r cc := funext fun ax => Fin.ext rfl
  show out0_9 (iblk0 V c 1 t) (iblk0 V c 6 t) ((cfg0.win 9).xinj (grid0.coords t) (ix2 r cc)) = _
  rw [hx, out9_apply, View.read_apply, hi]
  show _ = G9 V c (ix2 (⟨1024 * t.val + r.val, by omega⟩ : Fin 8192) cc)
  unfold G9 Cert.Spec.vAt
  refine Finset.sum_congr rfl fun d _ => ?_
  rw [iblk_wv V c t d cc, iblk_e V c t r d (⟨1024 * t.val + r.val, by omega⟩ : Fin 8192) rfl]

/-- An index of the value array is in point `t`'s block iff each coordinate is in the block's range. -/
theorem mem_blk9 (t : Fin cfg0.N) (i : S8192x512.Idx) :
    i ∈ ((cfg0.win 9).blk t).view.set ↔ ∀ a : Fin 2, win0_9.index t a * S1024x512.size a ≤ (i a).val
      ∧ (i a).val < win0_9.index t a * S1024x512.size a + S1024x512.size a := by
  show i ∈ ((View.whole main_v2_2).slice (win0_9.rect t)).set ↔ _
  rw [View.set_slice_whole, Rect.mem_set_unit]
  exact Iff.rfl

/-- Row `p` of the value array is written back by point `p / 1024`. -/
theorem cover9 (i : S8192x512.Idx) :
    ∃ t : Fin cfg0.N, (cfg0.win 9).flush t = true ∧ i ∈ ((cfg0.win 9).blk t).view.set := by
  have hi0 : (i 0).val < 8192 := (i 0).isLt
  have hi1 : (i 1).val < 512 := (i 1).isLt
  obtain ⟨t, ht⟩ : ∃ t : Fin cfg0.N, t.val = (i 0).val / 1024 := ⟨⟨(i 0).val / 1024, by rw [N8]; omega⟩, rfl⟩
  obtain ⟨-, -, -, -, -, -, -, -, -, ⟨h0, h1⟩⟩ := idx_facts t
  refine ⟨t, flush0_9 t, (mem_blk9 t i).mpr fun a => ?_⟩
  match a with
  | ⟨0, _⟩ =>
    show win0_9.index t (0 : Fin 2) * 1024 ≤ (i 0).val ∧ (i 0).val < win0_9.index t (0 : Fin 2) * 1024 + 1024
    rw [h0, ht]; omega
  | ⟨1, _⟩ =>
    show win0_9.index t (1 : Fin 2) * 512 ≤ (i 1).val ∧ (i 1).val < win0_9.index t (1 : Fin 2) * 512 + 512
    rw [h1]; omega

/-- THE VALUE ARRAY after the run. -/
theorem final9 : (dat0 V c).arrAt 9 cfg0.N = G9 V c :=
  (dat0 V c).arrAt_eq_of_cover 9 (G9 V c) (fun t _ => flushed9_eq V c t) cover9

theorem q_arr (t : Fin 8192) (a : Fin 64) :
    ((dat0 (F := Ideal) V c).arrAt 7 cfg0.N : (⟨2, ![8192, 64]⟩ : Shape).Idx → EReal) (ix2 t a)
      = Cert.Spec.projAt (fun t d => (V c main_arg0 : (⟨2, ![8192, 512]⟩ : Shape).Idx → EReal) (ix2 t d))
          (fun d => (V c main_v0 : (⟨2, ![1, 512]⟩ : Shape).Idx → EReal) (ix2 0 d))
          (fun d => (V c main_v1 : (⟨2, ![1, 512]⟩ : Shape).Idx → EReal) (ix2 0 d))
          (fun d a => (V c main_arg4 : (⟨2, ![512, 64]⟩ : Shape).Idx → EReal) (ix2 d a)) t a := by
  exact congrFun (final7 V c) (ix2 t a)

theorem k_arr (t : Fin 8192) (a : Fin 64) :
    ((dat0 (F := Ideal) V c).arrAt 8 cfg0.N : (⟨2, ![8192, 64]⟩ : Shape).Idx → EReal) (ix2 t a)
      = Cert.Spec.projAt (fun t d => (V c main_arg0 : (⟨2, ![8192, 512]⟩ : Shape).Idx → EReal) (ix2 t d))
          (fun d => (V c main_v0 : (⟨2, ![1, 512]⟩ : Shape).Idx → EReal) (ix2 0 d))
          (fun d => (V c main_v1 : (⟨2, ![1, 512]⟩ : Shape).Idx → EReal) (ix2 0 d))
          (fun d a => (V c main_arg5 : (⟨2, ![512, 64]⟩ : Shape).Idx → EReal) (ix2 d a)) t a := by
  exact congrFun (final8 V c) (ix2 t a)

theorem v_arr (s : Fin 8192) (cc : Fin 512) :
    ((dat0 (F := Ideal) V c).arrAt 9 cfg0.N : (⟨2, ![8192, 512]⟩ : Shape).Idx → EReal) (ix2 s cc)
      = Cert.Spec.vAt (fun s d => (V c main_arg1 : (⟨2, ![8192, 512]⟩ : Shape).Idx → EReal) (ix2 s d))
          (fun d cc => (V c main_arg6 : (⟨2, ![512, 512]⟩ : Shape).Idx → EReal) (ix2 d cc)) s cc := by
  exact congrFun (final9 V c) (ix2 s cc)

end Cert.KernelIdeal.Val0

end
-- ==== Proof.Value.Causal.lean ====
/- The causal sum, block by block. The 8192 rows are 16 blocks of 512: row 512·j + s. For the row 512·i + r, the sum over all
   8192 columns of the causal coefficient times the value row splits into the 16 column blocks; the blocks above the diagonal
   (j > i) contribute nothing, every coefficient there being zero and 0 · x = 0 in the extended reals; so the sum is what one
   gets by starting from 0 and adding the blocks j = 0, …, i one after the other. -/
import proofs.«180881_j62843961475101_1_alg».proof.Proof.Value.Spec
import Mathlib.Algebra.BigOperators.Group.Finset.Basic
import Mathlib.Data.Fintype.BigOperators

noncomputable section

namespace Cert.Spec

/-- Row (or column) s of block j. -/
def blk (j : Fin 16) (s : Fin 512) : Fin 8192 := ⟨512 * j.val + s.val, by omega⟩

theorem blk_val (j : Fin 16) (s : Fin 512) : (blk j s).val = 512 * j.val + s.val := rfl

/-- Every n below 8192 is 512·(n / 512) + n % 512 in exactly one way: the pairs (block, offset) are the 8192 numbers. -/
def blkEquiv : Fin 16 × Fin 512 ≃ Fin 8192 where
  toFun p := blk p.1 p.2
  invFun n := (⟨n.val / 512, by omega⟩, ⟨n.val % 512, by omega⟩)
  left_inv p := by
    refine Prod.ext (Fin.ext ?_) (Fin.ext ?_)
    · show (512 * p.1.val + p.2.val) / 512 = p.1.val
      omega
    · show (512 * p.1.val + p.2.val) % 512 = p.2.val
      omega
  right_inv n := by
    refine Fin.ext ?_
    show 512 * (n.val / 512) + n.val % 512 = n.val
    omega

/-- A sum over the 8192 is the double sum over the 16 blocks of 512. -/
theorem sum_blocks {M : Type*} [AddCommMonoid M] (g : Fin 8192 → M) :
    ∑ s : Fin 8192, g s = ∑ j : Fin 16, ∑ s' : Fin 512, g (blk j s') := by
  exact (Fintype.sum_equiv blkEquiv (fun p => g (blk p.1 p.2)) g (fun _ => rfl)).symm.trans
    (Fintype.sum_prod_type' (fun j s' => g (blk j s')))

/-- What column block j adds to the entry (512·i + r, c). -/
def blockTerm (q k : Fin 8192 → Fin 64 → EReal) (v : Fin 8192 → Fin 512 → EReal) (i : Fin 16) (r c : Fin 512) (j : Fin 16) : EReal :=
  ∑ s' : Fin 512, cAt q k (blk i r) (blk j s') * v (blk j s') c

/-- A block above the diagonal adds nothing. -/
theorem blockTerm_above (q k : Fin 8192 → Fin 64 → EReal) (v : Fin 8192 → Fin 512 → EReal) (i : Fin 16) (r c : Fin 512) (j : Fin 16)
    (h : i.val < j.val) : blockTerm q k v i r c j = 0 := by
  unfold blockTerm
  refine Finset.sum_eq_zero fun s' _ => ?_
  have hgt : ¬(blk j s').val ≤ (blk i r).val := by
    rw [blk_val, blk_val]
    have := r.isLt
    omega
  unfold cAt
  rw [if_neg hgt, zero_mul]

/-- The entry after the column blocks 0, …, n − 1 have been added to 0, one after the other. -/
def accUpTo (q k : Fin 8192 → Fin 64 → EReal) (v : Fin 8192 → Fin 512 → EReal) (i : Fin 16) (r c : Fin 512) : ℕ → EReal
  | 0 => 0
  | n + 1 => accUpTo q k v i r c n + (if h : n < 16 then blockTerm q k v i r c ⟨n, h⟩ else 0)

theorem accUpTo_zero (q k : Fin 8192 → Fin 64 → EReal) (v : Fin 8192 → Fin 512 → EReal) (i : Fin 16) (r c : Fin 512) :
    accUpTo q k v i r c 0 = 0 := rfl
theorem accUpTo_succ (q k : Fin 8192 → Fin 64 → EReal) (v : Fin 8192 → Fin 512 → EReal) (i : Fin 16) (r c : Fin 512) (n : ℕ) (h : n < 16) :
    accUpTo q k v i r c (n + 1) = accUpTo q k v i r c n + blockTerm q k v i r c ⟨n, h⟩ := by
  simp only [accUpTo, dif_pos h]

/-- Block n's contribution as a function of the natural number n (nothing from n = 16 on). -/
def blockTermNat (q k : Fin 8192 → Fin 64 → EReal) (v : Fin 8192 → Fin 512 → EReal) (i : Fin 16) (r c : Fin 512) (n : ℕ) : EReal :=
  if h : n < 16 then blockTerm q k v i r c ⟨n, h⟩ else 0

/-- The accumulation after n steps is the sum of the first n contributions. -/
theorem accUpTo_eq_sum_range (q k : Fin 8192 → Fin 64 → EReal) (v : Fin 8192 → Fin 512 → EReal) (i : Fin 16) (r c : Fin 512) (n : ℕ) :
    accUpTo q k v i r c n = ∑ m ∈ Finset.range n, blockTermNat q k v i r c m := by
  induction n with
  | zero => rw [Finset.range_zero, Finset.sum_empty]; rfl
  | succ n ih => rw [Finset.sum_range_succ, ← ih]; rfl

/-- The whole causal sum of the row 512·i + r is the accumulation of its blocks 0, …, i. -/
theorem causal_total (q k : Fin 8192 → Fin 64 → EReal) (v : Fin 8192 → Fin 512 → EReal) (i : Fin 16) (r c : Fin 512) :
    ∑ s : Fin 8192, cAt q k (blk i r) s * v s c = accUpTo q k v i r c (i.val + 1) := by
  rw [sum_blocks, accUpTo_eq_sum_range]
  have hfin : ∑ j : Fin 16, ∑ s' : Fin 512, cAt q k (blk i r) (blk j s') * v (blk j s') c
      = ∑ j : Fin 16, blockTermNat q k v i r c j.val :=
    Finset.sum_congr rfl fun j _ => by
      unfold blockTermNat
      rw [dif_pos j.isLt]
      rfl
  rw [hfin, Fin.sum_univ_eq_sum_range (fun n => blockTermNat q k v i r c n) 16]
  refine (Finset.sum_subset (Finset.range_subset_range.mpr (by have := i.isLt; omega)) fun n hn hn' => ?_).symm
  have h16 : n < 16 := Finset.mem_range.mp hn
  have hin : i.val < n := by
    have hge : ¬n < i.val + 1 := fun h => hn' (Finset.mem_range.mpr h)
    omega
  unfold blockTermNat
  rw [dif_pos h16]
  exact blockTerm_above q k v i r c ⟨n, h16⟩ hin

/-- The result entry from the accumulation. -/
theorem outAt_blk (x : Fin 8192 → Fin 512 → EReal) (q k : Fin 8192 → Fin 64 → EReal) (v : Fin 8192 → Fin 512 → EReal) (i : Fin 16) (r c : Fin 512) :
    outAt x q k v (blk i r) c = x (blk i r) c + accUpTo q k v i r c (i.val + 1) := by
  unfold outAt; rw [causal_total]

end Cert.Spec

end
-- ==== Proof.Value.Blocks1.lean ====
/- The geometry of the causal kernel's result window, at the ideal instance. A grid point t is the pair (i, j) = (t / 16, t % 16).
   The kernel writes back rows 512·i … of the result, and only at j = 15. The result array after the run from what the
   sixteen finishing points leave: the blocks written back tile the array. -/
import proofs.«180881_j62843961475101_1_alg».proof.Proof.HandKernelIdeal.Defs1
import proofs.«180881_j62843961475101_1_alg».proof.Proof.Value.Causal
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2)
open Cert.Spec (blk)

variable (V : (c : Dev nD) → (b : Ref sig .tc) → Buf (Elt Ideal) ((c : Thread nD τ).loc b)) (c : Dev nD)

/-- The point that finishes row block i. -/
def lastPt (i : Fin 16) : Fin cfg1.N := ⟨16 * i.val + 15, by have e : cfg1.N = 256 := N_1; omega⟩

/-! ## The result window's blocks -/

/-- The result window's block index, decided over the grid: row block t / 16, column block 0. -/
theorem index_out : ∀ t : Fin cfg1.N, win1_4.index t (0 : Fin 2) = t.val / 16 ∧ win1_4.index t (1 : Fin 2) = 0 :=
  (by decide +kernel : ∀ t : Fin grid1.N, win1_4.index t (0 : Fin 2) = t.val / 16 ∧ win1_4.index t (1 : Fin 2) = 0)

/-- At the finishing point of row block i the block index is (i, 0). -/
theorem index_lastPt (i : Fin 16) :
    win1_4.index (lastPt i) (0 : Fin 2) = i.val ∧ win1_4.index (lastPt i) (1 : Fin 2) = 0 := by
  obtain ⟨e0, e1⟩ := index_out (lastPt i)
  refine ⟨e0.trans ?_, e1⟩
  show (16 * i.val + 15) / 16 = i.val
  omega

/-- The finishing points write back; -/
theorem flush_lastPt (i : Fin 16) : (cfg1.win 4).flush (lastPt i) = true :=
  (flush1_4 (lastPt i)).mpr (by show (16 * i.val + 15) % 16 = 15; omega)

/-- and no other point does. -/
theorem eq_lastPt_of_flush (t : Fin cfg1.N) (hf : (cfg1.win 4).flush t = true) : ∃ i : Fin 16, t = lastPt i := by
  have ht : t.val % 16 = 15 := (flush1_4 t).mp hf
  have hN : cfg1.N = 256 := N_1
  have hlt : t.val < cfg1.N := t.isLt
  exact ⟨⟨t.val / 16, by omega⟩, Fin.ext (by show t.val = 16 * (t.val / 16) + 15; omega)⟩

/-- An index of the result array is in point t's block iff each coordinate is in the block's range on its axis. -/
theorem mem_blk_out (t : Fin cfg1.N) (n : (⟨2, ![8192, 512]⟩ : Shape).Idx) :
    n ∈ ((cfg1.win 4).blk t).view.set
      ↔ ∀ a : Fin 2, win1_4.index t a * S512x512.size a ≤ (n a).val ∧ (n a).val < win1_4.index t a * S512x512.size a + S512x512.size a := by
  show n ∈ ((View.whole main_v3).slice (win1_4.rect t)).set ↔ _
  rw [View.set_slice_whole, Rect.mem_set_unit]
  exact Iff.rfl

/-- The block of a whole-array function G at the finishing point of row block i, read at (r, cc), is G at row 512·i + r:
    an element of a block sits in the array at the block index times the block's size plus its own coordinate. -/
theorem read_blk_lastPt (G : (⟨2, ![8192, 512]⟩ : Shape).Idx → EReal) (i : Fin 16) (r cc : Fin 512) :
    (((cfg1.win 4).blk (lastPt i)).view.read (Elt Ideal) G : (⟨2, ![512, 512]⟩ : Shape).Idx → EReal) (ix2 r cc)
      = G (ix2 (blk i r) cc) := by
  obtain ⟨e0, e1⟩ := index_lastPt i
  show G (((cfg1.win 4).blk (lastPt i)).view.emb (ix2 r cc)) = G (ix2 (blk i r) cc)
  refine congrArg G ?_
  funext a
  match a with
  | ⟨0, _⟩ => exact Fin.ext (by show win1_4.index (lastPt i) (0 : Fin 2) * 512 + 1 * r.val = 512 * i.val + r.val; omega)
  | ⟨1, _⟩ => exact Fin.ext (by show win1_4.index (lastPt i) (1 : Fin 2) * 512 + 1 * cc.val = cc.val; omega)

/-- Blocks to the array: if what the finishing point of every row block leaves in the output buffer is rows 512·i … of ONE
    whole-array function G, the result array after the run is G. -/
theorem o_of_blocks (G : (⟨2, ![8192, 512]⟩ : Shape).Idx → EReal)
    (h : ∀ (i : Fin 16) (r cc : Fin 512),
      ((dat1 (F := Ideal) V c).after 4 (lastPt i) : (⟨2, ![512, 512]⟩ : Shape).Idx → EReal) (ix2 r cc) = G (ix2 (blk i r) cc)) :
    ((dat1 (F := Ideal) V c).arrAt 4 cfg1.N : (⟨2, ![8192, 512]⟩ : Shape).Idx → EReal) = G := by
  refine (dat1 (F := Ideal) V c).arrAt_eq_of_cover 4 G (fun t hf => ?_) (fun (n : (⟨2, ![8192, 512]⟩ : Shape).Idx) => ?_)
  · -- a point that writes back finishes a row block; the window is uncut, so what it writes back is what the body left
    obtain ⟨i, rfl⟩ := eq_lastPt_of_flush t hf
    show ((cfg1.win 4).cut (grid1.coords (lastPt i)) ((dat1 (F := Ideal) V c).after 4 (lastPt i))
      : (⟨2, ![512, 512]⟩ : Shape).Idx → EReal) = _
    funext y
    rw [ValueIdx.eq_ix2 y]
    exact (h i (y 0) (y 1)).trans (read_blk_lastPt G i (y 0) (y 1)).symm
  · -- row n of the array lies in the block of the finishing point of row block n / 512
    have h0 : (n 0).val < 8192 := (n 0).isLt
    have h1 : (n 1).val < 512 := (n 1).isLt
    refine ⟨lastPt ⟨(n 0).val / 512, by omega⟩, flush_lastPt _, ?_⟩
    obtain ⟨e0, e1⟩ := index_lastPt ⟨(n 0).val / 512, by omega⟩
    rw [mem_blk_out]
    intro a
    match a with
    | ⟨0, _⟩ =>
      show win1_4.index (lastPt ⟨(n 0).val / 512, _⟩) (0 : Fin 2) * 512 ≤ (n 0).val
        ∧ (n 0).val < win1_4.index (lastPt ⟨(n 0).val / 512, _⟩) (0 : Fin 2) * 512 + 512
      rw [e0]
      show (n 0).val / 512 * 512 ≤ (n 0).val ∧ (n 0).val < (n 0).val / 512 * 512 + 512
      omega
    | ⟨1, _⟩ =>
      show win1_4.index (lastPt ⟨(n 0).val / 512, _⟩) (1 : Fin 2) * 512 ≤ (n 1).val
        ∧ (n 1).val < win1_4.index (lastPt ⟨(n 0).val / 512, _⟩) (1 : Fin 2) * 512 + 512
      rw [e1]
      omega

end Cert.KernelIdeal.Val1

end
-- ==== Proof.Value.Kernel1.lean ====
/- What the array the causal kernel writes holds after its run, at the ideal instance, index by index: the residual row
   plus the causal combination of the value rows, whatever the region finds in the arrays it reads.

   The kernel's grid is 16 × 16; the point (i, j) works on the row block i (rows 512·i …) against the column block j. Its scratch
   is reset at j = 0 and, for j ≤ i, receives the masked, scaled products of the query rows of block i with the key rows of
   block j, times the value rows of block j; at j = 15 the residual rows are added and the block is written. Read at one entry
   (r, c): each accumulating point adds exactly the column block's term of the causal sum of the row 512·i + r (inside the
   diagonal block the mask row ≥ column is the causal condition; below it both hold everywhere), the points above the diagonal
   add nothing, and so after the point (i, j) the scratch holds the blocks 0, …, min(j, i) of that sum; after j = 15 all of it. -/
import proofs.«180881_j62843961475101_1_alg».proof.Proof.HandKernelIdeal.Defs1
import proofs.«180881_j62843961475101_1_alg».proof.Proof.Value.Spec
import proofs.«180881_j62843961475101_1_alg».proof.Proof.Value.Causal
import proofs.«180881_j62843961475101_1_alg».proof.Proof.Value.Blocks1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2)

/-! ## The two products at an index -/

private abbrev dQK := dot_S512x64_S512x64_S512x512_1_1_0_0_n_n
private abbrev dPV := dot_S512x512_S512x512_S512x512_1_0_0_1_n_n

private theorem dQK_rank : dQK.contr.rank = 1 := rfl
private theorem dQK_size : dQK.contr.size ⟨0, by rw [dQK_rank]; exact Nat.one_pos⟩ = 64 := rfl
private theorem dPV_rank : dPV.contr.rank = 1 := rfl
private theorem dPV_size : dPV.contr.size ⟨0, by rw [dPV_rank]; exact Nat.one_pos⟩ = 512 := rfl

/-- The first product, into the zero accumulator, at (r, s): the row r of the left operand against the row s of the right one. -/
theorem qk_apply (q k : FVec Ideal S512x64 .bf16) (r s : Fin 512) :
    matmul dQK none q k (constant (F := Ideal) S512x512 .f32 0x00000000#32) (ix2 r s)
      = ∑ a : Fin 64, q (ix2 r a) * k (ix2 s a) := by
  refine (Ideal.matmul_constant_zero_apply dQK none q k (ix2 r s)).trans ?_
  refine ((Equiv.sum_comp (ValueIdx.contrEquiv1 dQK 64 dQK_rank dQK_size).symm _).symm).trans ?_
  refine Finset.sum_congr rfl fun a _ => ?_
  have ha := ValueIdx.contrEquiv1_symm_val dQK 64 dQK_rank dQK_size a
  congr 2
  · exact Shape.idx_ext₂ rfl ha
  · exact Shape.idx_ext₂ rfl ha

/-- The second product, into the zero accumulator, at (r, c): the row r of the left operand against the column c of the right one. -/
theorem pv_apply (p v : FVec Ideal S512x512 .bf16) (r c : Fin 512) :
    matmul dPV none p v (constant (F := Ideal) S512x512 .f32 0x00000000#32) (ix2 r c)
      = ∑ s : Fin 512, p (ix2 r s) * v (ix2 s c) := by
  refine (Ideal.matmul_constant_zero_apply dPV none p v (ix2 r c)).trans ?_
  refine ((Equiv.sum_comp (ValueIdx.contrEquiv1 dPV 512 dPV_rank dPV_size).symm _).symm).trans ?_
  refine Finset.sum_congr rfl fun a _ => ?_
  have ha := ValueIdx.contrEquiv1_symm_val dPV 512 dPV_rank dPV_size a
  congr 2
  · exact Shape.idx_ext₂ rfl ha
  · exact Shape.idx_ext₂ ha rfl

/-! ## The causal mask at an index -/

/-- A natural number below 2³¹, as a 32-bit word, reads back signed as itself. -/
private theorem toInt_ofNat_small (a : ℕ) (ha : a < 2 ^ 31) : (BitVec.ofNat 32 a).toInt = (a : Int) := by
  rw [BitVec.toInt_eq_toNat_cond, BitVec.toNat_ofNat]
  split <;> omega

/-- An offset plus a block number times 512, in 32-bit words, is the word of that number. -/
private theorem word_affine (a b : ℕ) : BitVec.ofNat 32 a + BitVec.ofNat 32 b * 512#32 = BitVec.ofNat 32 (a + b * 512) := by
  rw [BitVec.ofNat_add, BitVec.ofNat_mul]

/-- The signed comparison of two such words is the comparison of the numbers. -/
private theorem sle_ofNat_small (a b : ℕ) (ha : a < 2 ^ 31) (hb : b < 2 ^ 31) :
    (BitVec.ofNat 32 a).sle (BitVec.ofNat 32 b) = decide (a ≤ b) := by
  unfold BitVec.sle
  rw [toInt_ofNat_small a ha, toInt_ofNat_small b hb]
  simp

/-- The mask bit at (r, s) of the point (i, j): the global column 512·j + s is at most the global row 512·i + r. -/
theorem mask_apply (i : grid1.Coords) (r s : Fin 512) :
    cmpi .sge (addi (iota .tc S512x512 32 [0] iota_S512x512_d0_w32) (broadcast S512x512 (Scalar.muli (BitVec.ofNat 32 (i 0).val) 512#32)))
        (addi (iota .tc S512x512 32 [1] iota_S512x512_d1_w32) (broadcast S512x512 (Scalar.muli (BitVec.ofNat 32 (i 1).val) 512#32))) (ix2 r s)
      = if 512 * (i 1).val + s.val ≤ 512 * (i 0).val + r.val then 1#1 else 0#1 := by
  have hi0 : (i 0).val < 16 := (i 0).isLt
  have hi1 : (i 1).val < 16 := (i 1).isLt
  have hr : r.val < 512 := r.isLt
  have hs : s.val < 512 := s.isLt
  show IntOp.cmpi .sge (IntOp.addi (iota .tc S512x512 32 [0] iota_S512x512_d0_w32 (ix2 r s)) (IntOp.muli (BitVec.ofNat 32 (i 0).val) 512#32))
      (IntOp.addi (iota .tc S512x512 32 [1] iota_S512x512_d1_w32 (ix2 r s)) (IntOp.muli (BitVec.ofNat 32 (i 1).val) 512#32)) = _
  rw [iota_single_apply, iota_single_apply]
  show BitVec.ofBool ((BitVec.ofNat 32 s.val + BitVec.ofNat 32 (i 1).val * 512#32).sle (BitVec.ofNat 32 r.val + BitVec.ofNat 32 (i 0).val * 512#32)) = _
  rw [word_affine, word_affine, sle_ofNat_small _ _ (by omega) (by omega)]
  by_cases h : 512 * (i 1).val + s.val ≤ 512 * (i 0).val + r.val
  · rw [if_pos h, decide_eq_true (by omega)]; rfl
  · rw [if_neg h, decide_eq_false (by omega)]; rfl

/-! ## The accumulating step at an index -/

/-- The zero block the scratch is reset to. -/
theorem pay1_apply (j : S512x512.Idx) : (k1_pay1 (F := Ideal)) j = 0 := by
  unfold k1_pay1
  rw [shapeCast_self]
  exact Ideal.ofBits_zero_f32

/-- The masked, scaled product of a query row and a key row, as the kernel forms it at (r, s) of the point (i, j). -/
def coef (i : grid1.Coords) (q k : Vec Ideal S512x64 .bf16) (r s : Fin 512) : EReal :=
  if 512 * (i 1).val + s.val ≤ 512 * (i 0).val + r.val then (∑ a : Fin 64, q (ix2 r a) * k (ix2 s a)) * Cert.Spec.wEighth else 0

/-- The accumulating step at (r, c): the scratch there plus the masked coefficients of row r against column c of the value block. -/
theorem pay2_apply (i : grid1.Coords) (q k : Vec Ideal S512x64 .bf16) (s : Vec Ideal S512x512 .f32) (v : Vec Ideal S512x512 .bf16)
    (r c : Fin 512) :
    k1_pay2 i q k s v (ix2 r c) = s (ix2 r c) + ∑ s' : Fin 512, coef i q k r s' * v (ix2 s' c) := by
  unfold k1_pay2
  dsimp only
  simp only [shapeCast_self]
  refine (ValueIdx.addf_apply _ _ _).trans ?_
  refine congrArg (s (ix2 r c) + ·) ?_
  refine (pv_apply _ _ r c).trans ?_
  refine Finset.sum_congr rfl fun s' _ => ?_
  refine congrArg (· * v (ix2 s' c)) ?_
  rw [ValueIdx.truncf_apply, ValueIdx.select_apply, mask_apply]
  unfold coef
  by_cases h : 512 * (i 1).val + s'.val ≤ 512 * (i 0).val + r.val
  · rw [if_pos h, if_pos h, ValueIdx.select_one]
    refine (ValueIdx.mulf_apply _ _ _).trans ?_
    rw [qk_apply]
    rfl
  · rw [if_neg h, if_neg h, ValueIdx.select_zero]
    exact Ideal.ofBits_zero_f32

/-! ## One point's step of the scratch at an index -/

/-- One point's step at (r, c): the scratch there, or zero where the point resets it, plus the point's addend where it accumulates. -/
theorem scNext_apply (i : grid1.Coords) (q k : Vec Ideal S512x64 .bf16) (v : Vec Ideal S512x512 .bf16) (s : Vec Ideal S512x512 .f32)
    (r c : Fin 512) :
    scNext i q k v s (ix2 r c)
      = (if cond1_0 i then 0 else s (ix2 r c)) + (if cond1_1 i then ∑ s' : Fin 512, coef i q k r s' * v (ix2 s' c) else 0) := by
  unfold scNext
  by_cases h1 : cond1_1 i
  · rw [if_pos h1, if_pos h1, pay2_apply]
    by_cases h0 : cond1_0 i
    · rw [if_pos h0, if_pos h0, pay1_apply]
    · rw [if_neg h0, if_neg h0]
  · rw [if_neg h1, if_neg h1, add_zero]
    by_cases h0 : cond1_0 i
    · rw [if_pos h0, if_pos h0, pay1_apply]
    · rw [if_neg h0, if_neg h0]

/-! ## The grid's coordinates and the windows' block indices, decided over the 256 points -/

private theorem N1 : cfg1.N = 256 := by decide

private theorem coords1 : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)

private theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
private theorem idx1_1 : ∀ t : Fin cfg1.N, win1_1.index t 0 = t.val / 16 ∧ win1_1.index t 1 = 0 :=
  (by decide +kernel : ∀ t : Fin grid1.N, win1_1.index t 0 = t.val / 16 ∧ win1_1.index t 1 = 0)
private theorem idx1_2 : ∀ t : Fin cfg1.N, win1_2.index t 0 = min (t.val / 16) (t.val % 16) ∧ win1_2.index t 1 = 0 :=
  (by decide +kernel : ∀ t : Fin grid1.N, win1_2.index t 0 = min (t.val / 16) (t.val % 16) ∧ win1_2.index t 1 = 0)
private theorem idx1_3 : ∀ t : Fin cfg1.N, win1_3.index t 0 = min (t.val / 16) (t.val % 16) ∧ win1_3.index t 1 = 0 :=
  (by decide +kernel : ∀ t : Fin grid1.N, win1_3.index t 0 = min (t.val / 16) (t.val % 16) ∧ win1_3.index t 1 = 0)

variable (V : (c : Dev nD) → (b : Ref sig .tc) → Buf (Elt Ideal) ((c : Thread nD τ).loc b)) (c : Dev nD)

/-- The region-entry arrays read as plain functions of their coordinates. -/
abbrev rd2 {n0 n1 : Nat} {e : EltTy} (f : (⟨2, ![n0, n1]⟩ : Shape).Idx → Elt Ideal e) (a : Fin n0) (b : Fin n1) : Elt Ideal e := f (ix2 a b)

/-! ## The entry arrays as plain functions, and the staged blocks read through them -/

/-- The residual rows. -/
abbrev aX : Fin 8192 → Fin 512 → EReal := fun t d => (V c main_arg0 : (⟨2, ![8192, 512]⟩ : Shape).Idx → EReal) (ix2 t d)
/-- The query rows. -/
abbrev aQ : Fin 8192 → Fin 64 → EReal := fun t a => (V c main_v2_0 : (⟨2, ![8192, 64]⟩ : Shape).Idx → EReal) (ix2 t a)
/-- The key rows. -/
abbrev aK : Fin 8192 → Fin 64 → EReal := fun s a => (V c main_v2_1 : (⟨2, ![8192, 64]⟩ : Shape).Idx → EReal) (ix2 s a)
/-- The value rows. -/
abbrev aV : Fin 8192 → Fin 512 → EReal := fun s cc => (V c main_v2_2 : (⟨2, ![8192, 512]⟩ : Shape).Idx → EReal) (ix2 s cc)

/-- The residual block of the point t is the row block t / 16 of the residual rows. -/
theorem iblk_x (t : Fin cfg1.N) (i : Fin 16) (hi : i.val = t.val / 16) (r cc : Fin 512) :
    (iblk1 V c 0 t : S512x512.Idx → EReal) (ix2 r cc) = aX V c (Cert.Spec.blk i r) cc := by
  unfold iblk1
  rw [View.read_apply]
  show (V c main_arg0 : (⟨2, ![8192, 512]⟩ : Shape).Idx → EReal) _ = _
  refine congrArg _ (Shape.idx_ext₂ ?_ ?_)
  · show win1_0.index t 0 * 512 + 1 * r.val = 512 * i.val + r.val
    rw [(idx1_0 t).1]; omega
  · show win1_0.index t 1 * 512 + 1 * cc.val = cc.val
    rw [(idx1_0 t).2]; omega

/-- The query block of the point t is the row block t / 16 of the query rows. -/
theorem iblk_q (t : Fin cfg1.N) (i : Fin 16) (hi : i.val = t.val / 16) (r : Fin 512) (a : Fin 64) :
    (iblk1 V c 1 t : S512x64.Idx → EReal) (ix2 r a) = aQ V c (Cert.Spec.blk i r) a := by
  unfold iblk1
  rw [View.read_apply]
  show (V c main_v2_0 : (⟨2, ![8192, 64]⟩ : Shape).Idx → EReal) _ = _
  refine congrArg _ (Shape.idx_ext₂ ?_ ?_)
  · show win1_1.index t 0 * 512 + 1 * r.val = 512 * i.val + r.val
    rw [(idx1_1 t).1]; omega
  · show win1_1.index t 1 * 64 + 1 * a.val = a.val
    rw [(idx1_1 t).2]; omega

/-- On or below the diagonal, the key block of the point t is the row block t % 16 of the key rows. -/
theorem iblk_k (t : Fin cfg1.N) (j : Fin 16) (hj : j.val = t.val % 16) (hji : t.val % 16 ≤ t.val / 16) (s : Fin 512) (a : Fin 64) :
    (iblk1 V c 2 t : S512x64.Idx → EReal) (ix2 s a) = aK V c (Cert.Spec.blk j s) a := by
  unfold iblk1
  rw [View.read_apply]
  show (V c main_v2_1 : (⟨2, ![8192, 64]⟩ : Shape).Idx → EReal) _ = _
  refine congrArg _ (Shape.idx_ext₂ ?_ ?_)
  · show win1_2.index t 0 * 512 + 1 * s.val = 512 * j.val + s.val
    rw [(idx1_2 t).1, Nat.min_eq_right hji]; omega
  · show win1_2.index t 1 * 64 + 1 * a.val = a.val
    rw [(idx1_2 t).2]; omega

/-- On or below the diagonal, the value block of the point t is the row block t % 16 of the value rows. -/
theorem iblk_v (t : Fin cfg1.N) (j : Fin 16) (hj : j.val = t.val % 16) (hji : t.val % 16 ≤ t.val / 16) (s cc : Fin 512) :
    (iblk1 V c 3 t : S512x512.Idx → EReal) (ix2 s cc) = aV V c (Cert.Spec.blk j s) cc := by
  unfold iblk1
  rw [View.read_apply]
  show (V c main_v2_2 : (⟨2, ![8192, 512]⟩ : Shape).Idx → EReal) _ = _
  refine congrArg _ (Shape.idx_ext₂ ?_ ?_)
  · show win1_3.index t 0 * 512 + 1 * s.val = 512 * j.val + s.val
    rw [(idx1_3 t).1, Nat.min_eq_right hji]; omega
  · show win1_3.index t 1 * 512 + 1 * cc.val = cc.val
    rw [(idx1_3 t).2]; omega

/-! ## The scratch along a row of the grid -/

/-- On or below the diagonal, a point's addend at (r, c) is its column block's term of the causal sum. -/
theorem addend_eq (t : Fin cfg1.N) (i j : Fin 16) (hi : i.val = t.val / 16) (hj : j.val = t.val % 16)
    (hji : t.val % 16 ≤ t.val / 16) (r cc : Fin 512) :
    ∑ s' : Fin 512, coef (grid1.coords t) (iblk1 V c 1 t) (iblk1 V c 2 t) r s' * (iblk1 V c 3 t : S512x512.Idx → EReal) (ix2 s' cc)
      = Cert.Spec.blockTerm (aQ V c) (aK V c) (aV V c) i r cc j := by
  unfold Cert.Spec.blockTerm
  refine Finset.sum_congr rfl fun s' _ => ?_
  rw [iblk_v V c t j hj hji]
  refine congrArg (· * _) ?_
  unfold coef Cert.Spec.cAt
  rw [(coords1 t).1, (coords1 t).2, Cert.Spec.blk_val, Cert.Spec.blk_val, ← hi, ← hj]
  by_cases h : 512 * j.val + s'.val ≤ 512 * i.val + r.val
  · rw [if_pos h, if_pos h]
    refine congrArg (· * _) (Finset.sum_congr rfl fun a _ => ?_)
    rw [iblk_q V c t i hi, iblk_k V c t j hj hji]
  · rw [if_neg h, if_neg h]

/-- One point's step of the scratch at (r, c), in the grid's own terms: reset at the first column block, the column block's
    term added on or below the diagonal. -/
theorem point_apply (t : Fin cfg1.N) (i j : Fin 16) (hi : i.val = t.val / 16) (hj : j.val = t.val % 16)
    (s : Vec Ideal S512x512 .f32) (r cc : Fin 512) :
    scNext (grid1.coords t) (iblk1 V c 1 t) (iblk1 V c 2 t) (iblk1 V c 3 t) s (ix2 r cc)
      = (if j.val = 0 then 0 else s (ix2 r cc))
        + (if j.val ≤ i.val then Cert.Spec.blockTerm (aQ V c) (aK V c) (aV V c) i r cc j else 0) := by
  rw [scNext_apply]
  congr 1
  · by_cases h : j.val = 0
    · rw [if_pos h, if_pos ((hcond1_0 t).mpr (by omega))]
    · rw [if_neg h, if_neg (fun h' => h (by have := (hcond1_0 t).mp h'; omega))]
  · by_cases h : j.val ≤ i.val
    · rw [if_pos h, if_pos ((hcond1_1 t).mpr (by omega))]
      exact addend_eq V c t i j hi hj (by omega) r cc
    · rw [if_neg h, if_neg (fun h' => h (by have := (hcond1_1 t).mp h'; omega))]

/-- Adding the column block j ≤ i to what the blocks before it gave. -/
theorem acc_step (i j : Fin 16) (hji : j.val ≤ i.val) (r cc : Fin 512) :
    Cert.Spec.accUpTo (aQ V c) (aK V c) (aV V c) i r cc j.val + Cert.Spec.blockTerm (aQ V c) (aK V c) (aV V c) i r cc j
      = Cert.Spec.accUpTo (aQ V c) (aK V c) (aV V c) i r cc (min j.val i.val + 1) := by
  rw [Nat.min_eq_left hji, Cert.Spec.accUpTo_succ _ _ _ _ _ _ j.val j.isLt]

/-- After the point (i, j) the scratch at (r, c) holds the column blocks 0, …, min j i of the causal sum of the row 512·i + r. -/
theorem scAt1_inv : ∀ (n : ℕ) (hn : n < cfg1.N) (i j : Fin 16) (hi : i.val = n / 16) (hj : j.val = n % 16) (r cc : Fin 512),
    scAt1 V c n hn (ix2 r cc) = Cert.Spec.accUpTo (aQ V c) (aK V c) (aV V c) i r cc (min j.val i.val + 1)
  | 0, hn, i, j, hi, hj, r, cc => by
    have j0 : j.val = 0 := by omega
    rw [scAt1_zero, point_apply V c ⟨0, hn⟩ i j hi hj, if_pos j0, if_pos (by omega), ← acc_step V c i j (by omega), j0,
      Cert.Spec.accUpTo_zero]
  | n + 1, hn, i, j, hi, hj, r, cc => by
    rw [scAt1_succ, point_apply V c ⟨n + 1, hn⟩ i j hi hj]
    by_cases j0 : j.val = 0
    · rw [if_pos j0, if_pos (by omega), ← acc_step V c i j (by omega), j0, Cert.Spec.accUpTo_zero]
    · have hN := N1
      have ih := scAt1_inv n (Nat.lt_of_succ_lt hn) i ⟨j.val - 1, by omega⟩ (by omega) (by dsimp only; omega) r cc
      rw [if_neg j0, ih]
      by_cases hji : j.val ≤ i.val
      · rw [if_pos hji, ← acc_step V c i j hji]
        have e : min (j.val - 1) i.val + 1 = j.val := by omega
        dsimp only
        rw [e]
      · rw [if_neg hji, add_zero]
        have e : min (j.val - 1) i.val + 1 = min j.val i.val + 1 := by omega
        dsimp only
        rw [e]

/-! ## The finished block, and the array -/

/-- The specification's result, as one function of the array's index. -/
def specArr : (⟨2, ![8192, 512]⟩ : Shape).Idx → EReal := fun idx =>
  Cert.Spec.outAt (aX V c) (aQ V c) (aK V c) (aV V c) ⟨(idx 0).val, ValueIdx.idx2_lt0 idx⟩ ⟨(idx 1).val, ValueIdx.idx2_lt1 idx⟩

/-- What the point that finishes the row block i leaves in the output buffer: the residual rows plus the whole causal sum. -/
theorem finished (i : Fin 16) (r cc : Fin 512) :
    ((dat1 (F := Ideal) V c).after 4 (lastPt i) : (⟨2, ![512, 512]⟩ : Shape).Idx → EReal) (ix2 r cc)
      = specArr V c (ix2 (Cert.Spec.blk i r) cc) := by
  have hv : (lastPt i).val = 16 * i.val + 15 := rfl
  have hi : i.val = (lastPt i).val / 16 := by omega
  have hj : ((⟨15, by decide⟩ : Fin 16)).val = (lastPt i).val % 16 := by dsimp only; omega
  rw [after1_4]
  unfold out1_4 k1_pay3
  refine (ValueIdx.addf_apply _ _ _).trans ?_
  rw [iblk_x V c (lastPt i) i hi, scAt1_inv V c _ _ i ⟨15, by decide⟩ hi hj]
  show _ = Cert.Spec.outAt (aX V c) (aQ V c) (aK V c) (aV V c) (Cert.Spec.blk i r) cc
  rw [Cert.Spec.outAt_blk]
  have e : min (15 : ℕ) i.val + 1 = i.val + 1 := by have := i.isLt; omega
  dsimp only
  rw [e]

/-- The array the causal kernel writes, after its run: the specification's result at every index. -/
theorem o_arr (t : Fin 8192) (cc : Fin 512) :
    ((dat1 (F := Ideal) V c).arrAt 4 cfg1.N : (⟨2, ![8192, 512]⟩ : Shape).Idx → EReal) (ix2 t cc)
      = Cert.Spec.outAt (fun t d => (V c main_arg0 : (⟨2, ![8192, 512]⟩ : Shape).Idx → EReal) (ix2 t d))
          (fun t a => (V c main_v2_0 : (⟨2, ![8192, 64]⟩ : Shape).Idx → EReal) (ix2 t a))
          (fun s a => (V c main_v2_1 : (⟨2, ![8192, 64]⟩ : Shape).Idx → EReal) (ix2 s a))
          (fun s cc => (V c main_v2_2 : (⟨2, ![8192, 512]⟩ : Shape).Idx → EReal) (ix2 s cc)) t cc := by
  rw [o_of_blocks V c (specArr V c) (finished V c)]
  rfl

end Cert.KernelIdeal.Val1

end
-- ==== Proof.Bridge.lean ====
/- From the run to the specification, at the ideal instance. After the run the result buffer holds what the causal
   kernel's write-backs leave; that array is the specification's combination of x and of the arrays q, k, v the causal kernel
   finds; those are what the projection kernel's write-backs left, which are the specification's projections of the
   arrays the projection kernel finds; and those are the launch contents of the arguments (γ and β through a reshape
   that adds a unit axis). Composed: the result is the specification's function of the seven arguments. -/
import proofs.«180881_j62843961475101_1_alg».proof.Proof.HandKernelIdeal.Run
import proofs.«180881_j62843961475101_1_alg».proof.Proof.Gen.KernelIdeal.Regions
import proofs.«180881_j62843961475101_1_alg».proof.Proof.Value.Kernel0
import proofs.«180881_j62843961475101_1_alg».proof.Proof.Value.Kernel1
import Idealize.ShloMosaic.Lib.StableHlo.Run
import Idealize.ShloMosaic.Lib.ValueLayout

set_option maxRecDepth 16384

noncomputable section

namespace Cert.KernelIdeal.Bridge

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx (ix1 ix2)

variable (m : (ℓ : Loc nD τ sig) → Buf (Elt Ideal) ℓ) (c : Dev nD)

/-! ## What the projection kernel finds -/

/-- An argument the two reshapes do not write is found as launched. -/
theorem found1 (r : Ref sig .tc) (h : r ∉ Gen.hostOps0_W) : Hand.V1 m c r = m ((c : Thread nD τ).loc r) :=
  Gen.V1_of m c r h

/-- γ as the projection kernel finds it: the argument with a unit axis added. -/
theorem found1_gamma (d : Fin 512) :
    (Hand.V1 m c main_v0 : (⟨2, ![1, 512]⟩ : Shape).Idx → EReal) (ix2 0 d) = (m ((c : Thread nD τ).loc main_arg2) : (⟨1, ![512]⟩ : Shape).Idx → EReal) (ix1 d) := by
  have e : (Hand.V1 m c main_v0 : (⟨2, ![1, 512]⟩ : Shape).Idx → EReal) = shapeCast S1x512 (m ((c : Thread nD τ).loc main_arg2)) shapeCasts_S512_S1x512 := by
    show StableHlo.after hostOps0 (fun b => m (c, b)) (Proc.devRef .tc main_v0) = _
    after_results; rfl
  rw [e]; exact ValueIdx.shapeCast_a_1a_apply _ _ 0 d

/-- β likewise. -/
theorem found1_beta (d : Fin 512) :
    (Hand.V1 m c main_v1 : (⟨2, ![1, 512]⟩ : Shape).Idx → EReal) (ix2 0 d) = (m ((c : Thread nD τ).loc main_arg3) : (⟨1, ![512]⟩ : Shape).Idx → EReal) (ix1 d) := by
  have e : (Hand.V1 m c main_v1 : (⟨2, ![1, 512]⟩ : Shape).Idx → EReal) = shapeCast S1x512 (m ((c : Thread nD τ).loc main_arg3)) shapeCasts_S512_S1x512 := by
    show StableHlo.after hostOps0 (fun b => m (c, b)) (Proc.devRef .tc main_v1) = _
    after_results; rfl
  rw [e]; exact ValueIdx.shapeCast_a_1a_apply _ _ 0 d

/-! ## What the causal kernel finds -/

/-- x as the causal kernel finds it: the projection kernel only read it. -/
theorem found2_x : Hand.V2 m c main_arg0 = m ((c : Thread nD τ).loc main_arg0) :=
  ((W2_arr m c 0).trans (((dat0 (Hand.V1 m) c).arrAt_in 0 rfl _).trans (A_eq0 (Hand.V1 m) c 0))).trans (found1 m c main_arg0 (by decide))

theorem found2_q : Hand.V2 m c main_v2_0 = (dat0 (Hand.V1 m) c).arrAt 7 cfg0.N := W2_arr m c 7
theorem found2_k : Hand.V2 m c main_v2_1 = (dat0 (Hand.V1 m) c).arrAt 8 cfg0.N := W2_arr m c 8
theorem found2_v : Hand.V2 m c main_v2_2 = (dat0 (Hand.V1 m) c).arrAt 9 cfg0.N := W2_arr m c 9

/-! ## The result -/

/-- The result buffer after the run, index by index, is the specification's function of the seven arguments. -/
theorem kernel_out (t : Fin 8192) (cc : Fin 512) :
    (W3 m c (Proc.devRef .tc main_v3) : (⟨2, ![8192, 512]⟩ : Shape).Idx → EReal) (ix2 t cc)
      = Cert.Spec.result
          (fun t d => (m ((c : Thread nD τ).loc main_arg0) : (⟨2, ![8192, 512]⟩ : Shape).Idx → EReal) (ix2 t d))
          (fun s d => (m ((c : Thread nD τ).loc main_arg1) : (⟨2, ![8192, 512]⟩ : Shape).Idx → EReal) (ix2 s d))
          (fun d => (m ((c : Thread nD τ).loc main_arg2) : (⟨1, ![512]⟩ : Shape).Idx → EReal) (ix1 d))
          (fun d => (m ((c : Thread nD τ).loc main_arg3) : (⟨1, ![512]⟩ : Shape).Idx → EReal) (ix1 d))
          (fun d a => (m ((c : Thread nD τ).loc main_arg4) : (⟨2, ![512, 64]⟩ : Shape).Idx → EReal) (ix2 d a))
          (fun d a => (m ((c : Thread nD τ).loc main_arg5) : (⟨2, ![512, 64]⟩ : Shape).Idx → EReal) (ix2 d a))
          (fun d cc => (m ((c : Thread nD τ).loc main_arg6) : (⟨2, ![512, 512]⟩ : Shape).Idx → EReal) (ix2 d cc)) t cc := by
  rw [W3_main_v3 m c]
  refine (Cert.KernelIdeal.Val1.o_arr (Hand.V2 m) c t cc).trans ?_
  unfold Cert.Spec.result
  have hx : (fun (t : Fin 8192) (d : Fin 512) => (Hand.V2 m c main_arg0 : (⟨2, ![8192, 512]⟩ : Shape).Idx → EReal) (ix2 t d))
      = fun t d => (m ((c : Thread nD τ).loc main_arg0) : (⟨2, ![8192, 512]⟩ : Shape).Idx → EReal) (ix2 t d) := by rw [found2_x m c]
  have hγ : (fun d : Fin 512 => (Hand.V1 m c main_v0 : (⟨2, ![1, 512]⟩ : Shape).Idx → EReal) (ix2 0 d))
      = fun d => (m ((c : Thread nD τ).loc main_arg2) : (⟨1, ![512]⟩ : Shape).Idx → EReal) (ix1 d) := funext (found1_gamma m c)
  have hβ : (fun d : Fin 512 => (Hand.V1 m c main_v1 : (⟨2, ![1, 512]⟩ : Shape).Idx → EReal) (ix2 0 d))
      = fun d => (m ((c : Thread nD τ).loc main_arg3) : (⟨1, ![512]⟩ : Shape).Idx → EReal) (ix1 d) := funext (found1_beta m c)
  have hq : (fun (t : Fin 8192) (a : Fin 64) => (Hand.V2 m c main_v2_0 : (⟨2, ![8192, 64]⟩ : Shape).Idx → EReal) (ix2 t a))
      = Cert.Spec.projAt (fun t d => (m ((c : Thread nD τ).loc main_arg0) : (⟨2, ![8192, 512]⟩ : Shape).Idx → EReal) (ix2 t d))
          (fun d => (m ((c : Thread nD τ).loc main_arg2) : (⟨1, ![512]⟩ : Shape).Idx → EReal) (ix1 d))
          (fun d => (m ((c : Thread nD τ).loc main_arg3) : (⟨1, ![512]⟩ : Shape).Idx → EReal) (ix1 d))
          (fun d a => (m ((c : Thread nD τ).loc main_arg4) : (⟨2, ![512, 64]⟩ : Shape).Idx → EReal) (ix2 d a)) := by
    funext t a
    rw [found2_q m c]
    refine (Cert.KernelIdeal.Val0.q_arr (Hand.V1 m) c t a).trans ?_
    rw [hγ, hβ, found1 m c main_arg0 (by decide), found1 m c main_arg4 (by decide)]
  have hk : (fun (s : Fin 8192) (a : Fin 64) => (Hand.V2 m c main_v2_1 : (⟨2, ![8192, 64]⟩ : Shape).Idx → EReal) (ix2 s a))
      = Cert.Spec.projAt (fun t d => (m ((c : Thread nD τ).loc main_arg0) : (⟨2, ![8192, 512]⟩ : Shape).Idx → EReal) (ix2 t d))
          (fun d => (m ((c : Thread nD τ).loc main_arg2) : (⟨1, ![512]⟩ : Shape).Idx → EReal) (ix1 d))
          (fun d => (m ((c : Thread nD τ).loc main_arg3) : (⟨1, ![512]⟩ : Shape).Idx → EReal) (ix1 d))
          (fun d a => (m ((c : Thread nD τ).loc main_arg5) : (⟨2, ![512, 64]⟩ : Shape).Idx → EReal) (ix2 d a)) := by
    funext s a
    rw [found2_k m c]
    refine (Cert.KernelIdeal.Val0.k_arr (Hand.V1 m) c s a).trans ?_
    rw [hγ, hβ, found1 m c main_arg0 (by decide), found1 m c main_arg5 (by decide)]
  have hv : (fun (s : Fin 8192) (cc : Fin 512) => (Hand.V2 m c main_v2_2 : (⟨2, ![8192, 512]⟩ : Shape).Idx → EReal) (ix2 s cc))
      = Cert.Spec.vAt (fun s d => (m ((c : Thread nD τ).loc main_arg1) : (⟨2, ![8192, 512]⟩ : Shape).Idx → EReal) (ix2 s d))
          (fun d cc => (m ((c : Thread nD τ).loc main_arg6) : (⟨2, ![512, 512]⟩ : Shape).Idx → EReal) (ix2 d cc)) := by
    funext s cc
    rw [found2_v m c]
    refine (Cert.KernelIdeal.Val0.v_arr (Hand.V1 m) c s cc).trans ?_
    rw [found1 m c main_arg1 (by decide), found1 m c main_arg6 (by decide)]
  rw [hx, hq, hk, hv]

end Cert.KernelIdeal.Bridge

end
-- ==== Proof.Value.Ref.lean ====
/- The reference's result read index by index at the ideal instance: it is the specification's function of the seven
   argument arrays. -/
import proofs.«180881_j62843961475101_1_alg».proof.Defs
import proofs.«180881_j62843961475101_1_alg».proof.Proof.Gen.ReferenceIdeal.Read
import proofs.«180881_j62843961475101_1_alg».proof.Proof.Value.Spec
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem
open Idealize.ShloMosaic.ValueIdx (ix1 ix2)

section Stages

variable (x0 x1 : (⟨S8192x512, .f32⟩ : BufTy).Contents (Elt Ideal))
  (x2 x3 : (⟨S512, .f32⟩ : BufTy).Contents (Elt Ideal))
  (x4 x5 : (⟨S512x64, .f32⟩ : BufTy).Contents (Elt Ideal))
  (x6 : (⟨S512x512, .f32⟩ : BufTy).Contents (Elt Ideal))

/-- The row mean: at any index of the 8192 × 1 column whose first coordinate is t, the quotient of the row sum by 512
    is the mean of row t. -/
theorem mean_at (t : Fin 8192) (i : S8192x1.Idx) (hi : (i 0).val = t.val) :
    val_main_v3 (F := Ideal) x0 i = Cert.Spec.mean (fun d => x0 (ix2 t d)) := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold Cert.Spec.mean
  refine congrArg (Ideal.div · _) (Finset.sum_congr rfl fun k _ => congrArg x0 ?_)
  funext a; refine Fin.ext ?_
  match a with
  | ⟨0, _⟩ => exact hi
  | ⟨1, _⟩ => rfl

/-- The centred entry (the copy the variance squares). -/
theorem centred_at (t : Fin 8192) (d : Fin 512) :
    val_main_v5 (F := Ideal) x0 (ix2 t d) = x0 (ix2 t d) - Cert.Spec.mean (fun e => x0 (ix2 t e)) := by
  rw [val_main_v5_apply, val_main_v4_apply, mean_at x0 t _ rfl]
  rfl

/-- The centred entry (the copy the normalisation scales). -/
theorem centred'_at (t : Fin 8192) (d : Fin 512) :
    val_main_v12 (F := Ideal) x0 (ix2 t d) = x0 (ix2 t d) - Cert.Spec.mean (fun e => x0 (ix2 t e)) := by
  rw [val_main_v12_apply, val_main_v11_apply, mean_at x0 t _ rfl]
  rfl

/-- The row variance: the mean of the squared centred entries. -/
theorem var_at (t : Fin 8192) (i : S8192x1.Idx) (hi : (i 0).val = t.val) :
    val_main_v10 (F := Ideal) x0 i
      = Cert.Spec.mean (fun e => (x0 (ix2 t e) - Cert.Spec.mean (fun e => x0 (ix2 t e)))
          * (x0 (ix2 t e) - Cert.Spec.mean (fun e => x0 (ix2 t e)))) := by
  rw [val_main_v10_apply, val_main_v8_apply, val_main_v7_apply, val_main_v9_apply, val_main_cst_2_apply,
    val_main_cst_1_apply]
  simp only [Ideal.hostDivf_def, Ideal.ofBits_def, Ideal.ofBits_zero_f32, zero_add]
  unfold Cert.Spec.mean
  refine congrArg (Ideal.div · _) (Finset.sum_congr rfl fun k _ => ?_)
  have hk : idx_main_v7 (idx_main_v8 i) k = ix2 t k := by
    funext a; refine Fin.ext ?_
    match a with
    | ⟨0, _⟩ => exact hi
    | ⟨1, _⟩ => rfl
  rw [hk, val_main_v6_apply, centred_at]
  rfl

/-- The reciprocal standard deviation of row t. -/
theorem rstd_at (t : Fin 8192) (i : S8192x1.Idx) (hi : (i 0).val = t.val) :
    val_main_v15 (F := Ideal) x0 i
      = Ideal.rsqrt (Cert.Spec.mean (fun e => (x0 (ix2 t e) - Cert.Spec.mean (fun e => x0 (ix2 t e)))
          * (x0 (ix2 t e) - Cert.Spec.mean (fun e => x0 (ix2 t e)))) + Cert.Spec.wEps) := by
  rw [val_main_v15_apply, val_main_v14_apply, var_at x0 t i hi, val_main_v13_apply, val_main_cst_3_apply]
  rfl

/-- The scale γ read at (t, d) is γ_d. -/
theorem gamma_at (t : Fin 8192) (d : Fin 512) : val_main_v19 (F := Ideal) x2 (ix2 t d) = x2 (ix1 d) := by
  rw [val_main_v19_apply, val_main_v18_apply]
  refine congrArg x2 ?_
  funext a; refine Fin.ext ?_
  match a with
  | ⟨0, _⟩ => rfl

/-- The shift β read at (t, d) is β_d. -/
theorem beta_at (t : Fin 8192) (d : Fin 512) : val_main_v22 (F := Ideal) x3 (ix2 t d) = x3 (ix1 d) := by
  rw [val_main_v22_apply, val_main_v21_apply]
  refine congrArg x3 ?_
  funext a; refine Fin.ext ?_
  match a with
  | ⟨0, _⟩ => rfl

/-- The normalised row. -/
theorem ln_at (t : Fin 8192) (d : Fin 512) :
    val_main_v23 (F := Ideal) x0 x2 x3 (ix2 t d)
      = Cert.Spec.lnRow (fun e => x0 (ix2 t e)) (fun e => x2 (ix1 e)) (fun e => x3 (ix1 e)) d := by
  rw [val_main_v23_apply, val_main_v20_apply, val_main_v17_apply, centred'_at, val_main_v16_apply,
    rstd_at x0 t _ rfl, gamma_at, beta_at]
  rfl

/-- A projection of the normalised rows (q with Wq, k with Wk). -/
theorem q_at (t : Fin 8192) (a : Fin 64) :
    val_main_v24 (F := Ideal) x0 x2 x3 x4 (ix2 t a)
      = Cert.Spec.projAt (fun t d => x0 (ix2 t d)) (fun e => x2 (ix1 e)) (fun e => x3 (ix1 e))
          (fun d a => x4 (ix2 d a)) t a := by
  rw [val_main_v24_apply]
  unfold Cert.Spec.projAt
  refine Finset.sum_congr rfl fun k _ => ?_
  have hl : lidx_main_v24 (ix2 t a) k = ix2 t k := by
    funext b; refine Fin.ext ?_
    match b with
    | ⟨0, _⟩ => rfl
    | ⟨1, _⟩ => rfl
  have hr : ridx_main_v24 (ix2 t a) k = ix2 k a := by
    funext b; refine Fin.ext ?_
    match b with
    | ⟨0, _⟩ => rfl
    | ⟨1, _⟩ => rfl
  rw [hl, hr, ln_at]

theorem k_at (t : Fin 8192) (a : Fin 64) :
    val_main_v25 (F := Ideal) x0 x2 x3 x5 (ix2 t a)
      = Cert.Spec.projAt (fun t d => x0 (ix2 t d)) (fun e => x2 (ix1 e)) (fun e => x3 (ix1 e))
          (fun d a => x5 (ix2 d a)) t a := by
  rw [val_main_v25_apply]
  unfold Cert.Spec.projAt
  refine Finset.sum_congr rfl fun k _ => ?_
  have hl : lidx_main_v25 (ix2 t a) k = ix2 t k := by
    funext b; refine Fin.ext ?_
    match b with
    | ⟨0, _⟩ => rfl
    | ⟨1, _⟩ => rfl
  have hr : ridx_main_v25 (ix2 t a) k = ix2 k a := by
    funext b; refine Fin.ext ?_
    match b with
    | ⟨0, _⟩ => rfl
    | ⟨1, _⟩ => rfl
  rw [hl, hr, ln_at]

/-- The value rows. -/
theorem v_at (s : Fin 8192) (cc : Fin 512) :
    val_main_v32 (F := Ideal) x1 x6 (ix2 s cc)
      = Cert.Spec.vAt (fun s d => x1 (ix2 s d)) (fun d cc => x6 (ix2 d cc)) s cc := by
  rw [val_main_v32_apply]
  unfold Cert.Spec.vAt
  refine Finset.sum_congr rfl fun k _ => ?_
  have hl : lidx_main_v32 (ix2 s cc) k = ix2 s k := by
    funext b; refine Fin.ext ?_
    match b with
    | ⟨0, _⟩ => rfl
    | ⟨1, _⟩ => rfl
  have hr : ridx_main_v32 (ix2 s cc) k = ix2 k cc := by
    funext b; refine Fin.ext ?_
    match b with
    | ⟨0, _⟩ => rfl
    | ⟨1, _⟩ => rfl
  rw [hl, hr]

end Stages

section Mask

/-- Two row numbers below 8192, as 32-bit words, compare signed as the numbers do. -/
theorem sge_word (t s : Nat) (ht : t < 8192) (hs : s < 8192) :
    IntOp.cmpi .sge (IntOp.addi (BitVec.ofNat 32 t) 0#32) (BitVec.ofNat 32 s) = if s ≤ t then 1#1 else 0#1 := by
  have hadd : IntOp.addi (BitVec.ofNat 32 t) 0#32 = BitVec.ofNat 32 t := by
    unfold IntOp.addi; exact BitVec.add_zero _
  have htn : (BitVec.ofNat 32 t).toNat = t := by
    rw [BitVec.toNat_ofNat]; exact Nat.mod_eq_of_lt (by omega)
  have hsn : (BitVec.ofNat 32 s).toNat = s := by
    rw [BitVec.toNat_ofNat]; exact Nat.mod_eq_of_lt (by omega)
  have hiff := StableHlo.Predicate.sge_iff_toNat (a := BitVec.ofNat 32 t) (b := BitVec.ofNat 32 s)
    (by rw [htn]; omega) (by rw [hsn]; omega)
  rw [htn, hsn] at hiff
  rw [hadd]
  by_cases h : s ≤ t
  · rw [if_pos h]; exact hiff.mpr h
  · rw [if_neg h]; exact ValueIdx.eq_zero_of_ne_one (fun h1 => h (hiff.mp h1))

variable {F : FTy → Type} [FloatOps F]

/-- The causal mask at (t, s): set exactly when s ≤ t. -/
theorem mask_at (t s : Fin 8192) :
    val_main_v30 (F := F) (ix2 t s) = if s.val ≤ t.val then 1#1 else 0#1 := by
  rw [val_main_v30_apply, val_main_call0_v4_apply, val_main_call0_v2_apply, val_main_call0_v0_apply,
    val_main_call0_v1_apply, val_main_call0_c_apply, val_main_call0_v3_apply, val_main_v29_apply, val_main_c_apply,
    val_main_call0_v5_apply, val_main_call0_c_0_apply]
  refine (congrArg (Scalar.select · 1#1 0#1) (sge_word t.val s.val t.isLt s.isLt)).trans ?_
  by_cases h : s.val ≤ t.val
  · rw [if_pos h]; exact ValueIdx.select_one _ _
  · rw [if_neg h]; exact ValueIdx.select_zero _ _

end Mask

section Result

variable (x0 x1 : (⟨S8192x512, .f32⟩ : BufTy).Contents (Elt Ideal))
  (x2 x3 : (⟨S512, .f32⟩ : BufTy).Contents (Elt Ideal))
  (x4 x5 : (⟨S512x64, .f32⟩ : BufTy).Contents (Elt Ideal))
  (x6 : (⟨S512x512, .f32⟩ : BufTy).Contents (Elt Ideal))

/-- The masked, scaled score at (t, s) is the causal coefficient of q and k. -/
theorem coeff_at (t s : Fin 8192) :
    val_main_v31 (F := Ideal) x0 x2 x3 x4 x5 (ix2 t s)
      = Cert.Spec.cAt
          (Cert.Spec.projAt (fun t d => x0 (ix2 t d)) (fun e => x2 (ix1 e)) (fun e => x3 (ix1 e)) (fun d a => x4 (ix2 d a)))
          (Cert.Spec.projAt (fun t d => x0 (ix2 t d)) (fun e => x2 (ix1 e)) (fun e => x3 (ix1 e)) (fun d a => x5 (ix2 d a)))
          t s := by
  rw [val_main_v31_apply, mask_at]
  unfold Cert.Spec.cAt
  by_cases h : s.val ≤ t.val
  · rw [if_pos h, if_pos h, ValueIdx.select_one, val_main_v28_apply, val_main_v26_apply, val_main_v27_apply,
      val_main_cst_4_apply]
    simp only [Ideal.mulf_def, Ideal.ofBits_def]
    refine congrArg (· * _) (Finset.sum_congr rfl fun a _ => ?_)
    have hl : lidx_main_v26 (ix2 t s) a = ix2 t a := by
      funext b; refine Fin.ext ?_
      match b with
      | ⟨0, _⟩ => rfl
      | ⟨1, _⟩ => rfl
    have hr : ridx_main_v26 (ix2 t s) a = ix2 s a := by
      funext b; refine Fin.ext ?_
      match b with
      | ⟨0, _⟩ => rfl
      | ⟨1, _⟩ => rfl
    rw [hl, hr, q_at, k_at]
  · rw [if_neg h, if_neg h, ValueIdx.select_zero, val_main_call1_v1_apply, val_main_call1_v0_apply,
      val_main_cst_5_apply]
    simp only [Ideal.ofBits_def, Ideal.ofBits_zero_f32]

/-- The reference's last stage at (t, c) is the specification's result. -/
theorem out_at (t : Fin 8192) (cc : Fin 512) :
    val_main_v34 (F := Ideal) x0 x1 x2 x3 x4 x5 x6 (ix2 t cc)
      = Cert.Spec.result (fun t d => x0 (ix2 t d)) (fun s d => x1 (ix2 s d)) (fun e => x2 (ix1 e)) (fun e => x3 (ix1 e))
          (fun d a => x4 (ix2 d a)) (fun d a => x5 (ix2 d a)) (fun d cc => x6 (ix2 d cc)) t cc := by
  rw [val_main_v34_apply, val_main_v33_apply]
  unfold Cert.Spec.result Cert.Spec.outAt
  simp only [Ideal.addf_def]
  refine congrArg (_ + ·) (Finset.sum_congr rfl fun s _ => ?_)
  have hl : lidx_main_v33 (ix2 t cc) s = ix2 t s := by
    funext b; refine Fin.ext ?_
    match b with
    | ⟨0, _⟩ => rfl
    | ⟨1, _⟩ => rfl
  have hr : ridx_main_v33 (ix2 t cc) s = ix2 s cc := by
    funext b; refine Fin.ext ?_
    match b with
    | ⟨0, _⟩ => rfl
    | ⟨1, _⟩ => rfl
  rw [hl, hr, coeff_at, v_at]

end Result

theorem ref_out (m : (ℓ : Loc nD τ sig) → Buf (Elt Ideal) ℓ) (c : Dev nD) (t : Fin 8192) (cc : Fin 512) :
    (res_out0 (F := Ideal) m c : (⟨2, ![8192, 512]⟩ : Shape).Idx → EReal) (ix2 t cc)
      = Cert.Spec.result
          (fun t d => (m ((c.tc : Thread nD τ).loc main_arg0) : (⟨2, ![8192, 512]⟩ : Shape).Idx → EReal) (ix2 t d))
          (fun s d => (m ((c.tc : Thread nD τ).loc main_arg1) : (⟨2, ![8192, 512]⟩ : Shape).Idx → EReal) (ix2 s d))
          (fun d => (m ((c.tc : Thread nD τ).loc main_arg2) : (⟨1, ![512]⟩ : Shape).Idx → EReal) (ix1 d))
          (fun d => (m ((c.tc : Thread nD τ).loc main_arg3) : (⟨1, ![512]⟩ : Shape).Idx → EReal) (ix1 d))
          (fun d a => (m ((c.tc : Thread nD τ).loc main_arg4) : (⟨2, ![512, 64]⟩ : Shape).Idx → EReal) (ix2 d a))
          (fun d a => (m ((c.tc : Thread nD τ).loc main_arg5) : (⟨2, ![512, 64]⟩ : Shape).Idx → EReal) (ix2 d a))
          (fun d cc => (m ((c.tc : Thread nD τ).loc main_arg6) : (⟨2, ![512, 512]⟩ : Shape).Idx → EReal) (ix2 d cc)) t cc := by
  refine (congrFun (val_main_v34_eq (F := Ideal) m c) (ix2 t cc)).trans ?_
  exact out_at _ _ _ _ _ _ _ t cc

end Cert.ReferenceIdeal.RefValue

end
-- ==== Proof.lean ====
/- The certificate. The three frames, the idealization's ledger (empty), and the equality of the two idealized programs'
   results over the extended reals.
   Both kernels' programs run as one launch over their segments (two reshapes, the projection kernel, the causal kernel);
   every unscoped buffer ends at the last boundary's contents: the arguments as launched — the frame — and the result at
   what the causal kernel's write-backs leave, which index by index is the specification's function of the arguments:
   o_{t,c} = x_{t,c} + Σ_{s ≤ t} ((Σ_a q_{t,a} k_{s,a}) · ⅛) · v_{s,c} with q, k the projections of the normalised rows and v
   the projection of the embedding rows. The reference's generated run ends at its composed term, which read index by
   index is the same function. The kernel sums block by block and skips the blocks above the diagonal, where the reference
   adds zero coefficients: equal in the commutative monoid of the extended reals, no finiteness needed. -/
import proofs.«180881_j62843961475101_1_alg».proof.Defs
import proofs.«180881_j62843961475101_1_alg».proof.Proof.Gen.Kernel
import proofs.«180881_j62843961475101_1_alg».proof.Proof.Gen.KernelIdeal
import proofs.«180881_j62843961475101_1_alg».proof.Proof.Gen.ReferenceIdeal
import proofs.«180881_j62843961475101_1_alg».proof.Proof.Gen.Pre_finite_inputs
import proofs.«180881_j62843961475101_1_alg».proof.Proof.HandKernel.Region0
import proofs.«180881_j62843961475101_1_alg».proof.Proof.HandKernel.Region1
import proofs.«180881_j62843961475101_1_alg».proof.Proof.HandKernel.Run
import proofs.«180881_j62843961475101_1_alg».proof.Proof.HandKernelIdeal.Region0
import proofs.«180881_j62843961475101_1_alg».proof.Proof.HandKernelIdeal.Region1
import proofs.«180881_j62843961475101_1_alg».proof.Proof.HandKernelIdeal.Run
import proofs.«180881_j62843961475101_1_alg».proof.Proof.Bridge
import proofs.«180881_j62843961475101_1_alg».proof.Proof.Value.Ref
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx (ix2 eq_ix2)

/-- The word-level program's run, with every unscoped buffer named. -/
theorem run_k (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      ∀ b ∈ Pipeline.ucRefs Cert.Kernel.τ Cert.Kernel.sig, r.2.mem (((c : Thread Cert.Kernel.nD Cert.Kernel.τ)).1, b) = Cert.Kernel.Hand.W3 m c b) :=
  Cert.Kernel.Hand.run_all (F := Bits) m ρ (fun V c => Cert.Kernel.Hand.body_obligation0 V c)
    (fun V c => Cert.Kernel.Hand.body_obligation1 V c) (fun V c => Cert.Kernel.Hand.Phi1_out V c)

/-- The word-level program runs and leaves its arguments as launched. -/
theorem frame_k : Cert.frame_Kernel := by
  intro m ρ _
  refine (θ_run (Cert.Kernel.defs (F := Bits)) _ _).mono ?_ (run_k m ρ)
  intro r h c
  exact ⟨(h c _ (Cert.Kernel.Hand.mem_uc Cert.Kernel.main_arg0 (by decide))).trans (Cert.Kernel.Hand.W3_main_arg0 m c),
    (h c _ (Cert.Kernel.Hand.mem_uc Cert.Kernel.main_arg1 (by decide))).trans (Cert.Kernel.Hand.W3_main_arg1 m c),
    (h c _ (Cert.Kernel.Hand.mem_uc Cert.Kernel.main_arg2 (by decide))).trans (Cert.Kernel.Hand.W3_main_arg2 m c),
    (h c _ (Cert.Kernel.Hand.mem_uc Cert.Kernel.main_arg3 (by decide))).trans (Cert.Kernel.Hand.W3_main_arg3 m c),
    (h c _ (Cert.Kernel.Hand.mem_uc Cert.Kernel.main_arg4 (by decide))).trans (Cert.Kernel.Hand.W3_main_arg4 m c),
    (h c _ (Cert.Kernel.Hand.mem_uc Cert.Kernel.main_arg5 (by decide))).trans (Cert.Kernel.Hand.W3_main_arg5 m c),
    (h c _ (Cert.Kernel.Hand.mem_uc Cert.Kernel.main_arg6 (by decide))).trans (Cert.Kernel.Hand.W3_main_arg6 m c)⟩

/-- The idealized program's run, with every unscoped buffer named. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      ∀ b ∈ Pipeline.ucRefs Cert.KernelIdeal.τ Cert.KernelIdeal.sig, r.2.mem (((c : Thread Cert.KernelIdeal.nD Cert.KernelIdeal.τ)).1, b) = Cert.KernelIdeal.Hand.W3 m c b) :=
  Cert.KernelIdeal.Hand.run_all (F := Ideal) m ρ (fun V c => Cert.KernelIdeal.Hand.body_obligation0 V c)
    (fun V c => Cert.KernelIdeal.Hand.body_obligation1 V c) (fun V c => Cert.KernelIdeal.Hand.Phi1_out V c)

/-- The idealized program runs and leaves its arguments as launched. -/
theorem frame_ki : Cert.frame_KernelIdeal := by
  intro m ρ _
  refine (θ_run (Cert.KernelIdeal.defs (F := Ideal)) _ _).mono ?_ (run_ki m ρ)
  intro r h c
  exact ⟨(h c _ (Cert.KernelIdeal.Hand.mem_uc Cert.KernelIdeal.main_arg0 (by decide))).trans (Cert.KernelIdeal.Hand.W3_main_arg0 m c),
    (h c _ (Cert.KernelIdeal.Hand.mem_uc Cert.KernelIdeal.main_arg1 (by decide))).trans (Cert.KernelIdeal.Hand.W3_main_arg1 m c),
    (h c _ (Cert.KernelIdeal.Hand.mem_uc Cert.KernelIdeal.main_arg2 (by decide))).trans (Cert.KernelIdeal.Hand.W3_main_arg2 m c),
    (h c _ (Cert.KernelIdeal.Hand.mem_uc Cert.KernelIdeal.main_arg3 (by decide))).trans (Cert.KernelIdeal.Hand.W3_main_arg3 m c),
    (h c _ (Cert.KernelIdeal.Hand.mem_uc Cert.KernelIdeal.main_arg4 (by decide))).trans (Cert.KernelIdeal.Hand.W3_main_arg4 m c),
    (h c _ (Cert.KernelIdeal.Hand.mem_uc Cert.KernelIdeal.main_arg5 (by decide))).trans (Cert.KernelIdeal.Hand.W3_main_arg5 m c),
    (h c _ (Cert.KernelIdeal.Hand.mem_uc Cert.KernelIdeal.main_arg6 (by decide))).trans (Cert.KernelIdeal.Hand.W3_main_arg6 m c)⟩

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the same result, index by index the
    specification's function of the arguments. -/
theorem algebraic : Cert.algebraic_KernelIdeal_ReferenceIdeal := by
  intro m ρ m' ρ' _ hagree
  refine ⟨fun c => Cert.KernelIdeal.Hand.W3 m c (Proc.devRef .tc Cert.KernelIdeal.main_v3), ?_, ?_⟩
  · refine (θ_run (Cert.KernelIdeal.defs (F := Ideal)) _ _).mono ?_ (run_ki m ρ)
    intro r h c
    exact ⟨h c _ (Cert.KernelIdeal.Hand.mem_uc Cert.KernelIdeal.main_v3 (by decide)),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c),
       (h c _ (Cert.KernelIdeal.Hand.mem_uc Cert.KernelIdeal.main_arg2 (by decide))).trans (Cert.KernelIdeal.Hand.W3_main_arg2 m c),
       (h c _ (Cert.KernelIdeal.Hand.mem_uc Cert.KernelIdeal.main_arg3 (by decide))).trans (Cert.KernelIdeal.Hand.W3_main_arg3 m c),
       (h c _ (Cert.KernelIdeal.Hand.mem_uc Cert.KernelIdeal.main_arg4 (by decide))).trans (Cert.KernelIdeal.Hand.W3_main_arg4 m c),
       (h c _ (Cert.KernelIdeal.Hand.mem_uc Cert.KernelIdeal.main_arg5 (by decide))).trans (Cert.KernelIdeal.Hand.W3_main_arg5 m c),
       (h c _ (Cert.KernelIdeal.Hand.mem_uc Cert.KernelIdeal.main_arg6 (by decide))).trans (Cert.KernelIdeal.Hand.W3_main_arg6 m c)⟩
  · refine (θ_run Cert.ReferenceIdeal.defs _ _).mono (fun _ h c => ⟨(h c).1.trans ?_, (h c).2⟩)
      (Cert.ReferenceIdeal.Value.run (F := Ideal) m' ρ')
    funext j
    obtain ⟨t, cc, rfl⟩ : ∃ (t : Fin 8192) (cc : Fin 512), j = ix2 t cc := ⟨j 0, j 1, eq_ix2 j⟩
    refine (Cert.ReferenceIdeal.RefValue.ref_out m' c t cc).trans ?_
    rw [(hagree c).1, (hagree c).2.1, (hagree c).2.2.1, (hagree c).2.2.2.1, (hagree c).2.2.2.2.1, (hagree c).2.2.2.2.2.1, (hagree c).2.2.2.2.2.2]
    exact (Cert.KernelIdeal.Bridge.kernel_out m c t cc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
